-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S5000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v83)) (v2 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v83) = v1 c
          ∧ r.2.mem ((c.tc : Thread Cert.KernelIdeal.nD Cert.KernelIdeal.τ).loc Cert.KernelIdeal.main_v87) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x10 .f32) (main_arg10 : FVec F S10 .f32) (main_arg11 : FVec F S128x1 .f32) (main_arg12 : FVec F S1 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_arg11 : FVec F S128x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x1600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S5000x128 : Shape := ⟨2, ![5000, 128]⟩
abbrev S1600000x128 : Shape := ⟨2, ![1600000, 128]⟩
abbrev S10000x128 : Shape := ⟨2, ![10000, 128]⟩
abbrev S10000x1 : Shape := ⟨2, ![10000, 1]⟩
abbrev S5000x1 : Shape := ⟨2, ![5000, 1]⟩
abbrev S1x128 : Shape := ⟨2, ![1, 128]⟩
abbrev S64x128 : Shape := ⟨2, ![64, 128]⟩
abbrev S1x64 : Shape := ⟨2, ![1, 64]⟩
abbrev S64 : Shape := ⟨1, ![64]⟩
abbrev S64x1 : Shape := ⟨2, ![64, 1]⟩
abbrev S64x10 : Shape := ⟨2, ![64, 10]⟩
abbrev S1x10 : Shape := ⟨2, ![1, 10]⟩
abbrev S1x1 : Shape := ⟨2, ![1, 1]⟩

abbrev nBuf : Space → Nat
  | .hbm => 121
  | .vmem => 66
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S128x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S50000, .f32⟩
  | .hbm, ⟨21, _⟩ => ⟨S1600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000, .f32⟩
  | .hbm, ⟨52, _⟩ => ⟨S1600000x1, .f32⟩
  | .hbm, ⟨53, _⟩ => ⟨S50000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S50000x128, .f32⟩
  | .hbm, ⟨66, _⟩ => ⟨S1600000x1, .i32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x128, .f32⟩
  | .hbm, ⟨79, _⟩ => ⟨S1600000x128, .f32⟩
  | .hbm, ⟨80, _⟩ => ⟨S_, .f32⟩
  | .hbm, ⟨81, _⟩ => ⟨S50000x128, .f32⟩
  | .hbm, ⟨82, _⟩ => ⟨S1600000x1, .i32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x128, .f32⟩
  | .hbm, ⟨95, _⟩ => ⟨S1600000x128, .f32⟩
  | .hbm, ⟨96, _⟩ => ⟨S_, .f32⟩
  | .hbm, ⟨97, _⟩ => ⟨S50000x128, .f32⟩
  | .hbm, ⟨98, _⟩ => ⟨S1600000x1, .i32⟩
  | .hbm, ⟨99, _⟩ => ⟨S50000x128, .f32⟩
  | .hbm, ⟨100, _⟩ => ⟨S50000x128, .f32⟩
  | .hbm, ⟨101, _⟩ => ⟨S50000x1, .i32⟩
  | .hbm, ⟨102, _⟩ => ⟨S128x128, .f32⟩
  | .hbm, ⟨103, _⟩ => ⟨S1x128, .f32⟩
  | .hbm, ⟨104, _⟩ => ⟨S64x128, .f32⟩
  | .hbm, ⟨105, _⟩ => ⟨S1x64, .f32⟩
  | .hbm, ⟨106, _⟩ => ⟨S64, .f32⟩
  | .hbm, ⟨107, _⟩ => ⟨S_, .f32⟩
  | .hbm, ⟨108, _⟩ => ⟨S64, .f32⟩
  | .hbm, ⟨109, _⟩ => ⟨S64, .f32⟩
  | .hbm, ⟨110, _⟩ => ⟨S64x1, .f32⟩
  | .hbm, ⟨111, _⟩ => ⟨S64x128, .f32⟩
  | .hbm, ⟨112, _⟩ => ⟨S64x128, .f32⟩
  | .hbm, ⟨113, _⟩ => ⟨S64x10, .f32⟩
  | .hbm, ⟨114, _⟩ => ⟨S1x10, .f32⟩
  | .hbm, ⟨115, _⟩ => ⟨S64x10, .f32⟩
  | .hbm, ⟨116, _⟩ => ⟨S64x10, .f32⟩
  | .hbm, ⟨117, _⟩ => ⟨S64x1, .f32⟩
  | .hbm, ⟨118, _⟩ => ⟨S1x1, .f32⟩
  | .hbm, ⟨119, _⟩ => ⟨S64x1, .f32⟩
  | .hbm, ⟨120, _⟩ => ⟨S64x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S10000x128, .f32⟩
  | .local _ .vmem, ⟨26, _⟩ => ⟨S10000x128, .f32⟩
  | .local _ .vmem, ⟨27, _⟩ => ⟨S10000x1, .f32⟩
  | .local _ .vmem, ⟨28, _⟩ => ⟨S10000x1, .f32⟩
  | .local _ .vmem, ⟨29, _⟩ => ⟨S10000x128, .f32⟩
  | .local _ .vmem, ⟨30, _⟩ => ⟨S10000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S5000x128, .f32⟩
  | .local _ .vmem, ⟨44, _⟩ => ⟨S5000x128, .f32⟩
  | .local _ .vmem, ⟨45, _⟩ => ⟨S10000x128, .f32⟩
  | .local _ .vmem, ⟨46, _⟩ => ⟨S10000x128, .f32⟩
  | .local _ .vmem, ⟨47, _⟩ => ⟨S10000x1, .f32⟩
  | .local _ .vmem, ⟨48, _⟩ => ⟨S10000x1, .f32⟩
  | .local _ .vmem, ⟨49, _⟩ => ⟨S10000x128, .f32⟩
  | .local _ .vmem, ⟨50, _⟩ => ⟨S10000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x1, .f32⟩
  | .local _ .vmem, ⟨56, _⟩ => ⟨S5000x1, .f32⟩
  | .local _ .vmem, ⟨57, _⟩ => ⟨S128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x1, .i32⟩
  | .local _ .vmem, ⟨63, _⟩ => ⟨S5000x1, .i32⟩
  | .local _ .vmem, ⟨64, _⟩ => ⟨S128x128, .f32⟩
  | .local _ .vmem, ⟨65, _⟩ => ⟨S1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_13 : Ref sig .tc := ⟨.hbm, 86, rfl⟩
abbrev main_v58 : Ref sig .tc := ⟨.hbm, 87, rfl⟩
abbrev main_v59 : Ref sig .tc := ⟨.hbm, 88, rfl⟩
abbrev main_c_14 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_15 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71_0 : Ref sig .tc := ⟨.hbm, 102, rfl⟩
abbrev main_v71_1 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg2_1 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg1_1 : Ref sig .tc := ⟨.vmem, 54, rfl⟩
abbrev cc8_stg2_0 : Ref sig .tc := ⟨.vmem, 55, rfl⟩
abbrev cc8_stg2_1 : Ref sig .tc := ⟨.vmem, 56, rfl⟩
abbrev cc8_stg3_0 : Ref sig .tc := ⟨.vmem, 57, rfl⟩
abbrev cc8_stg4_0 : Ref sig .tc := ⟨.vmem, 58, rfl⟩
abbrev cc8_stg4_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg1_1 : Ref sig .tc := ⟨.vmem, 63, rfl⟩
abbrev cc9_stg2_0 : Ref sig .tc := ⟨.vmem, 64, rfl⟩
abbrev cc9_stg3_0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem2_1 : DmaSem sig := 50
abbrev cc8_sem0_0 : DmaSem sig := 51
abbrev cc8_sem0_1 : DmaSem sig := 52
abbrev cc8_sem1_0 : DmaSem sig := 53
abbrev cc8_sem1_1 : DmaSem sig := 54
abbrev cc8_sem2_0 : DmaSem sig := 55
abbrev cc8_sem2_1 : DmaSem sig := 56
abbrev cc8_sem3_0 : DmaSem sig := 57
abbrev cc8_sem4_0 : DmaSem sig := 58
abbrev cc8_sem4_1 : DmaSem sig := 59
abbrev cc9_sem0_0 : DmaSem sig := 60
abbrev cc9_sem0_1 : DmaSem sig := 61
abbrev cc9_sem1_0 : DmaSem sig := 62
abbrev cc9_sem1_1 : DmaSem sig := 63
abbrev cc9_sem2_0 : DmaSem sig := 64
abbrev cc9_sem3_0 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![160], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![160], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  shapeCasts_S1600000_S1600000x1 : S1600000.ShapeCasts S1600000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S50000x128 : S_.BroadcastsInDim S50000x128 (![] : Fin 0 → Fin S50000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S1x128_S1x128_0_0 : ∀ a, (![0, 0] : Fin 2 → Nat) a + S1x128.size a ≤ S1x128.size a
  h_S1x128 : 0 < S1x128.numel
  iota_S5000x128_d1_w32 : S5000x128.Iotas .tc 32 [1]
  natLt_1_32 : 1 < 32
  shapeCasts_S128x128_S128x128 : S128x128.ShapeCasts S128x128
  shapeCasts_S1x128_S1x128 : S1x128.ShapeCasts S1x128
  reduces_S5000x128_S128 : S5000x128.Reduces [0] S128
  slices_S128x128_S64x128_0_0 : S128x128.Slices ![0, 0] S64x128
  slices_S1x128_S1x64_0_0 : S1x128.Slices ![0, 0] S1x64
  shapeCasts_S1x64_S64 : S1x64.ShapeCasts S64
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S5000x128_S128x128_0_0_1_1_n_n_wf : DotDims.WF S5000x128 S5000x128 S128x128 [0] [0] [1] [1] [] []
  dot_S64x128_S128x10_S64x10_1_0_0_1_n_n_wf : DotDims.WF S64x128 S128x10 S64x10 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1600000x128.size a
  hwx1_0 : ∀ i : grid1.Coords, EltTy.bits .f32 = 32 ∨ (Rect.block (s := S1600000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1600000x1.size a
  hwx1_1 : ∀ i : grid1.Coords, EltTy.bits .f32 = 32 ∨ (Rect.block (s := S1600000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1600000x128.size a
  hwx1_2 : ∀ i : grid1.Coords, EltTy.bits .f32 = 32 ∨ (Rect.block (s := S1600000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S1600000x128.size a
  hwx4_0 : ∀ i : grid4.Coords, EltTy.bits .f32 = 32 ∨ (Rect.block (s := S1600000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1600000x1.size a
  hwx4_1 : ∀ i : grid4.Coords, EltTy.bits .f32 = 32 ∨ (Rect.block (s := S1600000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S1600000x128.size a
  hwx4_2 : ∀ i : grid4.Coords, EltTy.bits .f32 = 32 ∨ (Rect.block (s := S1600000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S1600000x128.size a
  hwx7_0 : ∀ i : grid7.Coords, EltTy.bits .f32 = 32 ∨ (Rect.block (s := S1600000x128) S10000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S1600000x1.size a
  hwx7_1 : ∀ i : grid7.Coords, EltTy.bits .f32 = 32 ∨ (Rect.block (s := S1600000x1) S10000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x128.size a ≤ S1600000x128.size a
  hwx7_2 : ∀ i : grid7.Coords, EltTy.bits .f32 = 32 ∨ (Rect.block (s := S1600000x128) S10000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S50000x1.size a
  hwx8_2 : ∀ i : grid8.Coords, EltTy.bits .f32 = 32 ∨ (Rect.block (s := S50000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128.size a ≤ S128.size a
  hwx8_3 : ∀ i : grid8.Coords, EltTy.bits .f32 = 32 ∨ (Rect.block (s := S128) S128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S50000x128.size a
  hwx8_4 : ∀ i : grid8.Coords, EltTy.bits .f32 = 32 ∨ (Rect.block (s := S50000x128) S5000x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S50000x1.size a
  hwx9_1 : ∀ i : grid9.Coords, EltTy.bits .i32 = 32 ∨ (Rect.block (s := S50000x1) S5000x1.size (cc9_transform_1 i) (hinb9_1 i)).WholeWords (EltTy.packing .i32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v43) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v51) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v55) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v14) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg6) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v56) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v56) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v57) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v64) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v30) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v65) S10000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v68) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v57) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v14) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_arg8) S128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v69) S5000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v69) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v70) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v71_0) S128x128.size cc9_transform_2 reads9_2 true true 1 stage9_2 sem9_2
    hrank9 hreads9_2 hinb9_2 nbuf9_2 (Memref.isWhole_whole _) hwx9_2 hstage9_2

abbrev win9_3 : Pipeline.Window sig grid9 :=
  Pipeline.Window.ofSpec (Memref.whole main_v71_1) S1x128.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x10 : Shape := ⟨2, ![64, 10]⟩
abbrev S1x10 : Shape := ⟨2, ![1, 10]⟩
abbrev S1x1 : Shape := ⟨2, ![1, 1]⟩

abbrev nBuf : Space → Nat
  | .hbm => 215
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S128x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S50000, .f32⟩
  | 21 => ⟨S1600000x1, .i32⟩
  | 22 => ⟨S50000, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S1600000x1, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S1600000x128, .f32⟩
  | 63 => ⟨S1600000x128, .f32⟩
  | 64 => ⟨S_, .f32⟩
  | 65 => ⟨S50000x128, .f32⟩
  | 66 => ⟨S1600000x1, .i32⟩
  | 67 => ⟨S50000x128, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .i1⟩
  | 78 => ⟨S_, .f32⟩
  | 79 => ⟨S50000x128, .f32⟩
  | 80 => ⟨S50000x128, .i1⟩
  | 81 => ⟨S_, .f32⟩
  | 82 => ⟨S_, .f32⟩
  | 83 => ⟨S50000x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S50000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S1600000, .f32⟩
  | 110 => ⟨S1600000x1, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x128, .f32⟩
  | 120 => ⟨S1600000x128, .f32⟩
  | 121 => ⟨S1600000x128, .f32⟩
  | 122 => ⟨S_, .f32⟩
  | 123 => ⟨S50000x128, .f32⟩
  | 124 => ⟨S1600000x1, .i32⟩
  | 125 => ⟨S50000x128, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .i1⟩
  | 8 => ⟨S_, .f32⟩
  | 9 => ⟨S50000x128, .f32⟩
  | 10 => ⟨S50000x128, .i1⟩
  | 11 => ⟨S_, .f32⟩
  | 12 => ⟨S_, .f32⟩
  | 13 => ⟨S50000x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S50000x128, .f32⟩
  | 20 => ⟨S50000x128, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S1600000x1, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S1600000x128, .f32⟩
  | 51 => ⟨S1600000x128, .f32⟩
  | 52 => ⟨S_, .f32⟩
  | 53 => ⟨S50000x128, .f32⟩
  | 54 => ⟨S1600000x1, .i32⟩
  | 55 => ⟨S50000x128, .f32⟩
  | 56 => ⟨S50000x1, .f32⟩
  | 57 => ⟨S50000x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S64x128, .f32⟩
  | 65 => ⟨S50000x1, .i32⟩
  | 66 => ⟨S64x128, .f32⟩
  | 67 => ⟨S_, .f32⟩
  | 68 => ⟨S50000, .f32⟩
  | 69 => ⟨S_, .f32⟩
  | 70 => ⟨S64, .f32⟩
  | 71 => ⟨S50000x1, .i32⟩
  | 72 => ⟨S64, .f32⟩
  | 73 => ⟨S_, .f32⟩
  | 74 => ⟨S64, .f32⟩
  | 75 => ⟨S64, .f32⟩
  | 76 => ⟨S64x1, .f32⟩
  | 77 => ⟨S64x128, .f32⟩
  | 78 => ⟨S64x128, .f32⟩
  | 79 => ⟨S64x10, .f32⟩
  | 80 => ⟨S1x10, .f32⟩
  | 81 => ⟨S64x10, .f32⟩
  | 82 => ⟨S64x10, .f32⟩
  | 83 => ⟨S64x1, .f32⟩
  | 84 => ⟨S1x1, .f32⟩
  | 85 => ⟨S64x1, .f32⟩
  | 86 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_cst_0 : Ref sig .tc := ⟨.hbm, 78, rfl⟩
abbrev main_call0_v2 : Ref sig .tc := ⟨.hbm, 79, rfl⟩
abbrev main_call0_v3 : Ref sig .tc := ⟨.hbm, 80, rfl⟩
abbrev main_call0_cst_1 : Ref sig .tc := ⟨.hbm, 81, rfl⟩
abbrev main_call0_call0_v0 : Ref sig .tc := ⟨.hbm, 82, rfl⟩
abbrev main_call0_call0_v1 : Ref sig .tc := ⟨.hbm, 83, rfl⟩
abbrev main_call0_v4 : Ref sig .tc := ⟨.hbm, 84, rfl⟩
abbrev main_call0_v5 : Ref sig .tc := ⟨.hbm, 85, rfl⟩
abbrev main_call0_cst_2 : Ref sig .tc := ⟨.hbm, 86, rfl⟩
abbrev main_call0_v6 : Ref sig .tc := ⟨.hbm, 87, rfl⟩
abbrev main_call0_v7 : Ref sig .tc := ⟨.hbm, 88, rfl⟩
abbrev main_v50 : Ref sig .tc := ⟨.hbm, 89, rfl⟩
abbrev main_v51 : Ref sig .tc := ⟨.hbm, 90, rfl⟩
abbrev main_c_10 : Ref sig .tc := ⟨.hbm, 91, rfl⟩
abbrev main_v52 : Ref sig .tc := ⟨.hbm, 92, rfl⟩
abbrev main_v53 : Ref sig .tc := ⟨.hbm, 93, rfl⟩
abbrev main_c_11 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_12 : Ref sig .tc := ⟨.hbm, 100, rfl⟩
abbrev main_v59 : Ref sig .tc := ⟨.hbm, 101, rfl⟩
abbrev main_v60 : Ref sig .tc := ⟨.hbm, 102, rfl⟩
abbrev main_c_13 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_c_14 : Ref sig .tc := ⟨.hbm, 111, rfl⟩
abbrev main_v68 : Ref sig .tc := ⟨.hbm, 112, rfl⟩
abbrev main_v69 : Ref sig .tc := ⟨.hbm, 113, rfl⟩
abbrev main_c_15 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_16 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_call1_cst : Ref sig .tc := ⟨.hbm, 133, rfl⟩
abbrev main_call1_v0 : Ref sig .tc := ⟨.hbm, 134, rfl⟩
abbrev main_call1_v1 : Ref sig .tc := ⟨.hbm, 135, rfl⟩
abbrev main_call1_cst_0 : Ref sig .tc := ⟨.hbm, 136, rfl⟩
abbrev main_call1_v2 : Ref sig .tc := ⟨.hbm, 137, rfl⟩
abbrev main_call1_v3 : Ref sig .tc := ⟨.hbm, 138, rfl⟩
abbrev main_call1_cst_1 : Ref sig .tc := ⟨.hbm, 139, rfl⟩
abbrev main_call1_call0_v0 : Ref sig .tc := ⟨.hbm, 140, rfl⟩
abbrev main_call1_call0_v1 : Ref sig .tc := ⟨.hbm, 141, rfl⟩
abbrev main_call1_v4 : Ref sig .tc := ⟨.hbm, 142, rfl⟩
abbrev main_call1_v5 : Ref sig .tc := ⟨.hbm, 143, rfl⟩
abbrev main_call1_cst_2 : Ref sig .tc := ⟨.hbm, 144, rfl⟩
abbrev main_call1_v6 : Ref sig .tc := ⟨.hbm, 145, rfl⟩
abbrev main_call1_v7 : Ref sig .tc := ⟨.hbm, 146, rfl⟩
abbrev main_v87 : Ref sig .tc := ⟨.hbm, 147, rfl⟩
abbrev main_v88 : Ref sig .tc := ⟨.hbm, 148, rfl⟩
abbrev main_c_17 : Ref sig .tc := ⟨.hbm, 149, rfl⟩
abbrev main_v89 : Ref sig .tc := ⟨.hbm, 150, rfl⟩
abbrev main_v90 : Ref sig .tc := ⟨.hbm, 151, rfl⟩
abbrev main_c_18 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_c_19 : Ref sig .tc := ⟨.hbm, 158, rfl⟩
abbrev main_v96 : Ref sig .tc := ⟨.hbm, 159, rfl⟩
abbrev main_v97 : Ref sig .tc := ⟨.hbm, 160, rfl⟩
abbrev main_c_20 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_c_21 : Ref sig .tc := ⟨.hbm, 169, rfl⟩
abbrev main_v105 : Ref sig .tc := ⟨.hbm, 170, rfl⟩
abbrev main_v106 : Ref sig .tc := ⟨.hbm, 171, rfl⟩
abbrev main_c_22 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_cst_23 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_cst_24 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_cst_25 : Ref sig .tc := ⟨.hbm, 195, rfl⟩
abbrev main_v127 : Ref sig .tc := ⟨.hbm, 196, rfl⟩
abbrev main_cst_26 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_cst_27 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []
  dot_S64x128_S128x1_S64x1_1_0_0_1_n_n_wf : DotDims.WF S64x128 S128x1 S64x1 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.Spec.lean ====
/-
  The network both programs compute, stage by stage, as functions of the argument arrays.

  A graph of 50000 nodes and 1600000 directed edges (row 0 of the edge table the sources, row 1 the targets).
  `deg v` is one plus the number of edges that end at `v`; an edge `e` carries the weight
  `coef e = deg(src e)^(-1/2) · deg(dst e)^(-1/2)`. One layer sends node features `x` to
  `h = x · W`, then to `agg v = Σ_{e : dst e = v} h (src e) · coef e + h v / deg v + b`.
  Three layers are applied, the second and third after the exponential linear unit
  `elu t = t` for `t > 0` and `e^t − 1` otherwise.  The nodes are then averaged per graph: `batch v` names the
  graph of node `v`, the features of the nodes of one graph are summed and divided by `max (count, 1)`.
  Two linear heads read the 64 pooled rows.

  Every stage is written with the host operations of the reference program, so that the reference's run is these
  functions by unfolding, and each stage of the kernel's run is shown equal to the same function.
-/
import proofs.«401817_j18751827214892_1_alg».proof.Proof.Gen.ReferenceIdeal

noncomputable section

namespace Cert.Spec

open Idealize.ShloMosaic Cert.ReferenceIdeal Cert.ReferenceIdeal.Facts₀

variable {F : FTy → Type} [FloatOps F]

/-- Row `0` of the edge table: the source node of every edge. -/
def srcOf (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- Row `1` of the edge table: the target node of every edge. -/
def dstOf (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- A node index as a column of start indices, a negative one counted from the end of the table. -/
def wrapCol (ix : (⟨S1600000, .i32⟩ : BufTy).Contents (Elt F)) : (⟨S1600000x1, .i32⟩ : BufTy).Contents (Elt F) :=
  broadcastInDim S1600000x1 ![0] bcast_S1600000_S1600000x1_0
    (select (cmpi .slt ix (broadcastInDim S1600000 ![] bcast_S_S1600000 (constantI S_ 32 0#32)))
      (addi ix (broadcastInDim S1600000 ![] bcast_S_S1600000 (constantI S_ 32 50000#32))) ix)

/-- The target nodes as a column of scatter indices (read as they are). -/
def dstCol (ei : (⟨S2x1600000, .i32⟩ : BufTy).Contents (Elt F)) : (⟨S1600000x1, .i32⟩ : BufTy).Contents (Elt F) :=
  broadcastInDim S1600000x1 ![0] bcast_S1600000_S1600000x1_0 (dstOf ei)

/-- `deg v`: one plus the number of edges ending at `v`. -/
def deg (ei : (⟨S2x1600000, .i32⟩ : BufTy).Contents (Elt F)) : (⟨S50000, .f32⟩ : BufTy).Contents (Elt F) :=
  addf (Host.scatterAdd scatter_S50000_S1600000x1_S1600000_n_0_0_1
      (broadcastInDim S50000 ![] bcast_S_S50000 (constant S_ .f32 0x00000000#32)) (dstCol ei)
      (broadcastInDim S1600000 ![] bcast_S_S1600000 (constant S_ .f32 0x3F800000#32)))
    (broadcastInDim S50000 ![] bcast_S_S50000 (constant S_ .f32 0x3F800000#32))

/-- `deg v ^ (-1/2)`. -/
def degInvSqrt (ei : (⟨S2x1600000, .i32⟩ : BufTy).Contents (Elt F)) : (⟨S50000, .f32⟩ : BufTy).Contents (Elt F) :=
  Host.powf (deg ei) (broadcastInDim S50000 ![] bcast_S_S50000 (constant S_ .f32 0xBF000000#32))

/-- `1 / deg v`. -/
def degInv (ei : (⟨S2x1600000, .i32⟩ : BufTy).Contents (Elt F)) : (⟨S50000, .f32⟩ : BufTy).Contents (Elt F) :=
  Host.divf (broadcastInDim S50000 ![] bcast_S_S50000 (constant S_ .f32 0x3F800000#32)) (deg ei)

/-- `1 / deg v` as a column. -/
def degInvCol (ei : (⟨S2x1600000, .i32⟩ : BufTy).Contents (Elt F)) : (⟨S50000x1, .f32⟩ : BufTy).Contents (Elt F) :=
  broadcastInDim S50000x1 ![0] bcast_S50000_S50000x1_0 (degInv ei)

/-- The weight of every edge: `deg(src e)^(-1/2) · deg(dst e)^(-1/2)`. -/
def coef (ei : (⟨S2x1600000, .i32⟩ : BufTy).Contents (Elt F)) : (⟨S1600000, .f32⟩ : BufTy).Contents (Elt F) :=
  mulf (Host.gather gather_S50000_S1600000x1_S1600000_n_0_n_n_0_1_1 (degInvSqrt ei) (wrapCol (srcOf ei)))
    (Host.gather gather_S50000_S1600000x1_S1600000_n_0_n_n_0_1_1 (degInvSqrt ei) (wrapCol (dstOf ei)))

/-- The edge weights as a column. -/
def coefCol (ei : (⟨S2x1600000, .i32⟩ : BufTy).Contents (Elt F)) : (⟨S1600000x1, .f32⟩ : BufTy).Contents (Elt F) :=
  broadcastInDim S1600000x1 ![0] bcast_S1600000_S1600000x1_0 (coef ei)

/-- The dense product `x · W` of node features with a square weight matrix. -/
def dense (x : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none x w

/-- The features of every edge's source node. -/
def gatherSrc (ei : (⟨S2x1600000, .i32⟩ : BufTy).Contents (Elt F)) (h : (⟨S50000x128, .f32⟩ : BufTy).Contents (Elt F)) :
    (⟨S1600000x128, .f32⟩ : BufTy).Contents (Elt F) :=
  Host.gather gather_S50000x128_S1600000x1_S1600000x128_1_0_n_n_0_1_1128 h (wrapCol (srcOf ei))

/-- Every edge's row multiplied by a column of one weight per edge. -/
def scaleRows (hs : (⟨S1600000x128, .f32⟩ : BufTy).Contents (Elt F)) (cc : (⟨S1600000x1, .f32⟩ : BufTy).Contents (Elt F)) :
    (⟨S1600000x128, .f32⟩ : BufTy).Contents (Elt F) :=
  mulf hs (broadcastInDim S1600000x128 ![0, 1] bcast_S1600000x1_S1600000x128_0_1 cc)

/-- The edge rows summed into their target nodes. -/
def scatterDst (ei : (⟨S2x1600000, .i32⟩ : BufTy).Contents (Elt F)) (u : (⟨S1600000x128, .f32⟩ : BufTy).Contents (Elt F)) :
    (⟨S50000x128, .f32⟩ : BufTy).Contents (Elt F) :=
  Host.scatterAdd scatter_S50000x128_S1600000x1_S1600000x128_1_0_0_1
    (broadcastInDim S50000x128 ![] bcast_S_S50000x128 (constant S_ .f32 0x00000000#32)) (dstCol ei) u

/-- The layer's last step: the aggregate, plus the node's own features over its degree, plus the bias. -/
def finish (ea h : (⟨S50000x128, .f32⟩ : BufTy).Contents (Elt F)) (dc : (⟨S50000x1, .f32⟩ : BufTy).Contents (Elt F))
    (b : (⟨S128, .f32⟩ : BufTy).Contents (Elt F)) : (⟨S50000x128, .f32⟩ : BufTy).Contents (Elt F) :=
  addf (addf ea (mulf h (broadcastInDim S50000x128 ![0, 1] bcast_S50000x1_S50000x128_0_1 dc)))
    (broadcastInDim S50000x128 ![0, 1] bcast_S1x128_S50000x128_0_1 (broadcastInDim S1x128 ![1] bcast_S128_S1x128_1 b))

/-- One graph-convolution layer applied to the product `h = x · W`. -/
def layerOf (ei : (⟨S2x1600000, .i32⟩ : BufTy).Contents (Elt F)) (h : (⟨S50000x128, .f32⟩ : BufTy).Contents (Elt F))
    (b : (⟨S128, .f32⟩ : BufTy).Contents (Elt F)) : (⟨S50000x128, .f32⟩ : BufTy).Contents (Elt F) :=
  finish (scatterDst ei (scaleRows (gatherSrc ei h) (coefCol ei))) h (degInvCol ei) b

/-- The exponential linear unit, entry by entry: `t` where `t > 0`, elsewhere `1 · expm1 t`. -/
def elu (x : (⟨S50000x128, .f32⟩ : BufTy).Contents (Elt F)) : (⟨S50000x128, .f32⟩ : BufTy).Contents (Elt F) :=
  select (cmpf .ogt x (broadcastInDim S50000x128 ![] bcast_S_S50000x128 (constant S_ .f32 0x00000000#32))) x
    (mulf (broadcastInDim S50000x128 ![] bcast_S_S50000x128 (constant S_ .f32 0x3F800000#32))
      (Host.expm1 (select (cmpf .ogt x (broadcastInDim S50000x128 ![] bcast_S_S50000x128 (constant S_ .f32 0x00000000#32)))
        (broadcastInDim S50000x128 ![] bcast_S_S50000x128 (id (constant S_ .f32 0x00000000#32))) x)))

/-- The graph of every node as a column of scatter indices. -/
def batchCol (bt : (⟨S50000, .i32⟩ : BufTy).Contents (Elt F)) : (⟨S50000x1, .i32⟩ : BufTy).Contents (Elt F) :=
  broadcastInDim S50000x1 ![0] bcast_S50000_S50000x1_0 bt

/-- Per graph, the sum of its nodes' features. -/
def poolSum (bc : (⟨S50000x1, .i32⟩ : BufTy).Contents (Elt F)) (h : (⟨S50000x128, .f32⟩ : BufTy).Contents (Elt F)) :
    (⟨S64x128, .f32⟩ : BufTy).Contents (Elt F) :=
  Host.scatterAdd scatter_S64x128_S50000x1_S50000x128_1_0_0_1
    (broadcastInDim S64x128 ![] bcast_S_S64x128 (constant S_ .f32 0x00000000#32)) bc h

/-- Per graph, the number of its nodes. -/
def poolCnt (bc : (⟨S50000x1, .i32⟩ : BufTy).Contents (Elt F)) : (⟨S64, .f32⟩ : BufTy).Contents (Elt F) :=
  Host.scatterAdd scatter_S64_S50000x1_S50000_n_0_0_1
    (broadcastInDim S64 ![] bcast_S_S64 (constant S_ .f32 0x00000000#32)) bc
    (broadcastInDim S50000 ![] bcast_S_S50000 (constant S_ .f32 0x3F800000#32))

/-- The per-graph mean: the sums over `max (count, 1)`. -/
def meanOf (s : (⟨S64x128, .f32⟩ : BufTy).Contents (Elt F)) (n : (⟨S64, .f32⟩ : BufTy).Contents (Elt F)) :
    (⟨S64x128, .f32⟩ : BufTy).Contents (Elt F) :=
  Host.divf s (broadcastInDim S64x128 ![0, 1] bcast_S64x1_S64x128_0_1 (broadcastInDim S64x1 ![0] bcast_S64_S64x1_0
    (maximumf n (broadcastInDim S64 ![] bcast_S_S64 (constant S_ .f32 0x3F800000#32)))))

/-- The classification head. -/
def headC (p : (⟨S64x128, .f32⟩ : BufTy).Contents (Elt F)) (wc : (⟨S128x10, .f32⟩ : BufTy).Contents (Elt F))
    (bc : (⟨S10, .f32⟩ : BufTy).Contents (Elt F)) : (⟨S64x10, .f32⟩ : BufTy).Contents (Elt F) :=
  addf (Host.dotGeneral dot_S64x128_S128x10_S64x10_1_0_0_1_n_n none p wc)
    (broadcastInDim S64x10 ![0, 1] bcast_S1x10_S64x10_0_1 (broadcastInDim S1x10 ![1] bcast_S10_S1x10_1 bc))

/-- The regression head. -/
def headR (p : (⟨S64x128, .f32⟩ : BufTy).Contents (Elt F)) (wr : (⟨S128x1, .f32⟩ : BufTy).Contents (Elt F))
    (br : (⟨S1, .f32⟩ : BufTy).Contents (Elt F)) : (⟨S64x1, .f32⟩ : BufTy).Contents (Elt F) :=
  addf (Host.dotGeneral dot_S64x128_S128x1_S64x1_1_0_0_1_n_n none p wr)
    (broadcastInDim S64x1 ![0, 1] bcast_S1x1_S64x1_0_1 (broadcastInDim S1x1 ![1] bcast_S1_S1x1_1 br))

/-- The node features after the three layers. -/
def nodes (x : (⟨S50000x128, .f32⟩ : BufTy).Contents (Elt F)) (ei : (⟨S2x1600000, .i32⟩ : BufTy).Contents (Elt F))
    (w0 : (⟨S128x128, .f32⟩ : BufTy).Contents (Elt F)) (b0 : (⟨S128, .f32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S50000x128, .f32⟩ : BufTy).Contents (Elt F) :=
  layerOf ei (dense (elu (layerOf ei (dense (elu (layerOf ei (dense x w0) b0)) w1) b1)) w2) b2

/-- The first result: the pooled features. -/
def pooled (x : (⟨S50000x128, .f32⟩ : BufTy).Contents (Elt F)) (ei : (⟨S2x1600000, .i32⟩ : BufTy).Contents (Elt F))
    (bt : (⟨S50000, .i32⟩ : BufTy).Contents (Elt F))
    (w0 : (⟨S128x128, .f32⟩ : BufTy).Contents (Elt F)) (b0 : (⟨S128, .f32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S64x128, .f32⟩ : BufTy).Contents (Elt F) :=
  meanOf (poolSum (batchCol bt) (nodes x ei w0 b0 w1 b1 w2 b2)) (poolCnt (batchCol bt))

end Cert.Spec

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.LibVecScatter.lean ====
/-
  A scatter-add into a vector, read in coordinates, over symbolic extents.

  The table is a vector `[N]`, the scatter indices a column `[R, 1]`, the updates a vector `[R]`: update `r` is added at
  entry `idx r` of the table when that entry exists (the start index taken signed, not clamped) and nowhere otherwise,
  so entry `a` of the result is the table's entry plus the sum of the updates `r` with `idx r = a`.
-/
import Idealize.ShloMosaic.PureOps.Ideal
import Idealize.ShloMosaic.PureOps.Ideal.Laws
import Idealize.ShloMosaic.Lib.ValueIdx
import Idealize.ShloMosaic.Lib.ValueIdxRank1

noncomputable section

open scoped BigOperators

namespace Idealize.ShloMosaic.VecScatter

open Idealize.ShloMosaic Idealize.ShloMosaic.ValueIdx

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of `x.at[idx].add(u)` for a table `[N]`, scatter indices `[R, 1]` and updates `[R]`:
    no window axis, the table's one axis inserted and named by the one start-index component. -/
abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The update entry `r` reads its one start-index component at `(r, 0)` of the scatter indices. -/
theorem vecScatter_siIdx {N R : Nat}
    (wf : ScatterDims.WF ⟨1, ![N]⟩ ⟨2, ![R, 1]⟩ ⟨1, ![R]⟩ [] [0] [0] 1) (r : Fin R) :
    (vecScatter N R wf).siIdx (ix1 r) ⟨List.idxOf (0 : Fin 1) (vecScatter N R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's axis the window starts at the scatter index of the update, read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (r : Fin R) :
    (vecScatter N R wf).start (ix1 r) idx 0 = (idx (ix2 r 0)).toInt := by
  unfold ScatterDims.start
  rw [dif_pos (show (0 : Fin 1) ∈ (vecScatter N R wf).scatterDimsToOperandDims from List.mem_singleton.mpr rfl),
    vecScatter_siIdx wf r]

/-- The table's axis is an inserted axis: its window coordinate is `0`. -/
theorem vecScatter_window {N R : Nat}
    (wf : ScatterDims.WF ⟨1, ![N]⟩ ⟨2, ![R, 1]⟩ ⟨1, ![R]⟩ [] [0] [0] 1) (r : Fin R) :
    (vecScatter N R wf).window (ix1 r) 0 = 0 := rfl

/-- Update entry `r` lands on table entry `a` exactly when its start index, read signed, is `a`. -/
theorem vecScatter_resultIdx?_eq_some_iff {N R w : Nat}
    (wf : ScatterDims.WF ⟨1, ![N]⟩ ⟨2, ![R, 1]⟩ ⟨1, ![R]⟩ [] [0] [0] 1)
    (idx : IVec ⟨2, ![R, 1]⟩ w) (r : Fin R) (a : Fin N) :
    (vecScatter N R wf).resultIdx? (ix1 r) idx = some (ix1 a) ↔ (idx (ix2 r 0)).toInt = (a.val : Int) := by
  have hs0 := vecScatter_start wf idx r
  have hw0 := vecScatter_window wf r
  unfold ScatterDims.resultIdx?
  constructor
  · -- landed at a: the window is inside the table, and its coordinate is a
    intro h
    split at h
    · rename_i hin
      have hf := Option.some.inj h
      have e0 := congrArg (fun f => (f 0).val) hf
      simp only [hs0, hw0] at e0
      have h0 := hin 0
      rw [hs0, hw0] at h0
      have ea : ((ix1 a : (⟨1, ![N]⟩ : Shape).Idx) 0).val = a.val := rfl
      rw [ea] at e0
      omega
    · exact absurd h (by simp)
  · -- the start index is an entry of the table: the window is inside, at a
    intro hv
    have hin : ∀ a' : Fin 1, 0 ≤ (vecScatter N R wf).start (ix1 r) idx a' + (vecScatter N R wf).window (ix1 r) a'
        ∧ (vecScatter N R wf).start (ix1 r) idx a' + (vecScatter N R wf).window (ix1 r) a' < (⟨1, ![N]⟩ : Shape).size a' := by
      intro a'
      match a' with
      | ⟨0, _⟩ =>
        show 0 ≤ (vecScatter N R wf).start (ix1 r) idx 0 + (vecScatter N R wf).window (ix1 r) 0
          ∧ (vecScatter N R wf).start (ix1 r) idx 0 + (vecScatter N R wf).window (ix1 r) 0 < (N : Int)
        rw [hs0, hw0, hv]; have := a.isLt; constructor <;> omega
    rw [dif_pos hin]
    congr 1
    funext a'
    refine Fin.ext ?_
    match a' with
    | ⟨0, _⟩ =>
      show ((vecScatter N R wf).start (ix1 r) idx 0 + (vecScatter N R wf).window (ix1 r) 0).toNat = a.val
      rw [hs0, hw0, hv]; omega

/-- The accumulated table at `a`: the table's entry plus the updates `r` whose start index is `a`. -/
theorem vecScatterAdd_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (a : Fin N) :
    Ideal.hostScatterAdd (vecScatter N R wf) x idx upd (ix1 a)
      = x (ix1 a) + ∑ r : Fin R, if (idx (ix2 r 0)).toInt = (a.val : Int) then upd (ix1 r) else 0 := by
  unfold Ideal.hostScatterAdd
  congr 1
  -- the sum over the updates that land on a, as a sum over their one coordinate
  rw [Finset.sum_filter, sum_idx1]
  refine Finset.sum_congr rfl fun r _ => ?_
  simp only [vecScatter_resultIdx?_eq_some_iff]

end Idealize.ShloMosaic.VecScatter

end
-- ==== Proof.PoolSpec.lean ====
/-
  Mean pooling as a product with indicator columns, against the scatter form.

  `hot bc r g` is `1` when node `r` belongs to graph `g` (its graph word is the 32-bit word of `g`) and `0` otherwise.
  The kernel accumulates, over all 50000 nodes, `sumK g f = Σ_r hot r g · h r f` for 128 candidate graphs and
  `cntK g = Σ_r hot r g`; the first 64 rows of the former and the first 64 entries of the latter are the reference's
  scatter-add of the node rows, and of ones, at the graph words read as signed integers.
-/
import proofs.«401817_j18751827214892_1_alg».proof.Proof.Spec
import proofs.«401817_j18751827214892_1_alg».proof.Proof.LibRowDims
import proofs.«401817_j18751827214892_1_alg».proof.Proof.LibVecScatter
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost

noncomputable section

open scoped BigOperators

namespace Cert.PoolSpec

open Idealize.ShloMosaic Idealize.ShloMosaic.ValueIdx Cert.ReferenceIdeal

abbrev P128x128 : Shape := ⟨2, ![128, 128]⟩
abbrev P1x128 : Shape := ⟨2, ![1, 128]⟩
abbrev P1x64 : Shape := ⟨2, ![1, 64]⟩

/-- The indicator of "node `r` is in graph `g`". -/
def hot (bc : IVec S50000x1 32) (r : Fin 50000) (g : Fin 128) : EReal :=
  if bc (ix2 r 0) = BitVec.ofNat 32 g.val then 1 else 0

/-- Per candidate graph `g < 128` and feature `f`, the sum of the features of the nodes of `g`. -/
def sumK (bc : IVec S50000x1 32) (h : S50000x128.Idx → EReal) : P128x128.Idx → EReal :=
  fun i => ∑ r : Fin 50000, hot bc r (i 0) * h (ix2 r (i 1))

/-- Per candidate graph `g < 128`, the number of its nodes. -/
def cntK (bc : IVec S50000x1 32) : P1x128.Idx → EReal :=
  fun i => ∑ r : Fin 50000, hot bc r (i 1)

/-- The 32-bit word of a number below 128, read signed, is that number. -/
theorem toInt_ofNat_small (g : Nat) (hg : g < 128) : (BitVec.ofNat 32 g).toInt = (g : Int) := by
  simp only [BitVec.toInt, BitVec.toNat_ofNat]
  omega

/-- A 32-bit word is the word of a number below 128 exactly when, read signed, it is that number. -/
theorem word_eq_iff (v : BitVec 32) (g : Nat) (hg : g < 128) : v = BitVec.ofNat 32 g ↔ v.toInt = (g : Int) := by
  constructor
  · rintro rfl
    exact toInt_ofNat_small g hg
  · intro hv
    exact BitVec.eq_of_toInt_eq (hv.trans (toInt_ofNat_small g hg).symm)

/-- The indicator against a value: the value when the graph word, read signed, is the graph, and `0` otherwise. -/
theorem hot_mul (bc : IVec S50000x1 32) (r : Fin 50000) (g : Fin 128) (x : EReal) :
    hot bc r g * x = if (bc (ix2 r 0)).toInt = (g.val : Int) then x else 0 := by
  unfold hot
  by_cases hv : (bc (ix2 r 0)).toInt = (g.val : Int)
  · rw [if_pos hv, if_pos ((word_eq_iff _ _ g.isLt).mpr hv), one_mul]
  · rw [if_neg hv, if_neg (fun he => hv ((word_eq_iff _ _ g.isLt).mp he)), zero_mul]

/-- The indicator alone: `1` when the graph word, read signed, is the graph, and `0` otherwise. -/
theorem hot_eq (bc : IVec S50000x1 32) (r : Fin 50000) (g : Fin 128) :
    hot bc r g = if (bc (ix2 r 0)).toInt = (g.val : Int) then 1 else 0 := by
  have := hot_mul bc r g 1
  rwa [mul_one] at this

/-- Row `a < 64` of the indicator product, column `b`, is the scatter-add's entry `(a, b)`. -/
theorem sumK_slice_apply (bc : IVec S50000x1 32) (h : S50000x128.Idx → EReal) (hs : P128x128.Slices ![0, 0] S64x128)
    (a : Fin 64) (b : Fin 128) :
    extractStridedSlice S64x128 ![0, 0] (sumK bc h) hs (ix2 a b) = Cert.Spec.poolSum (F := Ideal) bc h (ix2 a b) := by
  -- row a of the slice is row a of the 128 candidate rows
  rw [slice2_axis0_apply 0 (sumK bc h) hs a b ⟨a.val, by omega⟩ (Nat.zero_add _).symm]
  -- the reference's table: the zero table plus the rows whose graph word is a
  show ∑ r : Fin 50000, hot bc r ⟨a.val, _⟩ * h (ix2 r b)
    = Ideal.hostScatterAdd (RowDims.rowScatter 64 128 50000 Facts₀.scatter_S64x128_S50000x1_S50000x128_1_0_0_1_wf)
        (broadcastInDim S64x128 ![] Facts₀.bcast_S_S64x128 (constant (F := Ideal) S_ .f32 0x00000000#32)) bc h (ix2 a b)
  rw [RowDims.rowScatterAdd_apply]
  rw [show broadcastInDim S64x128 ![] Facts₀.bcast_S_S64x128 (constant (F := Ideal) S_ .f32 0x00000000#32) (ix2 a b)
    = Ideal.ofBits .f32 0x00000000#32 from rfl, Ideal.ofBits_zero_f32, zero_add]
  refine Finset.sum_congr rfl fun r _ => ?_
  exact hot_mul bc r _ _

/-- The first 64 rows of the indicator product are the scatter-add of the node rows at their graph words. -/
theorem sumK_slice (bc : IVec S50000x1 32) (h : S50000x128.Idx → EReal) (hs : P128x128.Slices ![0, 0] S64x128) :
    extractStridedSlice S64x128 ![0, 0] (sumK bc h) hs = Cert.Spec.poolSum (F := Ideal) bc h := by
  funext i
  rw [eq_ix2 i]
  exact sumK_slice_apply bc h hs (i 0) (i 1)

/-- Count `a < 64` is the scatter-add of ones' entry `a`. -/
theorem cntK_slice_apply (bc : IVec S50000x1 32) (hs : P1x128.Slices ![0, 0] P1x64) (hc : P1x64.ShapeCasts S64) (a : Fin 64) :
    shapeCast S64 (extractStridedSlice P1x64 ![0, 0] (cntK bc) hs) hc (ix1 a) = Cert.Spec.poolCnt (F := Ideal) bc (ix1 a) := by
  -- entry a of the vector is entry (0, a) of the one-row slice, which is entry (0, a) of the 128 candidate counts
  rw [shapeCast_1a_a_apply,
    slice2_axis1_apply 0 (cntK bc) hs (0 : Fin 1) a ⟨a.val, by omega⟩ (Nat.zero_add _).symm]
  -- the reference's table: the zero vector plus a one for each node whose graph word is a
  show ∑ r : Fin 50000, hot bc r ⟨a.val, _⟩
    = Ideal.hostScatterAdd (VecScatter.vecScatter 64 50000 Facts₀.scatter_S64_S50000x1_S50000_n_0_0_1_wf)
        (broadcastInDim S64 ![] Facts₀.bcast_S_S64 (constant (F := Ideal) S_ .f32 0x00000000#32)) bc
        (broadcastInDim S50000 ![] Facts₀.bcast_S_S50000 (constant (F := Ideal) S_ .f32 0x3F800000#32)) (ix1 a)
  rw [VecScatter.vecScatterAdd_apply]
  rw [show broadcastInDim S64 ![] Facts₀.bcast_S_S64 (constant (F := Ideal) S_ .f32 0x00000000#32) (ix1 a)
    = Ideal.ofBits .f32 0x00000000#32 from rfl, Ideal.ofBits_zero_f32, zero_add]
  refine Finset.sum_congr rfl fun r _ => ?_
  rw [show broadcastInDim S50000 ![] Facts₀.bcast_S_S50000 (constant (F := Ideal) S_ .f32 0x3F800000#32) (ix1 r)
    = Ideal.ofBits .f32 0x3F800000#32 from rfl, Ideal.ofBits_one_f32]
  exact hot_eq bc r _

/-- The first 64 counts are the scatter-add of ones at the graph words. -/
theorem cntK_slice (bc : IVec S50000x1 32) (hs : P1x128.Slices ![0, 0] P1x64) (hc : P1x64.ShapeCasts S64) :
    shapeCast S64 (extractStridedSlice P1x64 ![0, 0] (cntK bc) hs) hc = Cert.Spec.poolCnt (F := Ideal) bc := by
  funext i
  rw [eq_ix1 i]
  exact cntK_slice_apply bc hs hc (i 0)

end Cert.PoolSpec

end
-- ==== Proof.RegPool9.lean ====
import proofs.«401817_j18751827214892_1_alg».proof.Proof.Gen.KernelIdeal.Frame
import proofs.«401817_j18751827214892_1_alg».proof.Proof.Spec
import Idealize.ShloMosaic.PureOps.Ideal
import Idealize.ShloMosaic.PureOps.Ideal.Laws
import Idealize.ShloMosaic.Lib.Pipeline.Value
import Idealize.ShloMosaic.Lib.Tactic
import Idealize.ShloMosaic.Lib.ValueIdx
import Idealize.ShloMosaic.Lib.ValueLayout
import proofs.«401817_j18751827214892_1_alg».proof.Proof.PoolSpec

set_option maxRecDepth 16384

noncomputable section

namespace Cert.KernelIdeal.RegV

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## What each control case leaves in each output, as a payload of the blocks -/

section Pieces
variable {F : FTy → Type} [FloatOps F]

theorem hz9 : (![0, 0] : Fin 2 → Nat) = fun _ => 0 := funext fun a => by fin_cases a <;> rfl

theorem out9_B_2_eq (c : Dev nD) (i : grid9.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : ¬cond9_0 i)
    (x0 : Vec F S5000x128 .f32) (x1 : Vec F S5000x1 .i32) (xo2 : Vec F S128x128 .f32) (xo3 : Vec F S1x128 .f32) :
    out9_B_2 c i a1 h1 a2 h2 a3 h3 a4 h4 hc x0 x1 xo2 xo3 = k9_pay4 x1 x0 xo2 := by
  unfold out9_B_2
  rw [View.read_writes_eq_canon _ _ _ (cover9_B_2 c i a1 h1 a2 h2 a3 h3 a4 h4 hc x0 x1 xo2 xo3)]
  unfold kernelRun9_B
  dsimp only
  sl_unfold_words
  rw [View.canon_unit_zero hz9]
  simp only [View.readAt_eq_ld, h1.read_unread, h2.read_unread, h3.read_unread, View.ld_unit_zero (S := S5000x128) hz9,
    View.ld_unit_zero (S := S5000x1) hz9, View.ld_unit_zero (S := S128x128) hz9]

theorem out9_B_3_eq (c : Dev nD) (i : grid9.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : ¬cond9_0 i)
    (x0 : Vec F S5000x128 .f32) (x1 : Vec F S5000x1 .i32) (xo2 : Vec F S128x128 .f32) (xo3 : Vec F S1x128 .f32) :
    out9_B_3 c i a1 h1 a2 h2 a3 h3 a4 h4 hc x0 x1 xo2 xo3 = k9_pay5 x1 xo3 := by
  unfold out9_B_3
  rw [View.read_writes_eq_canon _ _ _ (cover9_B_3 c i a1 h1 a2 h2 a3 h3 a4 h4 hc x0 x1 xo2 xo3)]
  unfold kernelRun9_B
  dsimp only
  sl_unfold_words
  rw [View.canon_unit_zero hz9]
  simp only [View.readAt_eq_ld, h2.read_unread, h4.read_unread,
    View.ld_unit_zero (S := S5000x1) hz9, View.ld_unit_zero (S := S1x128) hz9]

theorem out9_A_2_eq (c : Dev nD) (i : grid9.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : cond9_0 i)
    (x0 : Vec F S5000x128 .f32) (x1 : Vec F S5000x1 .i32) :
    out9_A_2 c i a1 h1 a2 h2 a3 h3 a4 h4 hc x0 x1 = k9_pay4 x1 x0 k9_pay1 := by
  unfold out9_A_2
  rw [View.read_writes_eq_canon _ _ _ (cover9_A_2 c i a1 h1 a2 h2 a3 h3 a4 h4 hc x0 x1)]
  unfold kernelRun9_A
  dsimp only
  sl_unfold_words
  rw [View.canon_cons_unit_zero (S := S128x128) hz9, View.readCov_unit_zero (S := S128x128) _ hz9]
  simp only [View.readAt_eq_ld, h1.read_unread, h2.read_unread, View.ld_unit_zero (S := S5000x128) hz9,
    View.ld_unit_zero (S := S5000x1) hz9]

theorem out9_A_3_eq (c : Dev nD) (i : grid9.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : cond9_0 i)
    (x0 : Vec F S5000x128 .f32) (x1 : Vec F S5000x1 .i32) :
    out9_A_3 c i a1 h1 a2 h2 a3 h3 a4 h4 hc x0 x1 = k9_pay5 x1 k9_pay2 := by
  unfold out9_A_3
  rw [View.read_writes_eq_canon _ _ _ (cover9_A_3 c i a1 h1 a2 h2 a3 h3 a4 h4 hc x0 x1)]
  unfold kernelRun9_A
  dsimp only
  sl_unfold_words
  rw [View.canon_cons_unit_zero (S := S1x128) hz9, View.readCov_unit_zero (S := S1x128) _ hz9]
  simp only [View.readAt_eq_ld, h2.read_unread, View.ld_unit_zero (S := S5000x1) hz9]

end Pieces

/-! ## The payloads at an entry, at the ideal values -/

/-- The indicator word, widened and converted: one where the two words agree, zero elsewhere. -/
theorem sitofp_hot (x y : BitVec 32) :
    FloatOps.sitofp (F := Ideal) .f32 ((IntOp.cmpi .eq x y).setWidth 32) = if x = y then (1 : EReal) else 0 := by
  show (((((IntOp.cmpi .eq x y).setWidth 32).toInt : ℤ) : ℝ) : EReal) = _
  by_cases h : x = y
  · have e : IntOp.cmpi .eq x y = 1#1 := by simp [IntOp.cmpi, h]
    rw [if_pos h, e]
    have : ((1#1 : BitVec 1).setWidth 32).toInt = 1 := by decide
    rw [this]; norm_num
  · have e : IntOp.cmpi .eq x y = 0#1 := by
      show BitVec.ofBool (x == y) = 0#1
      rw [show (x == y) = false from beq_eq_false_iff_ne.mpr h]; rfl
    rw [if_neg h, e]
    have : ((0#1 : BitVec 1).setWidth 32).toInt = 0 := by decide
    rw [this]; norm_num

/-- The indicator block at an entry. -/
theorem pay3_apply (x1 : IVec S5000x1 32) (r : Fin 5000) (g : Fin 128) :
    k9_pay3 (F := Ideal) x1 (ix2 r g) = if x1 (ix2 r 0) = BitVec.ofNat 32 g.val then (1 : EReal) else 0 := by
  unfold k9_pay3
  dsimp only
  rw [sitofp_apply, extui_apply]
  show FloatOps.sitofp (F := Ideal) .f32 ((IntOp.cmpi .eq _ _).setWidth 32) = _
  rw [iota_single_apply, shapeCast_self,
    broadcastTo_apply x1 Facts₀.broadcasts_S5000x1_S5000x128 (ix2 r g) (ix2 r 0) (fun a => by
      match a with
      | ⟨0, _⟩ => rfl
      | ⟨1, _⟩ => rfl)]
  exact sitofp_hot _ _

/-! ## The product over the rows of both operands, in coordinates -/

theorem lhs9_0 (p q : Fin 128) (k : dot_S5000x128_S5000x128_S128x128_0_0_1_1_n_n.contr.Idx) :
    (dot_S5000x128_S5000x128_S128x128_0_0_1_1_n_n.lhsIdx (ix2 p q) k 0).val = (k ⟨0, by decide⟩).val :=
  dot_S5000x128_S5000x128_S128x128_0_0_1_1_n_n.lhsIdx_val_of_single (cl := 0) rfl _ _

theorem lhs9_1 (p q : Fin 128) (k : dot_S5000x128_S5000x128_S128x128_0_0_1_1_n_n.contr.Idx) :
    (dot_S5000x128_S5000x128_S128x128_0_0_1_1_n_n.lhsIdx (ix2 p q) k 1).val = p.val := rfl

theorem rhs9_0 (p q : Fin 128) (k : dot_S5000x128_S5000x128_S128x128_0_0_1_1_n_n.contr.Idx) :
    (dot_S5000x128_S5000x128_S128x128_0_0_1_1_n_n.rhsIdx (ix2 p q) k 0).val = (k ⟨0, by decide⟩).val :=
  dot_S5000x128_S5000x128_S128x128_0_0_1_1_n_n.rhsIdx_val_of_single (cr := 0) rfl _ _

theorem rhs9_1 (p q : Fin 128) (k : dot_S5000x128_S5000x128_S128x128_0_0_1_1_n_n.contr.Idx) :
    (dot_S5000x128_S5000x128_S128x128_0_0_1_1_n_n.rhsIdx (ix2 p q) k 1).val = q.val := rfl

/-- The contraction over the row axis of both operands: entry `(p, q)` sums `lhs (k, p) · rhs (k, q)` over the 5000 rows. -/
theorem tt_sum (lhs rhs : S5000x128.Idx → EReal) (p q : Fin 128) :
    ∑ k : dot_S5000x128_S5000x128_S128x128_0_0_1_1_n_n.contr.Idx, lhs (dot_S5000x128_S5000x128_S128x128_0_0_1_1_n_n.lhsIdx (ix2 p q) k) * rhs (dot_S5000x128_S5000x128_S128x128_0_0_1_1_n_n.rhsIdx (ix2 p q) k)
      = ∑ k : Fin 5000, lhs (ix2 k p) * rhs (ix2 k q) := by
  rw [← Equiv.sum_comp (contrEquiv1 dot_S5000x128_S5000x128_S128x128_0_0_1_1_n_n 5000 rfl rfl).symm]
  refine Finset.sum_congr rfl fun k _ => ?_
  have hk := contrEquiv1_symm_val dot_S5000x128_S5000x128_S128x128_0_0_1_1_n_n 5000 rfl rfl k
  have hl : dot_S5000x128_S5000x128_S128x128_0_0_1_1_n_n.lhsIdx (ix2 p q) ((contrEquiv1 dot_S5000x128_S5000x128_S128x128_0_0_1_1_n_n 5000 rfl rfl).symm k) = ix2 k p := by
    funext a
    refine Fin.ext ?_
    match a with
    | ⟨0, _⟩ => exact (lhs9_0 p q _).trans hk
    | ⟨1, _⟩ => exact lhs9_1 p q _
  have hr : dot_S5000x128_S5000x128_S128x128_0_0_1_1_n_n.rhsIdx (ix2 p q) ((contrEquiv1 dot_S5000x128_S5000x128_S128x128_0_0_1_1_n_n 5000 rfl rfl).symm k) = ix2 k q := by
    funext a
    refine Fin.ext ?_
    match a with
    | ⟨0, _⟩ => exact (rhs9_0 p q _).trans hk
    | ⟨1, _⟩ => exact rhs9_1 p q _
  rw [hl, hr]

/-- The sums payload at an entry: what was there plus the indicator product over the block's rows. -/
theorem pay4_apply (x1 : Vec Ideal S5000x1 .i32) (x0 : Vec Ideal S5000x128 .f32) (acc : Vec Ideal S128x128 .f32) (g f : Fin 128) :
    k9_pay4 (F := Ideal) x1 x0 acc (ix2 g f)
      = acc (ix2 g f) + ∑ r : Fin 5000, (if x1 (ix2 r 0) = BitVec.ofNat 32 g.val then (1 : EReal) else 0) * x0 (ix2 r f) := by
  unfold k9_pay4
  (try dsimp only)
  refine (addf_apply _ _ _).trans ?_
  refine congrArg₂ (· + ·) (congrFun (shapeCast_self acc _) _) ?_
  refine (Ideal.matmul_constant_zero_apply _ none _ _ (ix2 g f)).trans ?_
  refine (tt_sum _ _ g f).trans ?_
  refine Finset.sum_congr rfl fun r _ => ?_
  refine congrArg₂ (· * ·) ?_ ?_
  · exact pay3_apply x1 r g
  · exact congrFun (shapeCast_self x0 _) _

/-- The counts payload at an entry: what was there plus the indicator summed over the block's rows. -/
theorem pay5_apply (x1 : Vec Ideal S5000x1 .i32) (acc : Vec Ideal S1x128 .f32) (g : Fin 128) :
    k9_pay5 (F := Ideal) x1 acc (ix2 0 g)
      = acc (ix2 0 g) + ∑ r : Fin 5000, (if x1 (ix2 r 0) = BitVec.ofNat 32 g.val then (1 : EReal) else 0) := by
  unfold k9_pay5
  (try dsimp only)
  refine (addf_apply _ _ _).trans ?_
  refine congrArg₂ (· + ·) (congrFun (shapeCast_self acc _) _) ?_
  refine (shapeCast_addUnit_apply ![128] _ Facts₀.shapeCasts_S128_S1x128 (ix2 0 g)).trans ?_
  refine (Ideal.multiReduction_add_single (a := 0) (k9_pay3 (F := Ideal) x1) _ Facts₀.reduces_S5000x128_S128 _ _ _).trans ?_
  refine Finset.sum_congr rfl fun r _ => ?_
  refine Eq.trans (congrArg (k9_pay3 (F := Ideal) x1) ?_) (pay3_apply x1 r g)
  funext a
  refine Fin.ext ?_
  match a with
  | ⟨0, _⟩ => rfl
  | ⟨1, _⟩ => rfl

variable (V : (c : Dev nD) → (b : Ref sig .tc) → Buf (Elt Ideal) ((c : Thread nD τ).loc b))

/-! ## The input blocks in array coordinates -/

/-- The block of node rows at a point. -/
abbrev hblk (c : Dev nD) (t : Fin cfg9.N) : Vec Ideal S5000x128 .f32 := iblk9 (F := Ideal) V c 0 t
/-- The block of graph words at a point. -/
abbrev gblk (c : Dev nD) (t : Fin cfg9.N) : Vec Ideal S5000x1 .i32 := iblk9 (F := Ideal) V c 1 t
/-- The node rows. -/
abbrev harr (c : Dev nD) : Vec Ideal S50000x128 .f32 := V c main_v69
/-- The graph words. -/
abbrev garr (c : Dev nD) : Vec Ideal S50000x1 .i32 := V c main_v70

theorem t9_lt (t : Fin cfg9.N) : t.val < 10 := lt_of_lt_of_eq t.isLt (show cfg9.N = 10 from N_9)

theorem idx9_0 (t : Fin cfg9.N) : win9_0.index t 0 = t.val ∧ win9_0.index t 1 = 0 := by
  rcases fin_N9 t with rfl | rfl | rfl | rfl | rfl | rfl | rfl | rfl | rfl | rfl <;> decide

theorem idx9_1 (t : Fin cfg9.N) : win9_1.index t 0 = t.val ∧ win9_1.index t 1 = 0 := by
  rcases fin_N9 t with rfl | rfl | rfl | rfl | rfl | rfl | rfl | rfl | rfl | rfl <;> decide

/-- Row `q` of the block at point `t` is row `5000 t + q` of the node rows. -/
theorem hblk_apply (c : Dev nD) (t : Fin cfg9.N) (q : Fin 5000) (f : Fin 128) (hlt : 5000 * t.val + q.val < 50000) :
    hblk V c t (ix2 q f) = harr V c (ix2 ⟨5000 * t.val + q.val, hlt⟩ f) := by
  have hi := idx9_0 t
  unfold hblk iblk9
  rw [View.read_apply]
  show V c main_v69 _ = V c main_v69 _
  congr 1
  funext a
  apply Fin.ext
  match a with
  | ⟨0, _⟩ => show win9_0.index t 0 * 5000 + 1 * q.val = 5000 * t.val + q.val; rw [hi.1]; omega
  | ⟨1, _⟩ => show win9_0.index t 1 * 128 + 1 * f.val = f.val; rw [hi.2]; omega

/-- Row `q` of the graph-word block at point `t` is row `5000 t + q` of the graph words. -/
theorem gblk_apply (c : Dev nD) (t : Fin cfg9.N) (q : Fin 5000) (hlt : 5000 * t.val + q.val < 50000) :
    gblk V c t (ix2 q 0) = garr V c (ix2 ⟨5000 * t.val + q.val, hlt⟩ 0) := by
  have hi := idx9_1 t
  unfold gblk iblk9
  rw [View.read_apply]
  show V c main_v70 _ = V c main_v70 _
  congr 1
  funext a
  apply Fin.ext
  match a with
  | ⟨0, _⟩ => show win9_1.index t 0 * 5000 + 1 * q.val = 5000 * t.val + q.val; rw [hi.1]; omega
  | ⟨1, _⟩ => show win9_1.index t 1 * 1 + 1 * 0 = 0; rw [hi.2]

/-! ## Partial sums over the first rows -/

/-- The term of node `r` in the sum for graph `g` and feature `f`; zero past the last node. -/
def termS (bc : IVec S50000x1 32) (h : S50000x128.Idx → EReal) (g f : Fin 128) (r : ℕ) : EReal :=
  if hr : r < 50000 then (if bc (ix2 ⟨r, hr⟩ 0) = BitVec.ofNat 32 g.val then (1 : EReal) else 0) * h (ix2 ⟨r, hr⟩ f) else 0

/-- The term of node `r` in the count for graph `g`; zero past the last node. -/
def termC (bc : IVec S50000x1 32) (g : Fin 128) (r : ℕ) : EReal :=
  if hr : r < 50000 then (if bc (ix2 ⟨r, hr⟩ 0) = BitVec.ofNat 32 g.val then (1 : EReal) else 0) else 0

/-- The sum over the first `5000 (n + 1)` naturals is the sum over the first `5000 n` plus the next block of 5000. -/
theorem sum_block (T : ℕ → EReal) (n : ℕ) :
    ∑ r ∈ Finset.range (5000 * (n + 1)), T r
      = ∑ r ∈ Finset.range (5000 * n), T r + ∑ q : Fin 5000, T (5000 * n + q.val) := by
  rw [show 5000 * (n + 1) = 5000 * n + 5000 from by ring, Finset.sum_range_add]
  exact congrArg (_ + ·) (Finset.sum_range fun x => T (5000 * n + x))

/-- The reset block of sums is zero. -/
theorem pay1_apply (j : S128x128.Idx) : k9_pay1 (F := Ideal) j = 0 := by
  show Ideal.ofBits .f32 0x00000000#32 = 0
  exact Ideal.ofBits_zero_f32

/-- The reset block of counts is zero. -/
theorem pay2_apply (j : S1x128.Idx) : k9_pay2 (F := Ideal) j = 0 := by
  show Ideal.ofBits .f32 0x00000000#32 = 0
  exact Ideal.ofBits_zero_f32

/-- One point's update of the sums: from the partial sums over the rows before the point's block to those through it. -/
theorem step_sum (c : Dev nD) (t : Fin cfg9.N) (acc : Vec Ideal S128x128 .f32) (g f : Fin 128)
    (hacc : acc (ix2 g f) = ∑ r ∈ Finset.range (5000 * t.val), termS (garr V c) (harr V c) g f r) :
    k9_pay4 (F := Ideal) (gblk V c t) (hblk V c t) acc (ix2 g f)
      = ∑ r ∈ Finset.range (5000 * (t.val + 1)), termS (garr V c) (harr V c) g f r := by
  have ht := t9_lt t
  rw [pay4_apply, hacc, sum_block]
  refine congrArg (_ + ·) (Finset.sum_congr rfl fun q _ => ?_)
  have hlt : 5000 * t.val + q.val < 50000 := by have := q.isLt; omega
  unfold termS
  rw [dif_pos hlt, gblk_apply V c t q hlt, hblk_apply V c t q f hlt]

/-- One point's update of the counts. -/
theorem step_cnt (c : Dev nD) (t : Fin cfg9.N) (acc : Vec Ideal S1x128 .f32) (g : Fin 128)
    (hacc : acc (ix2 0 g) = ∑ r ∈ Finset.range (5000 * t.val), termC (garr V c) g r) :
    k9_pay5 (F := Ideal) (gblk V c t) acc (ix2 0 g)
      = ∑ r ∈ Finset.range (5000 * (t.val + 1)), termC (garr V c) g r := by
  have ht := t9_lt t
  rw [pay5_apply, hacc, sum_block]
  refine congrArg (_ + ·) (Finset.sum_congr rfl fun q _ => ?_)
  have hlt : 5000 * t.val + q.val < 50000 := by have := q.isLt; omega
  unfold termC
  rw [dif_pos hlt, gblk_apply V c t q hlt]

/-! ## What the two outputs hold after each point -/

theorem outA2 (c : Dev nD) (t : Fin cfg9.N) (h0 : t.val % 10 = 0) :
    (outsAt9 (F := Ideal) V c t.val t.isLt).1 = k9_pay4 (gblk V c t) (hblk V c t) (k9_pay1 (F := Ideal)) := by
  rw [outsAt9_A V c t h0]
  dsimp only
  exact out9_A_2_eq (F := Ideal) c (grid9.coords t) (ms9_0 t) (hs9_0 t) (ms9_1 t) (hs9_1 t) (ms9_2 t) (hs9_2 t) (ms9_3 t) (hs9_3 t) ((hcond9_0 t).mpr h0) (iblk9 V c 0 t) (iblk9 V c 1 t)

theorem outA3 (c : Dev nD) (t : Fin cfg9.N) (h0 : t.val % 10 = 0) :
    (outsAt9 (F := Ideal) V c t.val t.isLt).2 = k9_pay5 (gblk V c t) (k9_pay2 (F := Ideal)) := by
  rw [outsAt9_A V c t h0]
  dsimp only
  exact out9_A_3_eq (F := Ideal) c (grid9.coords t) (ms9_0 t) (hs9_0 t) (ms9_1 t) (hs9_1 t) (ms9_2 t) (hs9_2 t) (ms9_3 t) (hs9_3 t) ((hcond9_0 t).mpr h0) (iblk9 V c 0 t) (iblk9 V c 1 t)

theorem outB2 (c : Dev nD) (t : Fin cfg9.N) (h0 : ¬t.val % 10 = 0) :
    (outsAt9 (F := Ideal) V c t.val t.isLt).1
      = k9_pay4 (gblk V c t) (hblk V c t) (outsAt9 (F := Ideal) V c (t.val - 1) (Nat.lt_of_le_of_lt (Nat.sub_le _ _) t.isLt)).1 := by
  rw [outsAt9_B V c t h0]
  dsimp only
  exact out9_B_2_eq (F := Ideal) c (grid9.coords t) (ms9_0 t) (hs9_0 t) (ms9_1 t) (hs9_1 t) (ms9_2 t) (hs9_2 t) (ms9_3 t) (hs9_3 t) (fun h => h0 ((hcond9_0 t).mp h)) (iblk9 V c 0 t) (iblk9 V c 1 t) (outsAt9 (F := Ideal) V c (t.val - 1) (Nat.lt_of_le_of_lt (Nat.sub_le _ _) t.isLt)).1 (outsAt9 (F := Ideal) V c (t.val - 1) (Nat.lt_of_le_of_lt (Nat.sub_le _ _) t.isLt)).2

theorem outB3 (c : Dev nD) (t : Fin cfg9.N) (h0 : ¬t.val % 10 = 0) :
    (outsAt9 (F := Ideal) V c t.val t.isLt).2
      = k9_pay5 (gblk V c t) (outsAt9 (F := Ideal) V c (t.val - 1) (Nat.lt_of_le_of_lt (Nat.sub_le _ _) t.isLt)).2 := by
  rw [outsAt9_B V c t h0]
  dsimp only
  exact out9_B_3_eq (F := Ideal) c (grid9.coords t) (ms9_0 t) (hs9_0 t) (ms9_1 t) (hs9_1 t) (ms9_2 t) (hs9_2 t) (ms9_3 t) (hs9_3 t) (fun h => h0 ((hcond9_0 t).mp h)) (iblk9 V c 0 t) (iblk9 V c 1 t) (outsAt9 (F := Ideal) V c (t.val - 1) (Nat.lt_of_le_of_lt (Nat.sub_le _ _) t.isLt)).1 (outsAt9 (F := Ideal) V c (t.val - 1) (Nat.lt_of_le_of_lt (Nat.sub_le _ _) t.isLt)).2

/-- After point `n` the outputs hold the partial sums and counts over the rows below `5000 (n + 1)`. -/
theorem outs_inv (c : Dev nD) : ∀ (n : ℕ) (hn : n < cfg9.N),
    (∀ g f : Fin 128, (outsAt9 (F := Ideal) V c n hn).1 (ix2 g f)
        = ∑ r ∈ Finset.range (5000 * (n + 1)), termS (garr V c) (harr V c) g f r)
    ∧ (∀ g : Fin 128, (outsAt9 (F := Ideal) V c n hn).2 (ix2 0 g)
        = ∑ r ∈ Finset.range (5000 * (n + 1)), termC (garr V c) g r)
  | 0, hn => by
    refine ⟨fun g f => ?_, fun g => ?_⟩
    · refine (congrFun (outA2 V c ⟨0, hn⟩ rfl) (ix2 g f)).trans ?_
      exact step_sum V c ⟨0, hn⟩ (k9_pay1 (F := Ideal)) g f (by rw [pay1_apply]; simp)
    · refine (congrFun (outA3 V c ⟨0, hn⟩ rfl) (ix2 0 g)).trans ?_
      exact step_cnt V c ⟨0, hn⟩ (k9_pay2 (F := Ideal)) g (by rw [pay2_apply]; simp)
  | n + 1, hn => by
    have hN : n + 1 < 10 := lt_of_lt_of_eq hn (show cfg9.N = 10 from N_9)
    have hB : ¬(⟨n + 1, hn⟩ : Fin cfg9.N).val % 10 = 0 := by dsimp only; omega
    obtain ⟨ih2, ih3⟩ := outs_inv c n (Nat.lt_of_succ_lt hn)
    refine ⟨fun g f => ?_, fun g => ?_⟩
    · refine (congrFun (outB2 V c ⟨n + 1, hn⟩ hB) (ix2 g f)).trans ?_
      exact step_sum V c ⟨n + 1, hn⟩ _ g f (ih2 g f)
    · refine (congrFun (outB3 V c ⟨n + 1, hn⟩ hB) (ix2 0 g)).trans ?_
      exact step_cnt V c ⟨n + 1, hn⟩ _ g (ih3 g)

/-! ## The arrays the region leaves -/

/-- What the sums window holds after the last point. -/
abbrev res2 (c : Dev nD) : Buf (Elt Ideal) ((c : Thread nD τ).loc main_v71_0) := (outsAt9 (F := Ideal) V c t9_9.val t9_9.isLt).1
/-- What the counts window holds after the last point. -/
abbrev res3 (c : Dev nD) : Buf (Elt Ideal) ((c : Thread nD τ).loc main_v71_1) := (outsAt9 (F := Ideal) V c t9_9.val t9_9.isLt).2

/-- The one write-back of window 2, at the last point, writes what that point leaves: its block is the whole array. -/
theorem flushed9_2 (c : Dev nD) (t : Fin cfg9.N) (hf : (cfg9.win 2).flush t = true) :
    (dat9 (F := Ideal) V c).flushed 2 t = ((cfg9.win 2).blk t).view.read (Elt Ideal) (res2 V c) := by
  have h9 : t.val = 9 := by have := (flush9_2 t).mp hf; have := t9_lt t; omega
  obtain rfl : t = t9_9 := Fin.ext h9
  show (cfg9.win 2).cut (grid9.coords t9_9) ((dat9 (F := Ideal) V c).after 2 t9_9) = _
  rw [after9_2]
  have hz' : (fun a => win9_2.index t9_9 a * main_v71_0.ty.shape.size a) = fun _ => 0 := funext fun a => by fin_cases a <;> decide
  exact (Memref.read_access_unit_zero (Elt Ideal) main_v71_0 hz' (fun a => by rw [congrFun hz' a]; simp) (res2 V c)).symm

/-- So the array of window 2 ends holding what the last point leaves. -/
theorem final9_2 (c : Dev nD) : (dat9 (F := Ideal) V c).arrAt 2 cfg9.N = res2 V c :=
  (dat9 (F := Ideal) V c).arrAt_eq_of_cover 2 (res2 V c) (flushed9_2 V c) fun i =>
    ⟨t9_9, (flush9_2 t9_9).mpr rfl, by
      show i ∈ ((View.whole main_v71_0).slice (win9_2.rect t9_9)).set
      rw [View.set_slice_whole, Rect.mem_set_unit]
      intro a
      have h0 : (i 0 : Nat) < 128 := (i 0).isLt
      have h1 : (i 1 : Nat) < 128 := (i 1).isLt
      match a with
      | ⟨0, _⟩ =>
        show win9_2.index t9_9 0 * win9_2.size 0 ≤ (i 0 : Nat) ∧ (i 0 : Nat) < win9_2.index t9_9 0 * win9_2.size 0 + win9_2.xsize (grid9.coords t9_9) 0
        rw [show win9_2.index t9_9 0 * win9_2.size 0 = 0 from by decide +kernel, show win9_2.xsize (grid9.coords t9_9) 0 = 128 from by decide +kernel]; omega
      | ⟨1, _⟩ =>
        show win9_2.index t9_9 1 * win9_2.size 1 ≤ (i 1 : Nat) ∧ (i 1 : Nat) < win9_2.index t9_9 1 * win9_2.size 1 + win9_2.xsize (grid9.coords t9_9) 1
        rw [show win9_2.index t9_9 1 * win9_2.size 1 = 0 from by decide +kernel, show win9_2.xsize (grid9.coords t9_9) 1 = 128 from by decide +kernel]; omega⟩

/-- The one write-back of window 3, at the last point, writes what that point leaves: its block is the whole array. -/
theorem flushed9_3 (c : Dev nD) (t : Fin cfg9.N) (hf : (cfg9.win 3).flush t = true) :
    (dat9 (F := Ideal) V c).flushed 3 t = ((cfg9.win 3).blk t).view.read (Elt Ideal) (res3 V c) := by
  have h9 : t.val = 9 := by have := (flush9_3 t).mp hf; have := t9_lt t; omega
  obtain rfl : t = t9_9 := Fin.ext h9
  show (cfg9.win 3).cut (grid9.coords t9_9) ((dat9 (F := Ideal) V c).after 3 t9_9) = _
  rw [after9_3]
  have hz' : (fun a => win9_3.index t9_9 a * main_v71_1.ty.shape.size a) = fun _ => 0 := funext fun a => by fin_cases a <;> decide
  exact (Memref.read_access_unit_zero (Elt Ideal) main_v71_1 hz' (fun a => by rw [congrFun hz' a]; simp) (res3 V c)).symm

/-- So the array of window 3 ends holding what the last point leaves. -/
theorem final9_3 (c : Dev nD) : (dat9 (F := Ideal) V c).arrAt 3 cfg9.N = res3 V c :=
  (dat9 (F := Ideal) V c).arrAt_eq_of_cover 3 (res3 V c) (flushed9_3 V c) fun i =>
    ⟨t9_9, (flush9_3 t9_9).mpr rfl, by
      show i ∈ ((View.whole main_v71_1).slice (win9_3.rect t9_9)).set
      rw [View.set_slice_whole, Rect.mem_set_unit]
      intro a
      have h0 : (i 0 : Nat) < 1 := (i 0).isLt
      have h1 : (i 1 : Nat) < 128 := (i 1).isLt
      match a with
      | ⟨0, _⟩ =>
        show win9_3.index t9_9 0 * win9_3.size 0 ≤ (i 0 : Nat) ∧ (i 0 : Nat) < win9_3.index t9_9 0 * win9_3.size 0 + win9_3.xsize (grid9.coords t9_9) 0
        rw [show win9_3.index t9_9 0 * win9_3.size 0 = 0 from by decide +kernel, show win9_3.xsize (grid9.coords t9_9) 0 = 1 from by decide +kernel]; omega
      | ⟨1, _⟩ =>
        show win9_3.index t9_9 1 * win9_3.size 1 ≤ (i 1 : Nat) ∧ (i 1 : Nat) < win9_3.index t9_9 1 * win9_3.size 1 + win9_3.xsize (grid9.coords t9_9) 1
        rw [show win9_3.index t9_9 1 * win9_3.size 1 = 0 from by decide +kernel, show win9_3.xsize (grid9.coords t9_9) 1 = 128 from by decide +kernel]; omega⟩

/-- After the last point the sums are over all nodes. -/
theorem res2_apply (c : Dev nD) (g f : Fin 128) :
    res2 V c (ix2 g f)
      = ∑ r : Fin 50000, (if V c main_v70 (ix2 r 0) = BitVec.ofNat 32 g.val then (1 : EReal) else 0) * V c main_v69 (ix2 r f) := by
  refine ((outs_inv V c t9_9.val t9_9.isLt).1 g f).trans ?_
  show ∑ r ∈ Finset.range 50000, termS (garr V c) (harr V c) g f r = _
  rw [Finset.sum_range]
  refine Finset.sum_congr rfl fun r _ => ?_
  unfold termS
  rw [dif_pos r.isLt]

/-- After the last point the counts are over all nodes. -/
theorem res3_apply (c : Dev nD) (g : Fin 128) :
    res3 V c (ix2 0 g) = ∑ r : Fin 50000, (if V c main_v70 (ix2 r 0) = BitVec.ofNat 32 g.val then (1 : EReal) else 0) := by
  refine ((outs_inv V c t9_9.val t9_9.isLt).2 g).trans ?_
  show ∑ r ∈ Finset.range 50000, termC (garr V c) g r = _
  rw [Finset.sum_range]
  refine Finset.sum_congr rfl fun r _ => ?_
  unfold termC
  rw [dif_pos r.isLt]

/-- The pooled sums the last region leaves, for all 128 candidate graphs: the indicator product over all nodes. -/
theorem arr9_sumK (c : Dev nD) : (dat9 (F := Ideal) V c).arrAt 2 cfg9.N = Cert.PoolSpec.sumK (V c main_v70) (V c main_v69) := by
  rw [final9_2]
  funext j
  obtain ⟨g, f, rfl⟩ : ∃ (g f : Fin 128), j = ix2 g f := ⟨j 0, j 1, eq_ix2 j⟩
  exact res2_apply V c g f

/-- The node counts the last region leaves, for all 128 candidate graphs. -/
theorem arr9_cntK (c : Dev nD) : (dat9 (F := Ideal) V c).arrAt 3 cfg9.N = Cert.PoolSpec.cntK (V c main_v70) := by
  rw [final9_3]
  funext j
  obtain ⟨z, g, rfl⟩ : ∃ (z : Fin 1) (g : Fin 128), j = ix2 z g := ⟨j 0, j 1, eq_ix2 j⟩
  obtain rfl : z = 0 := Subsingleton.elim _ _
  exact res3_apply V c g

/-- The first 64 rows of the pooled sums are the reference's scatter-add of the node rows. -/
theorem arr9_sum (c : Dev nD) :
    extractStridedSlice S64x128 ![0, 0] ((dat9 (F := Ideal) V c).arrAt 2 cfg9.N) Facts₀.slices_S128x128_S64x128_0_0
      = Cert.Spec.poolSum (V c main_v70) (V c main_v69) := by
  rw [arr9_sumK]; exact Cert.PoolSpec.sumK_slice _ _ _

/-- The first 64 counts are the reference's scatter-add of ones. -/
theorem arr9_cnt (c : Dev nD) :
    shapeCast S64 (extractStridedSlice S1x64 ![0, 0] ((dat9 (F := Ideal) V c).arrAt 3 cfg9.N) Facts₀.slices_S1x128_S1x64_0_0) Facts₀.shapeCasts_S1x64_S64
      = Cert.Spec.poolCnt (V c main_v70) := by
  rw [arr9_cntK]; exact Cert.PoolSpec.cntK_slice _ _ _

end Cert.KernelIdeal.RegV

end
-- ==== Proof.MatmulLaws.lean ====
/-
  The mathematics the three dense-product regions share, free of the kernel's program.

  * The dense product `x · W` of the network's definition, read at an entry `(r, q)`, is the sum over the
    contracted coordinate `Σ_k x (r, k) · W (k, q)`.
  * The exponential linear unit `t ↦ t` for `t > 0`, `e^t − 1` otherwise, in the two spellings the programs use:
    `select (t > 0) t (exp t − 1)`, and `select (t > 0) t (1 · expm1 (select (t > 0) 0 t))`. Where `t > 0` both give
    `t`; elsewhere the inner selection returns `t`, `expm1 t = e^t − 1`, and the factor `1` is neutral. So the two agree
    at every extended real, and the network's unit read at an entry is the first spelling of that entry.
-/
import proofs.«401817_j18751827214892_1_alg».proof.Proof.Spec
import proofs.«401817_j18751827214892_1_alg».proof.Proof.LibRowDims
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.MatmulLaws

open Idealize.ShloMosaic Idealize.ShloMosaic.ValueIdx Idealize.ShloMosaic.RowDims

/-! ## The dense product at an entry -/

/-- The host's contraction record of `[50000, 128] × [128, 128]` is the plain one at these sizes. -/
theorem dot_host_eq :
    Cert.ReferenceIdeal.dot_S50000x128_S128x128_S50000x128_1_0_0_1_n_n = DotDims.plain 50000 128 128 := rfl

/-- The dense product at the entry `(r, q)`: row `r` of the features against column `q` of the matrix. -/
theorem dense_apply (x : (⟨Cert.ReferenceIdeal.S50000x128, .f32⟩ : BufTy).Contents (Elt Ideal))
    (w : (⟨Cert.ReferenceIdeal.S128x128, .f32⟩ : BufTy).Contents (Elt Ideal)) (r : Fin 50000) (q : Fin 128) :
    Cert.Spec.dense x w (ix2 r q) = ∑ k : Fin 128, x (ix2 r k) * w (ix2 k q) := by
  unfold Cert.Spec.dense
  rw [dot_host_eq]
  exact dotGeneral_plain_apply none _ _ _ r q

/-! ## The exponential linear unit -/

/-- The unit on the extended reals, in the kernel's spelling: `t` where `t > 0`, elsewhere `e^t − 1`. -/
def eluAt (a : Ideal .f32) : Ideal .f32 :=
  Scalar.select (FloatOps.cmpf .ogt a (Scalar.ofBits .f32 0x00000000#32)) a
    (FloatOps.subf (FloatOps.exp a) (Scalar.ofBits .f32 0x3F800000#32))

/-- The host's spelling `select (t > 0) t (1 · expm1 (select (t > 0) 0 t))` is the same function: where `t > 0`
    both select `t`; elsewhere the inner selection is `t`, `expm1 t = e^t − 1`, and `1 · y = y`. -/
theorem elu_host_eq (a : Ideal .f32) :
    Scalar.select (FloatOps.cmpf .ogt a (FloatOps.ofBits .f32 0x00000000#32)) a
        (FloatOps.mulf (FloatOps.ofBits .f32 0x3F800000#32)
          (FloatOps.hostUnary .expm1
            (Scalar.select (FloatOps.cmpf .ogt a (FloatOps.ofBits .f32 0x00000000#32)) (FloatOps.ofBits .f32 0x00000000#32) a)))
      = eluAt a := by
  unfold eluAt Scalar.select
  split_ifs with h
  · rfl
  · show Ideal.ofBits .f32 0x3F800000#32 * (Ideal.exp a - 1) = Ideal.exp a - Ideal.ofBits .f32 0x3F800000#32
    rw [Ideal.ofBits_one_f32, one_mul]

/-- The kernel's spelling over a whole block, read at an entry, is the unit of that entry. -/
theorem elu_block_apply {s : Shape} (v : FVec Ideal s .f32) (i : s.Idx) :
    select (cmpf .ogt v (broadcast s (Scalar.ofBits .f32 0x00000000#32))) v
        (subf (exp v) (broadcast s (Scalar.ofBits .f32 0x3F800000#32))) i = eluAt (v i) := rfl

/-- The network's unit read at an entry is the unit of that entry. -/
theorem elu_apply (x : (⟨Cert.ReferenceIdeal.S50000x128, .f32⟩ : BufTy).Contents (Elt Ideal))
    (i : Cert.ReferenceIdeal.S50000x128.Idx) : Cert.Spec.elu x i = eluAt (x i) := by
  unfold Cert.Spec.elu
  simp only [select_apply, cmpf_apply, broadcastInDim_scalar_apply]
  exact elu_host_eq (x i)

end Cert.MatmulLaws

end
-- ==== Proof.RegMatmul6.lean ====
/-
  Region 6: the third dense product, of the exponential linear unit of the second layer's result.

  The grid has 10 points. Point `t` holds rows `5000·t … 5000·t + 4999` of the second layer's result (a block of
  5000 × 128) and the whole 128 × 128 weight matrix. The body applies the unit `s ↦ s` for `s > 0`, `e^s − 1` otherwise,
  to every entry of the block, and stores the product of the outcome with the matrix into its block of the output. At the
  ideal values the narrowing of the operands is the identity and the product into the zero accumulator is
  `Σ_k elu (x (p, k)) · W (k, q)`; entry `(p, q)` of block `t` is entry `(5000·t + p, q)` of the array, where the network's
  dense product of the unit of the array is the same sum, the network's spelling of the unit agreeing with the body's at
  every extended real. Row `r` of the array lies in the block of point `r / 5000`, so the ten blocks cover the array and
  it ends holding that dense product.
-/
import proofs.«401817_j18751827214892_1_alg».proof.Proof.Gen.KernelIdeal.Frame
import proofs.«401817_j18751827214892_1_alg».proof.Proof.Spec
import proofs.«401817_j18751827214892_1_alg».proof.Proof.LibRowDims
import proofs.«401817_j18751827214892_1_alg».proof.Proof.MatmulLaws
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.RegV.Matmul6

open Cert.KernelIdeal Cert.KernelIdeal.Gen
open Idealize.ShloMosaic Idealize.ShloMosaic.TcCoe Idealize.SL.Sem
open Idealize.ShloMosaic.Pipeline (Dat Cfg Window)
open Idealize.ShloMosaic.ValueIdx Idealize.ShloMosaic.RowDims
open Cert.MatmulLaws (eluAt)

theorem origin : (![0, 0] : Fin 2 → Nat) = fun _ => 0 := funext fun a => by fin_cases a <;> rfl

/-- The printed index maps over the grid: the two row-block windows sit at block `t`, the matrix window at block `0`. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The body's contraction record of `[5000, 128] × [128, 128]` is the plain one at these sizes. -/
theorem dot_body_eq : dot_S5000x128_S128x128_S5000x128_1_0_0_1_n_n = DotDims.plain 5000 128 128 := rfl

/-- The body's payload at the entry `(p, q)`: the unit of row `p` of the block against column `q` of the matrix. -/
theorem pay_apply (x0 : Vec Ideal S5000x128 .f32) (x1 : Vec Ideal S128x128 .f32) (p : Fin 5000) (q : Fin 128) :
    k6_pay1 x0 x1 (ix2 p q) = ∑ k : Fin 128, eluAt (x0 (ix2 p k)) * x1 (ix2 k q) := by
  unfold k6_pay1
  simp only [shapeCast_self]
  rw [dot_body_eq]
  exact matmul_plain_zero_apply none _ _ p q

variable (V : (c : Dev nD) → (b : Ref sig .tc) → Buf (Elt Ideal) ((c : Thread nD τ).loc b))

/-- What point `t` writes back is block `t` of the dense product of the unit of the layer's result. -/
theorem flushed_eq (c : Dev nD) (t : Fin cfg6.N) :
    (dat6 (F := Ideal) V c).flushed 2 t
      = ((cfg6.win 2).blk t).view.read (Elt Ideal)
          (Cert.Spec.dense (Cert.Spec.elu (V c main_v56)) (V c main_arg7)) := by
  show (cfg6.win 2).cut (grid6.coords t) ((dat6 (F := Ideal) V c).after 2 t) = _
  rw [after6_2]
  unfold out6_2
  rw [View.canon_unit_zero origin]
  simp only [View.ld_unit_zero (S := S5000x128) origin, View.ld_unit_zero (S := S128x128) origin]
  obtain ⟨e0, e1, e2, e3, e4, e5⟩ := idx_facts t
  funext j
  obtain ⟨p, q, rfl⟩ : ∃ (p : Fin 5000) (q : Fin 128), j = ix2 p q := ⟨j 0, j 1, eq_ix2 j⟩
  have hp : p.val < 5000 := p.isLt
  have ht : t.val < 10 := t.isLt
  show k6_pay1 (iblk6 V c 0 t) (iblk6 V c 1 t) (ix2 p q)
    = Cert.Spec.dense (Cert.Spec.elu (V c main_v56)) (V c main_arg7) (((cfg6.win 2).blk t).view.emb (ix2 p q))
  -- entry (p, q) of the output's block is entry (5000·t + p, q) of the array
  have hemb : ((cfg6.win 2).blk t).view.emb (ix2 p q) = ix2 (⟨5000 * t.val + p.val, by omega⟩ : Fin 50000) q := by
    funext a; apply Fin.ext
    match a with
    | ⟨0, _⟩ => show win6_2.index t (0 : Fin 2) * 5000 + 1 * p.val = 5000 * t.val + p.val; omega
    | ⟨1, _⟩ => show win6_2.index t (1 : Fin 2) * 128 + 1 * q.val = q.val; omega
  rw [hemb, pay_apply, Cert.MatmulLaws.dense_apply]
  refine Finset.sum_congr rfl fun k _ => ?_
  rw [Cert.MatmulLaws.elu_apply]
  -- entry (p, k) of the layer's block is entry (5000·t + p, k) of the layer's result
  have h0 : iblk6 V c 0 t (ix2 p k) = V c main_v56 (ix2 (⟨5000 * t.val + p.val, by omega⟩ : Fin 50000) k) := by
    show V c main_v56 (((cfg6.win 0).blk t).view.emb (ix2 p k)) = _
    congr 1
    funext a; apply Fin.ext
    match a with
    | ⟨0, _⟩ => show win6_0.index t (0 : Fin 2) * 5000 + 1 * p.val = 5000 * t.val + p.val; omega
    | ⟨1, _⟩ => show win6_0.index t (1 : Fin 2) * 128 + 1 * k.val = k.val; omega
  -- the matrix's block is the whole matrix
  have h1 : iblk6 V c 1 t (ix2 k q) = V c main_arg7 (ix2 k q) := by
    show V c main_arg7 (((cfg6.win 1).blk t).view.emb (ix2 k q)) = _
    congr 1
    funext a; apply Fin.ext
    match a with
    | ⟨0, _⟩ => show win6_1.index t (0 : Fin 2) * 128 + 1 * k.val = k.val; omega
    | ⟨1, _⟩ => show win6_1.index t (1 : Fin 2) * 128 + 1 * q.val = q.val; omega
  rw [h0, h1]

/-- An index of the array is in point `t`'s block iff each coordinate is in the block's range on its axis. -/
theorem mem_blk (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v57).slice (win6_2.rect t)).set ↔ _
  rw [View.set_slice_whole, Rect.mem_set_unit]
  exact Iff.rfl

/-- Every entry of the array lies in the block of the point its row names: row `r` in that of point `r / 5000`. -/
theorem cover (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  refine ⟨⟨(i 0).val / 5000, by show _ < 10; omega⟩, flush6_2 _, ?_⟩
  rw [mem_blk]
  obtain ⟨e0, e1, e2, e3, e4, e5⟩ := idx_facts ⟨(i 0).val / 5000, by show _ < 10; omega⟩
  intro a
  match a with
  | ⟨0, _⟩ => show win6_2.index _ (0 : Fin 2) * 5000 ≤ (i 0).val ∧ (i 0).val < win6_2.index _ (0 : Fin 2) * 5000 + 5000; rw [e4]; show (i 0).val / 5000 * 5000 ≤ _ ∧ _ < (i 0).val / 5000 * 5000 + 5000; omega
  | ⟨1, _⟩ => show win6_2.index _ (1 : Fin 2) * 128 ≤ (i 1).val ∧ (i 1).val < win6_2.index _ (1 : Fin 2) * 128 + 128; rw [e5]; omega

end Cert.KernelIdeal.RegV.Matmul6

namespace Cert.KernelIdeal.RegV

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- Region 6 leaves the dense product of the unit of the second layer's result with the third weight matrix. -/
theorem arr6 (c : Dev nD) : (dat6 (F := Ideal) V c).arrAt 2 cfg6.N = Cert.Spec.dense (Cert.Spec.elu (V c main_v56)) (V c main_arg7) :=
  (dat6 (F := Ideal) V c).arrAt_eq_of_cover 2 _ (fun t _ => Matmul6.flushed_eq V c t) Matmul6.cover

end Cert.KernelIdeal.RegV

end
-- ==== Proof.RegScale7.lean ====
import proofs.«401817_j18751827214892_1_alg».proof.Proof.Gen.KernelIdeal.Frame
import proofs.«401817_j18751827214892_1_alg».proof.Proof.Spec
import Idealize.ShloMosaic.PureOps.Ideal
import Idealize.ShloMosaic.PureOps.Ideal.Laws
import Idealize.ShloMosaic.Lib.ValueIdx
import Idealize.ShloMosaic.Lib.Pipeline.Value

/-!
  Edge scaling, read entry by entry.

  The region multiplies every edge row by that edge's weight: `out (e, f) = hs (e, f) · coef (e, 0)`. The 1600000 edge
  rows are cut into 160 blocks of 10000 rows; grid point `t` reads block `t` of the rows and of the weight column and
  writes block `t` of the result. Row `p` of block `t` is row `t · 10000 + p` of the array, so the block a point writes
  back is that block of the array `scaleRows hs coef`, and the 160 blocks cover every row (row `r` lies in block
  `r / 10000`).
-/

set_option maxRecDepth 16384

noncomputable section

namespace Cert.KernelIdeal.RegV

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- The block's product at row `p`, column `q`: the row's entry times the row's one weight. -/
theorem scale7_pay (x0 : Vec Ideal S10000x128 .f32) (x1 : Vec Ideal S10000x1 .f32) (p : Fin 10000) (q : Fin 128) :
    k7_pay1 x0 x1 (ix2 p q) = x0 (ix2 p q) * x1 (ix2 p (0 : Fin 1)) := by
  unfold k7_pay1
  rw [mulf_apply, shapeCast_self, shapeCast_self]
  rw [broadcastTo_apply x1 broadcasts_S10000x1_S10000x128 (ix2 p q) (ix2 p (0 : Fin 1))]
  intro a
  match a with
  | ⟨0, _⟩ => rfl
  | ⟨1, _⟩ => rfl

/-- The whole array's product at row `r`, column `q`: the same expression of the same entries. -/
theorem scale7_spec (hs : (⟨Cert.ReferenceIdeal.S1600000x128, .f32⟩ : BufTy).Contents (Elt Ideal))
    (cc : (⟨Cert.ReferenceIdeal.S1600000x1, .f32⟩ : BufTy).Contents (Elt Ideal)) (r : Fin 1600000) (q : Fin 128) :
    Cert.Spec.scaleRows hs cc (ix2 r q) = hs (ix2 r q) * cc (ix2 r (0 : Fin 1)) := by
  unfold Cert.Spec.scaleRows
  rw [mulf_apply]
  rw [broadcastInDim_apply _ _ cc (ix2 r q) (ix2 r (0 : Fin 1))]
  intro a
  match a with
  | ⟨0, _⟩ => rfl
  | ⟨1, _⟩ => rfl

theorem scale7_hz : (![0, 0] : Fin 2 → Nat) = fun _ => 0 := funext fun a => by fin_cases a <;> rfl

/-- At point `t` every window's block index is `t` on the row axis and `0` on the column axis. -/
theorem scale7_idx : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- Row `p` of block `t` is a row of the array. -/
theorem scale7_rows (t : Fin cfg7.N) (p : Fin 10000) : t.val * 10000 + p.val < 1600000 := by
  have h1 : t.val < 160 := t.isLt
  have h2 := p.isLt
  omega

variable (V : (c : Dev nD) → (b : Ref sig .tc) → Buf (Elt Ideal) ((c : Thread nD τ).loc b))

/-- Where entry `(p, q)` of the rows' block at `t` sits in the array: row `t · 10000 + p`, column `q`. -/
theorem scale7_emb0 (t : Fin cfg7.N) (p : Fin 10000) (q : Fin 128) :
    ((cfg7.win 0).blk t).view.emb (ix2 p q) = ix2 (⟨t.val * 10000 + p.val, scale7_rows t p⟩ : Fin 1600000) q := by
  obtain ⟨e0, e1, e2, e3, e4, e5⟩ := scale7_idx t
  funext a; apply Fin.ext
  match a with
  | ⟨0, _⟩ => show win7_0.index t (0 : Fin 2) * 10000 + 1 * p.val = t.val * 10000 + p.val; omega
  | ⟨1, _⟩ => show win7_0.index t (1 : Fin 2) * 128 + 1 * q.val = q.val; omega

/-- The same for the weight column's block. -/
theorem scale7_emb1 (t : Fin cfg7.N) (p : Fin 10000) (q : Fin 1) :
    ((cfg7.win 1).blk t).view.emb (ix2 p q) = ix2 (⟨t.val * 10000 + p.val, scale7_rows t p⟩ : Fin 1600000) q := by
  obtain ⟨e0, e1, e2, e3, e4, e5⟩ := scale7_idx t
  funext a; apply Fin.ext
  match a with
  | ⟨0, _⟩ => show win7_1.index t (0 : Fin 2) * 10000 + 1 * p.val = t.val * 10000 + p.val; omega
  | ⟨1, _⟩ => show win7_1.index t (1 : Fin 2) * 1 + 1 * q.val = q.val; omega

/-- The same for the result's block. -/
theorem scale7_emb2 (t : Fin cfg7.N) (p : Fin 10000) (q : Fin 128) :
    ((cfg7.win 2).blk t).view.emb (ix2 p q) = ix2 (⟨t.val * 10000 + p.val, scale7_rows t p⟩ : Fin 1600000) q := by
  obtain ⟨e0, e1, e2, e3, e4, e5⟩ := scale7_idx t
  funext a; apply Fin.ext
  match a with
  | ⟨0, _⟩ => show win7_2.index t (0 : Fin 2) * 10000 + 1 * p.val = t.val * 10000 + p.val; omega
  | ⟨1, _⟩ => show win7_2.index t (1 : Fin 2) * 128 + 1 * q.val = q.val; omega

/-- Entry `(p, q)` of the rows' block at `t` is the array's entry at row `t · 10000 + p`. -/
theorem scale7_blk0 (c : Dev nD) (t : Fin cfg7.N) (p : Fin 10000) (q : Fin 128) :
    (iblk7 V c 0 t (ix2 p q) : Elt Ideal .f32) = V c main_v64 (ix2 (⟨t.val * 10000 + p.val, scale7_rows t p⟩ : Fin 1600000) q) := by
  show V c main_v64 (((cfg7.win 0).blk t).view.emb (ix2 p q)) = _
  rw [scale7_emb0]

/-- Entry `(p, 0)` of the weights' block at `t` is the weight of edge `t · 10000 + p`. -/
theorem scale7_blk1 (c : Dev nD) (t : Fin cfg7.N) (p : Fin 10000) (q : Fin 1) :
    (iblk7 V c 1 t (ix2 p q) : Elt Ideal .f32) = V c main_v30 (ix2 (⟨t.val * 10000 + p.val, scale7_rows t p⟩ : Fin 1600000) q) := by
  show V c main_v30 (((cfg7.win 1).blk t).view.emb (ix2 p q)) = _
  rw [scale7_emb1]

/-- What point `t` writes back is block `t` of the scaled rows. -/
theorem scale7_flushed (c : Dev nD) (t : Fin cfg7.N) :
    (dat7 (F := Ideal) V c).flushed 2 t
      = ((cfg7.win 2).blk t).view.read (Elt Ideal) (Cert.Spec.scaleRows (V c main_v64) (V c main_v30)) := by
  show (cfg7.win 2).cut (grid7.coords t) ((dat7 V c).after 2 t) = _
  rw [after7_2]
  unfold out7_2
  rw [View.canon_unit_zero scale7_hz]
  simp only [View.ld_unit_zero (S := S10000x128) scale7_hz, View.ld_unit_zero (S := S10000x1) scale7_hz]
  funext j
  obtain ⟨p, q, rfl⟩ : ∃ (p : Fin 10000) (q : Fin 128), j = ix2 p q := ⟨j 0, j 1, eq_ix2 j⟩
  show k7_pay1 (iblk7 V c 0 t) (iblk7 V c 1 t) (ix2 p q)
    = Cert.Spec.scaleRows (V c main_v64) (V c main_v30) (((cfg7.win 2).blk t).view.emb (ix2 p q))
  rw [scale7_pay, scale7_emb2, scale7_spec, scale7_blk0, scale7_blk1]

/-- An index of the array is in point `t`'s block iff each coordinate is in the block's range on its axis. -/
theorem scale7_mem (t : Fin cfg7.N) (i : S1600000x128.Idx) :
    i ∈ ((cfg7.win 2).blk t).view.set ↔ ∀ a : Fin 2, win7_2.index t a * S10000x128.size a ≤ (i a).val
      ∧ (i a).val < win7_2.index t a * S10000x128.size a + S10000x128.size a := by
  show i ∈ ((View.whole main_v65).slice (win7_2.rect t)).set ↔ _
  rw [View.set_slice_whole, Rect.mem_set_unit]
  exact Iff.rfl

/-- Every index of the array is in the block of the point `row / 10000`. -/
theorem scale7_cover (i : S1600000x128.Idx) :
    ∃ t : Fin cfg7.N, (cfg7.win 2).flush t = true ∧ i ∈ ((cfg7.win 2).blk t).view.set := by
  have hi0 : (i 0).val < 1600000 := (i 0).isLt
  have hi1 : (i 1).val < 128 := (i 1).isLt
  have hN : (i 0).val / 10000 < grid7.N := by rw [N_7]; omega
  obtain ⟨e0, e1, e2, e3, e4, e5⟩ := scale7_idx ⟨(i 0).val / 10000, hN⟩
  have e4' : win7_2.index ⟨(i 0).val / 10000, hN⟩ (0 : Fin 2) = (i 0).val / 10000 := e4
  refine ⟨⟨(i 0).val / 10000, hN⟩, flush7_2 _, ?_⟩
  rw [scale7_mem]
  intro a
  match a with
  | ⟨0, _⟩ =>
    show win7_2.index ⟨(i 0).val / 10000, hN⟩ (0 : Fin 2) * 10000 ≤ (i 0).val
      ∧ (i 0).val < win7_2.index ⟨(i 0).val / 10000, hN⟩ (0 : Fin 2) * 10000 + 10000
    omega
  | ⟨1, _⟩ =>
    show win7_2.index ⟨(i 0).val / 10000, hN⟩ (1 : Fin 2) * 128 ≤ (i 1).val
      ∧ (i 1).val < win7_2.index ⟨(i 0).val / 10000, hN⟩ (1 : Fin 2) * 128 + 128
    omega

/-- After the region the result array holds every edge row times the edge's weight. -/
theorem arr7 (c : Dev nD) : (dat7 (F := Ideal) V c).arrAt 2 cfg7.N = Cert.Spec.scaleRows (V c main_v64) (V c main_v30) :=
  (dat7 V c).arrAt_eq_of_cover 2 _ (fun t _ => scale7_flushed V c t) scale7_cover

end Cert.KernelIdeal.RegV

end
-- ==== Proof.RegFin8.lean ====
import proofs.«401817_j18751827214892_1_alg».proof.Proof.Gen.KernelIdeal.Frame
import proofs.«401817_j18751827214892_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

/-!
  The layer's last step, read entry by entry.

  The region adds, to the aggregate, the node's own features over its degree and the bias:
  `out (v, f) = (ea (v, f) + h (v, f) · di (v, 0)) + b (f)`. The 50000 node rows are cut into 10 blocks of 5000 rows; grid
  point `t` reads block `t` of the aggregate, of the features and of the inverse-degree column, the whole bias, and
  writes block `t` of the result. Row `p` of block `t` is row `t · 5000 + p` of the array, so the block a point writes back
  is that block of the array `finish ea h di b`, and the 10 blocks cover every row (row `r` lies in block `r / 5000`).
-/

set_option maxRecDepth 16384

noncomputable section

namespace Cert.KernelIdeal.RegV

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- The block's sum at row `p`, column `q`: the aggregate's entry, plus the features' entry times the row's one inverse
    degree, plus the bias of the column. -/
theorem fin8_pay (x0 x1 : Vec Ideal S5000x128 .f32) (x2 : Vec Ideal S5000x1 .f32) (x3 : Vec Ideal S128 .f32) (p : Fin 5000) (q : Fin 128) :
    k8_pay1 x0 x1 x2 x3 (ix2 p q) = (x0 (ix2 p q) + x1 (ix2 p q) * x2 (ix2 p (0 : Fin 1))) + x3 (ix1 q) := by
  unfold k8_pay1
  rw [addf_apply, addf_apply, mulf_apply, shapeCast_self, shapeCast_self, shapeCast_self]
  rw [broadcastTo_apply x2 broadcasts_S5000x1_S5000x128 (ix2 p q) (ix2 p (0 : Fin 1)) (fun a => by
    match a with
    | ⟨0, _⟩ => rfl
    | ⟨1, _⟩ => rfl)]
  rw [broadcastTo_1b_ab_apply, shapeCast_a_1a_apply]

/-- The whole array's sum at row `r`, column `q`: the same expression of the same entries. -/
theorem fin8_spec (ea h : (⟨Cert.ReferenceIdeal.S50000x128, .f32⟩ : BufTy).Contents (Elt Ideal))
    (dc : (⟨Cert.ReferenceIdeal.S50000x1, .f32⟩ : BufTy).Contents (Elt Ideal))
    (b : (⟨Cert.ReferenceIdeal.S128, .f32⟩ : BufTy).Contents (Elt Ideal)) (r : Fin 50000) (q : Fin 128) :
    Cert.Spec.finish ea h dc b (ix2 r q) = (ea (ix2 r q) + h (ix2 r q) * dc (ix2 r (0 : Fin 1))) + b (ix1 q) := by
  unfold Cert.Spec.finish
  rw [addf_apply, addf_apply, mulf_apply]
  rw [broadcastInDim_apply _ _ dc (ix2 r q) (ix2 r (0 : Fin 1)) (fun a => by
    match a with
    | ⟨0, _⟩ => rfl
    | ⟨1, _⟩ => rfl)]
  rw [broadcastInDim_apply _ _ (broadcastInDim _ _ _ b) (ix2 r q) (ix2 (0 : Fin 1) q) (fun a => by
    match a with
    | ⟨0, _⟩ => rfl
    | ⟨1, _⟩ => rfl)]
  rw [broadcastInDim_apply _ _ b (ix2 (0 : Fin 1) q) (ix1 q) (fun a => by
    match a with
    | ⟨0, _⟩ => rfl)]

theorem fin8_hz : (![0, 0] : Fin 2 → Nat) = fun _ => 0 := funext fun a => by fin_cases a <;> rfl

theorem fin8_hz1 : (![0] : Fin 1 → Nat) = fun _ => 0 := funext fun a => by fin_cases a; rfl

/-- At point `t` the four row-blocked windows have block index `t` on the row axis and `0` on the column axis; the
    bias window's block index is `0`. -/
theorem fin8_idx : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 1) = 0
    ∧ win8_4.index t (0 : Fin 2) = t.val ∧ win8_4.index t (1 : Fin 2) = 0 :=
  (by decide +kernel : ∀ t : Fin grid8.N, _)

/-- Row `p` of block `t` is a row of the array. -/
theorem fin8_rows (t : Fin cfg8.N) (p : Fin 5000) : t.val * 5000 + p.val < 50000 := by
  have h1 : t.val < 10 := t.isLt
  have h2 := p.isLt
  omega

variable (V : (c : Dev nD) → (b : Ref sig .tc) → Buf (Elt Ideal) ((c : Thread nD τ).loc b))

/-- Where entry `(p, q)` of the aggregate's block at `t` sits in the array: row `t · 5000 + p`, column `q`. -/
theorem fin8_emb0 (t : Fin cfg8.N) (p : Fin 5000) (q : Fin 128) :
    ((cfg8.win 0).blk t).view.emb (ix2 p q) = ix2 (⟨t.val * 5000 + p.val, fin8_rows t p⟩ : Fin 50000) q := by
  obtain ⟨e0, e1, e2, e3, e4, e5, e6, e7, e8⟩ := fin8_idx t
  funext a; apply Fin.ext
  match a with
  | ⟨0, _⟩ => show win8_0.index t (0 : Fin 2) * 5000 + 1 * p.val = t.val * 5000 + p.val; omega
  | ⟨1, _⟩ => show win8_0.index t (1 : Fin 2) * 128 + 1 * q.val = q.val; omega

/-- The same for the node features' block. -/
theorem fin8_emb1 (t : Fin cfg8.N) (p : Fin 5000) (q : Fin 128) :
    ((cfg8.win 1).blk t).view.emb (ix2 p q) = ix2 (⟨t.val * 5000 + p.val, fin8_rows t p⟩ : Fin 50000) q := by
  obtain ⟨e0, e1, e2, e3, e4, e5, e6, e7, e8⟩ := fin8_idx t
  funext a; apply Fin.ext
  match a with
  | ⟨0, _⟩ => show win8_1.index t (0 : Fin 2) * 5000 + 1 * p.val = t.val * 5000 + p.val; omega
  | ⟨1, _⟩ => show win8_1.index t (1 : Fin 2) * 128 + 1 * q.val = q.val; omega

/-- The same for the inverse-degree column's block. -/
theorem fin8_emb2 (t : Fin cfg8.N) (p : Fin 5000) (q : Fin 1) :
    ((cfg8.win 2).blk t).view.emb (ix2 p q) = ix2 (⟨t.val * 5000 + p.val, fin8_rows t p⟩ : Fin 50000) q := by
  obtain ⟨e0, e1, e2, e3, e4, e5, e6, e7, e8⟩ := fin8_idx t
  funext a; apply Fin.ext
  match a with
  | ⟨0, _⟩ => show win8_2.index t (0 : Fin 2) * 5000 + 1 * p.val = t.val * 5000 + p.val; omega
  | ⟨1, _⟩ => show win8_2.index t (1 : Fin 2) * 1 + 1 * q.val = q.val; omega

/-- The bias window's block is the whole bias at every point. -/
theorem fin8_emb3 (t : Fin cfg8.N) (q : Fin 128) :
    ((cfg8.win 3).blk t).view.emb (ix1 q) = ix1 q := by
  obtain ⟨e0, e1, e2, e3, e4, e5, e6, e7, e8⟩ := fin8_idx t
  funext a; apply Fin.ext
  match a with
  | ⟨0, _⟩ => show win8_3.index t (0 : Fin 1) * 128 + 1 * q.val = q.val; omega

/-- The same as the first for the result's block. -/
theorem fin8_emb4 (t : Fin cfg8.N) (p : Fin 5000) (q : Fin 128) :
    ((cfg8.win 4).blk t).view.emb (ix2 p q) = ix2 (⟨t.val * 5000 + p.val, fin8_rows t p⟩ : Fin 50000) q := by
  obtain ⟨e0, e1, e2, e3, e4, e5, e6, e7, e8⟩ := fin8_idx t
  funext a; apply Fin.ext
  match a with
  | ⟨0, _⟩ => show win8_4.index t (0 : Fin 2) * 5000 + 1 * p.val = t.val * 5000 + p.val; omega
  | ⟨1, _⟩ => show win8_4.index t (1 : Fin 2) * 128 + 1 * q.val = q.val; omega

/-- Entry `(p, q)` of the aggregate's block at `t` is the array's entry at row `t · 5000 + p`. -/
theorem fin8_blk0 (c : Dev nD) (t : Fin cfg8.N) (p : Fin 5000) (q : Fin 128) :
    (iblk8 V c 0 t (ix2 p q) : Elt Ideal .f32) = V c main_v68 (ix2 (⟨t.val * 5000 + p.val, fin8_rows t p⟩ : Fin 50000) q) := by
  show V c main_v68 (((cfg8.win 0).blk t).view.emb (ix2 p q)) = _
  rw [fin8_emb0]

/-- The same for the node features. -/
theorem fin8_blk1 (c : Dev nD) (t : Fin cfg8.N) (p : Fin 5000) (q : Fin 128) :
    (iblk8 V c 1 t (ix2 p q) : Elt Ideal .f32) = V c main_v57 (ix2 (⟨t.val * 5000 + p.val, fin8_rows t p⟩ : Fin 50000) q) := by
  show V c main_v57 (((cfg8.win 1).blk t).view.emb (ix2 p q)) = _
  rw [fin8_emb1]

/-- Entry `(p, 0)` of the inverse-degree block at `t` is the inverse degree of node `t · 5000 + p`. -/
theorem fin8_blk2 (c : Dev nD) (t : Fin cfg8.N) (p : Fin 5000) (q : Fin 1) :
    (iblk8 V c 2 t (ix2 p q) : Elt Ideal .f32) = V c main_v14 (ix2 (⟨t.val * 5000 + p.val, fin8_rows t p⟩ : Fin 50000) q) := by
  show V c main_v14 (((cfg8.win 2).blk t).view.emb (ix2 p q)) = _
  rw [fin8_emb2]

/-- Entry `q` of the bias block is the bias at `q`. -/
theorem fin8_blk3 (c : Dev nD) (t : Fin cfg8.N) (q : Fin 128) :
    (iblk8 V c 3 t (ix1 q) : Elt Ideal .f32) = V c main_arg8 (ix1 q) := by
  show V c main_arg8 (((cfg8.win 3).blk t).view.emb (ix1 q)) = _
  rw [fin8_emb3]

/-- What point `t` writes back is block `t` of the finished layer. -/
theorem fin8_flushed (c : Dev nD) (t : Fin cfg8.N) :
    (dat8 (F := Ideal) V c).flushed 4 t
      = ((cfg8.win 4).blk t).view.read (Elt Ideal) (Cert.Spec.finish (V c main_v68) (V c main_v57) (V c main_v14) (V c main_arg8)) := by
  show (cfg8.win 4).cut (grid8.coords t) ((dat8 V c).after 4 t) = _
  rw [after8_4]
  unfold out8_4
  rw [View.canon_unit_zero fin8_hz]
  simp only [View.ld_unit_zero (S := S5000x128) fin8_hz, View.ld_unit_zero (S := S5000x1) fin8_hz, View.ld_unit_zero (S := S128) fin8_hz1]
  funext j
  obtain ⟨p, q, rfl⟩ : ∃ (p : Fin 5000) (q : Fin 128), j = ix2 p q := ⟨j 0, j 1, eq_ix2 j⟩
  show k8_pay1 (iblk8 V c 0 t) (iblk8 V c 1 t) (iblk8 V c 2 t) (iblk8 V c 3 t) (ix2 p q)
    = Cert.Spec.finish (V c main_v68) (V c main_v57) (V c main_v14) (V c main_arg8) (((cfg8.win 4).blk t).view.emb (ix2 p q))
  rw [fin8_pay, fin8_emb4, fin8_spec, fin8_blk0, fin8_blk1, fin8_blk2, fin8_blk3]

/-- An index of the array is in point `t`'s block iff each coordinate is in the block's range on its axis. -/
theorem fin8_mem (t : Fin cfg8.N) (i : S50000x128.Idx) :
    i ∈ ((cfg8.win 4).blk t).view.set ↔ ∀ a : Fin 2, win8_4.index t a * S5000x128.size a ≤ (i a).val
      ∧ (i a).val < win8_4.index t a * S5000x128.size a + S5000x128.size a := by
  show i ∈ ((View.whole main_v69).slice (win8_4.rect t)).set ↔ _
  rw [View.set_slice_whole, Rect.mem_set_unit]
  exact Iff.rfl

/-- Every index of the array is in the block of the point `row / 5000`. -/
theorem fin8_cover (i : S50000x128.Idx) :
    ∃ t : Fin cfg8.N, (cfg8.win 4).flush t = true ∧ i ∈ ((cfg8.win 4).blk t).view.set := by
  have hi0 : (i 0).val < 50000 := (i 0).isLt
  have hi1 : (i 1).val < 128 := (i 1).isLt
  have hN : (i 0).val / 5000 < grid8.N := by rw [N_8]; omega
  obtain ⟨e0, e1, e2, e3, e4, e5, e6, e7, e8⟩ := fin8_idx ⟨(i 0).val / 5000, hN⟩
  have e7' : win8_4.index ⟨(i 0).val / 5000, hN⟩ (0 : Fin 2) = (i 0).val / 5000 := e7
  refine ⟨⟨(i 0).val / 5000, hN⟩, flush8_4 _, ?_⟩
  rw [fin8_mem]
  intro a
  match a with
  | ⟨0, _⟩ =>
    show win8_4.index ⟨(i 0).val / 5000, hN⟩ (0 : Fin 2) * 5000 ≤ (i 0).val
      ∧ (i 0).val < win8_4.index ⟨(i 0).val / 5000, hN⟩ (0 : Fin 2) * 5000 + 5000
    omega
  | ⟨1, _⟩ =>
    show win8_4.index ⟨(i 0).val / 5000, hN⟩ (1 : Fin 2) * 128 ≤ (i 1).val
      ∧ (i 1).val < win8_4.index ⟨(i 0).val / 5000, hN⟩ (1 : Fin 2) * 128 + 128
    omega

/-- After the region the result array holds the aggregate, plus the node's features over its degree, plus the bias. -/
theorem arr8 (c : Dev nD) : (dat8 (F := Ideal) V c).arrAt 4 cfg8.N = Cert.Spec.finish (V c main_v68) (V c main_v57) (V c main_v14) (V c main_arg8) :=
  (dat8 V c).arrAt_eq_of_cover 4 _ (fun t _ => fin8_flushed V c t) fin8_cover

end Cert.KernelIdeal.RegV

end
-- ==== Proof.RegMatmul3.lean ====
/-
  Region 3: the second dense product, of the exponential linear unit of the first layer's result.

  The grid has 10 points. Point `t` holds rows `5000·t … 5000·t + 4999` of the first layer's result (a block of
  5000 × 128) and the whole 128 × 128 weight matrix. The body applies the unit `s ↦ s` for `s > 0`, `e^s − 1` otherwise,
  to every entry of the block, and stores the product of the outcome with the matrix into its block of the output. At the
  ideal values the narrowing of the operands is the identity and the product into the zero accumulator is
  `Σ_k elu (x (p, k)) · W (k, q)`; entry `(p, q)` of block `t` is entry `(5000·t + p, q)` of the array, where the network's
  dense product of the unit of the array is the same sum, the network's spelling of the unit agreeing with the body's at
  every extended real. Row `r` of the array lies in the block of point `r / 5000`, so the ten blocks cover the array and
  it ends holding that dense product.
-/
import proofs.«401817_j18751827214892_1_alg».proof.Proof.Gen.KernelIdeal.Frame
import proofs.«401817_j18751827214892_1_alg».proof.Proof.Spec
import proofs.«401817_j18751827214892_1_alg».proof.Proof.LibRowDims
import proofs.«401817_j18751827214892_1_alg».proof.Proof.MatmulLaws
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.RegV.Matmul3

open Cert.KernelIdeal Cert.KernelIdeal.Gen
open Idealize.ShloMosaic Idealize.ShloMosaic.TcCoe Idealize.SL.Sem
open Idealize.ShloMosaic.Pipeline (Dat Cfg Window)
open Idealize.ShloMosaic.ValueIdx Idealize.ShloMosaic.RowDims
open Cert.MatmulLaws (eluAt)

theorem origin : (![0, 0] : Fin 2 → Nat) = fun _ => 0 := funext fun a => by fin_cases a <;> rfl

/-- The printed index maps over the grid: the two row-block windows sit at block `t`, the matrix window at block `0`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's contraction record of `[5000, 128] × [128, 128]` is the plain one at these sizes. -/
theorem dot_body_eq : dot_S5000x128_S128x128_S5000x128_1_0_0_1_n_n = DotDims.plain 5000 128 128 := rfl

/-- The body's payload at the entry `(p, q)`: the unit of row `p` of the block against column `q` of the matrix. -/
theorem pay_apply (x0 : Vec Ideal S5000x128 .f32) (x1 : Vec Ideal S128x128 .f32) (p : Fin 5000) (q : Fin 128) :
    k3_pay1 x0 x1 (ix2 p q) = ∑ k : Fin 128, eluAt (x0 (ix2 p k)) * x1 (ix2 k q) := by
  unfold k3_pay1
  simp only [shapeCast_self]
  rw [dot_body_eq]
  exact matmul_plain_zero_apply none _ _ p q

variable (V : (c : Dev nD) → (b : Ref sig .tc) → Buf (Elt Ideal) ((c : Thread nD τ).loc b))

/-- What point `t` writes back is block `t` of the dense product of the unit of the layer's result. -/
theorem flushed_eq (c : Dev nD) (t : Fin cfg3.N) :
    (dat3 (F := Ideal) V c).flushed 2 t
      = ((cfg3.win 2).blk t).view.read (Elt Ideal)
          (Cert.Spec.dense (Cert.Spec.elu (V c main_v43)) (V c main_arg5)) := by
  show (cfg3.win 2).cut (grid3.coords t) ((dat3 (F := Ideal) V c).after 2 t) = _
  rw [after3_2]
  unfold out3_2
  rw [View.canon_unit_zero origin]
  simp only [View.ld_unit_zero (S := S5000x128) origin, View.ld_unit_zero (S := S128x128) origin]
  obtain ⟨e0, e1, e2, e3, e4, e5⟩ := idx_facts t
  funext j
  obtain ⟨p, q, rfl⟩ : ∃ (p : Fin 5000) (q : Fin 128), j = ix2 p q := ⟨j 0, j 1, eq_ix2 j⟩
  have hp : p.val < 5000 := p.isLt
  have ht : t.val < 10 := t.isLt
  show k3_pay1 (iblk3 V c 0 t) (iblk3 V c 1 t) (ix2 p q)
    = Cert.Spec.dense (Cert.Spec.elu (V c main_v43)) (V c main_arg5) (((cfg3.win 2).blk t).view.emb (ix2 p q))
  -- entry (p, q) of the output's block is entry (5000·t + p, q) of the array
  have hemb : ((cfg3.win 2).blk t).view.emb (ix2 p q) = ix2 (⟨5000 * t.val + p.val, by omega⟩ : Fin 50000) q := by
    funext a; apply Fin.ext
    match a with
    | ⟨0, _⟩ => show win3_2.index t (0 : Fin 2) * 5000 + 1 * p.val = 5000 * t.val + p.val; omega
    | ⟨1, _⟩ => show win3_2.index t (1 : Fin 2) * 128 + 1 * q.val = q.val; omega
  rw [hemb, pay_apply, Cert.MatmulLaws.dense_apply]
  refine Finset.sum_congr rfl fun k _ => ?_
  rw [Cert.MatmulLaws.elu_apply]
  -- entry (p, k) of the layer's block is entry (5000·t + p, k) of the layer's result
  have h0 : iblk3 V c 0 t (ix2 p k) = V c main_v43 (ix2 (⟨5000 * t.val + p.val, by omega⟩ : Fin 50000) k) := by
    show V c main_v43 (((cfg3.win 0).blk t).view.emb (ix2 p k)) = _
    congr 1
    funext a; apply Fin.ext
    match a with
    | ⟨0, _⟩ => show win3_0.index t (0 : Fin 2) * 5000 + 1 * p.val = 5000 * t.val + p.val; omega
    | ⟨1, _⟩ => show win3_0.index t (1 : Fin 2) * 128 + 1 * k.val = k.val; omega
  -- the matrix's block is the whole matrix
  have h1 : iblk3 V c 1 t (ix2 k q) = V c main_arg5 (ix2 k q) := by
    show V c main_arg5 (((cfg3.win 1).blk t).view.emb (ix2 k q)) = _
    congr 1
    funext a; apply Fin.ext
    match a with
    | ⟨0, _⟩ => show win3_1.index t (0 : Fin 2) * 128 + 1 * k.val = k.val; omega
    | ⟨1, _⟩ => show win3_1.index t (1 : Fin 2) * 128 + 1 * q.val = q.val; omega
  rw [h0, h1]

/-- An index of the array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v44).slice (win3_2.rect t)).set ↔ _
  rw [View.set_slice_whole, Rect.mem_set_unit]
  exact Iff.rfl

/-- Every entry of the array lies in the block of the point its row names: row `r` in that of point `r / 5000`. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  refine ⟨⟨(i 0).val / 5000, by show _ < 10; omega⟩, flush3_2 _, ?_⟩
  rw [mem_blk]
  obtain ⟨e0, e1, e2, e3, e4, e5⟩ := idx_facts ⟨(i 0).val / 5000, by show _ < 10; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ _ ∧ _ < (i 0).val / 5000 * 5000 + 5000; omega
  | ⟨1, _⟩ => show win3_2.index _ (1 : Fin 2) * 128 ≤ (i 1).val ∧ (i 1).val < win3_2.index _ (1 : Fin 2) * 128 + 128; rw [e5]; omega

end Cert.KernelIdeal.RegV.Matmul3

namespace Cert.KernelIdeal.RegV

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- Region 3 leaves the dense product of the unit of the first layer's result with the second weight matrix. -/
theorem arr3 (c : Dev nD) : (dat3 (F := Ideal) V c).arrAt 2 cfg3.N = Cert.Spec.dense (Cert.Spec.elu (V c main_v43)) (V c main_arg5) :=
  (dat3 (F := Ideal) V c).arrAt_eq_of_cover 2 _ (fun t _ => Matmul3.flushed_eq V c t) Matmul3.cover

end Cert.KernelIdeal.RegV

end
-- ==== Proof.RegScale4.lean ====
import proofs.«401817_j18751827214892_1_alg».proof.Proof.Gen.KernelIdeal.Frame
import proofs.«401817_j18751827214892_1_alg».proof.Proof.Spec
import Idealize.ShloMosaic.PureOps.Ideal
import Idealize.ShloMosaic.PureOps.Ideal.Laws
import Idealize.ShloMosaic.Lib.ValueIdx
import Idealize.ShloMosaic.Lib.Pipeline.Value

/-!
  Edge scaling, read entry by entry.

  The region multiplies every edge row by that edge's weight: `out (e, f) = hs (e, f) · coef (e, 0)`. The 1600000 edge
  rows are cut into 160 blocks of 10000 rows; grid point `t` reads block `t` of the rows and of the weight column and
  writes block `t` of the result. Row `p` of block `t` is row `t · 10000 + p` of the array, so the block a point writes
  back is that block of the array `scaleRows hs coef`, and the 160 blocks cover every row (row `r` lies in block
  `r / 10000`).
-/

set_option maxRecDepth 16384

noncomputable section

namespace Cert.KernelIdeal.RegV

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- The block's product at row `p`, column `q`: the row's entry times the row's one weight. -/
theorem scale4_pay (x0 : Vec Ideal S10000x128 .f32) (x1 : Vec Ideal S10000x1 .f32) (p : Fin 10000) (q : Fin 128) :
    k4_pay1 x0 x1 (ix2 p q) = x0 (ix2 p q) * x1 (ix2 p (0 : Fin 1)) := by
  unfold k4_pay1
  rw [mulf_apply, shapeCast_self, shapeCast_self]
  rw [broadcastTo_apply x1 broadcasts_S10000x1_S10000x128 (ix2 p q) (ix2 p (0 : Fin 1))]
  intro a
  match a with
  | ⟨0, _⟩ => rfl
  | ⟨1, _⟩ => rfl

/-- The whole array's product at row `r`, column `q`: the same expression of the same entries. -/
theorem scale4_spec (hs : (⟨Cert.ReferenceIdeal.S1600000x128, .f32⟩ : BufTy).Contents (Elt Ideal))
    (cc : (⟨Cert.ReferenceIdeal.S1600000x1, .f32⟩ : BufTy).Contents (Elt Ideal)) (r : Fin 1600000) (q : Fin 128) :
    Cert.Spec.scaleRows hs cc (ix2 r q) = hs (ix2 r q) * cc (ix2 r (0 : Fin 1)) := by
  unfold Cert.Spec.scaleRows
  rw [mulf_apply]
  rw [broadcastInDim_apply _ _ cc (ix2 r q) (ix2 r (0 : Fin 1))]
  intro a
  match a with
  | ⟨0, _⟩ => rfl
  | ⟨1, _⟩ => rfl

theorem scale4_hz : (![0, 0] : Fin 2 → Nat) = fun _ => 0 := funext fun a => by fin_cases a <;> rfl

/-- At point `t` every window's block index is `t` on the row axis and `0` on the column axis. -/
theorem scale4_idx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Row `p` of block `t` is a row of the array. -/
theorem scale4_rows (t : Fin cfg4.N) (p : Fin 10000) : t.val * 10000 + p.val < 1600000 := by
  have h1 : t.val < 160 := t.isLt
  have h2 := p.isLt
  omega

variable (V : (c : Dev nD) → (b : Ref sig .tc) → Buf (Elt Ideal) ((c : Thread nD τ).loc b))

/-- Where entry `(p, q)` of the rows' block at `t` sits in the array: row `t · 10000 + p`, column `q`. -/
theorem scale4_emb0 (t : Fin cfg4.N) (p : Fin 10000) (q : Fin 128) :
    ((cfg4.win 0).blk t).view.emb (ix2 p q) = ix2 (⟨t.val * 10000 + p.val, scale4_rows t p⟩ : Fin 1600000) q := by
  obtain ⟨e0, e1, e2, e3, e4, e5⟩ := scale4_idx t
  funext a; apply Fin.ext
  match a with
  | ⟨0, _⟩ => show win4_0.index t (0 : Fin 2) * 10000 + 1 * p.val = t.val * 10000 + p.val; omega
  | ⟨1, _⟩ => show win4_0.index t (1 : Fin 2) * 128 + 1 * q.val = q.val; omega

/-- The same for the weight column's block. -/
theorem scale4_emb1 (t : Fin cfg4.N) (p : Fin 10000) (q : Fin 1) :
    ((cfg4.win 1).blk t).view.emb (ix2 p q) = ix2 (⟨t.val * 10000 + p.val, scale4_rows t p⟩ : Fin 1600000) q := by
  obtain ⟨e0, e1, e2, e3, e4, e5⟩ := scale4_idx t
  funext a; apply Fin.ext
  match a with
  | ⟨0, _⟩ => show win4_1.index t (0 : Fin 2) * 10000 + 1 * p.val = t.val * 10000 + p.val; omega
  | ⟨1, _⟩ => show win4_1.index t (1 : Fin 2) * 1 + 1 * q.val = q.val; omega

/-- The same for the result's block. -/
theorem scale4_emb2 (t : Fin cfg4.N) (p : Fin 10000) (q : Fin 128) :
    ((cfg4.win 2).blk t).view.emb (ix2 p q) = ix2 (⟨t.val * 10000 + p.val, scale4_rows t p⟩ : Fin 1600000) q := by
  obtain ⟨e0, e1, e2, e3, e4, e5⟩ := scale4_idx t
  funext a; apply Fin.ext
  match a with
  | ⟨0, _⟩ => show win4_2.index t (0 : Fin 2) * 10000 + 1 * p.val = t.val * 10000 + p.val; omega
  | ⟨1, _⟩ => show win4_2.index t (1 : Fin 2) * 128 + 1 * q.val = q.val; omega

/-- Entry `(p, q)` of the rows' block at `t` is the array's entry at row `t · 10000 + p`. -/
theorem scale4_blk0 (c : Dev nD) (t : Fin cfg4.N) (p : Fin 10000) (q : Fin 128) :
    (iblk4 V c 0 t (ix2 p q) : Elt Ideal .f32) = V c main_v51 (ix2 (⟨t.val * 10000 + p.val, scale4_rows t p⟩ : Fin 1600000) q) := by
  show V c main_v51 (((cfg4.win 0).blk t).view.emb (ix2 p q)) = _
  rw [scale4_emb0]

/-- Entry `(p, 0)` of the weights' block at `t` is the weight of edge `t · 10000 + p`. -/
theorem scale4_blk1 (c : Dev nD) (t : Fin cfg4.N) (p : Fin 10000) (q : Fin 1) :
    (iblk4 V c 1 t (ix2 p q) : Elt Ideal .f32) = V c main_v30 (ix2 (⟨t.val * 10000 + p.val, scale4_rows t p⟩ : Fin 1600000) q) := by
  show V c main_v30 (((cfg4.win 1).blk t).view.emb (ix2 p q)) = _
  rw [scale4_emb1]

/-- What point `t` writes back is block `t` of the scaled rows. -/
theorem scale4_flushed (c : Dev nD) (t : Fin cfg4.N) :
    (dat4 (F := Ideal) V c).flushed 2 t
      = ((cfg4.win 2).blk t).view.read (Elt Ideal) (Cert.Spec.scaleRows (V c main_v51) (V c main_v30)) := by
  show (cfg4.win 2).cut (grid4.coords t) ((dat4 V c).after 2 t) = _
  rw [after4_2]
  unfold out4_2
  rw [View.canon_unit_zero scale4_hz]
  simp only [View.ld_unit_zero (S := S10000x128) scale4_hz, View.ld_unit_zero (S := S10000x1) scale4_hz]
  funext j
  obtain ⟨p, q, rfl⟩ : ∃ (p : Fin 10000) (q : Fin 128), j = ix2 p q := ⟨j 0, j 1, eq_ix2 j⟩
  show k4_pay1 (iblk4 V c 0 t) (iblk4 V c 1 t) (ix2 p q)
    = Cert.Spec.scaleRows (V c main_v51) (V c main_v30) (((cfg4.win 2).blk t).view.emb (ix2 p q))
  rw [scale4_pay, scale4_emb2, scale4_spec, scale4_blk0, scale4_blk1]

/-- An index of the array is in point `t`'s block iff each coordinate is in the block's range on its axis. -/
theorem scale4_mem (t : Fin cfg4.N) (i : S1600000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole main_v52).slice (win4_2.rect t)).set ↔ _
  rw [View.set_slice_whole, Rect.mem_set_unit]
  exact Iff.rfl

/-- Every index of the array is in the block of the point `row / 10000`. -/
theorem scale4_cover (i : S1600000x128.Idx) :
    ∃ t : Fin cfg4.N, (cfg4.win 2).flush t = true ∧ i ∈ ((cfg4.win 2).blk t).view.set := by
  have hi0 : (i 0).val < 1600000 := (i 0).isLt
  have hi1 : (i 1).val < 128 := (i 1).isLt
  have hN : (i 0).val / 10000 < grid4.N := by rw [N_4]; omega
  obtain ⟨e0, e1, e2, e3, e4, e5⟩ := scale4_idx ⟨(i 0).val / 10000, hN⟩
  have e4' : win4_2.index ⟨(i 0).val / 10000, hN⟩ (0 : Fin 2) = (i 0).val / 10000 := e4
  refine ⟨⟨(i 0).val / 10000, hN⟩, flush4_2 _, ?_⟩
  rw [scale4_mem]
  intro a
  match a with
  | ⟨0, _⟩ =>
    show win4_2.index ⟨(i 0).val / 10000, hN⟩ (0 : Fin 2) * 10000 ≤ (i 0).val
      ∧ (i 0).val < win4_2.index ⟨(i 0).val / 10000, hN⟩ (0 : Fin 2) * 10000 + 10000
    omega
  | ⟨1, _⟩ =>
    show win4_2.index ⟨(i 0).val / 10000, hN⟩ (1 : Fin 2) * 128 ≤ (i 1).val
      ∧ (i 1).val < win4_2.index ⟨(i 0).val / 10000, hN⟩ (1 : Fin 2) * 128 + 128
    omega

/-- After the region the result array holds every edge row times the edge's weight. -/
theorem arr4 (c : Dev nD) : (dat4 (F := Ideal) V c).arrAt 2 cfg4.N = Cert.Spec.scaleRows (V c main_v51) (V c main_v30) :=
  (dat4 V c).arrAt_eq_of_cover 2 _ (fun t _ => scale4_flushed V c t) scale4_cover

end Cert.KernelIdeal.RegV

end
-- ==== Proof.RegFin5.lean ====
import proofs.«401817_j18751827214892_1_alg».proof.Proof.Gen.KernelIdeal.Frame
import proofs.«401817_j18751827214892_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

/-!
  The layer's last step, read entry by entry.

  The region adds, to the aggregate, the node's own features over its degree and the bias:
  `out (v, f) = (ea (v, f) + h (v, f) · di (v, 0)) + b (f)`. The 50000 node rows are cut into 10 blocks of 5000 rows; grid
  point `t` reads block `t` of the aggregate, of the features and of the inverse-degree column, the whole bias, and
  writes block `t` of the result. Row `p` of block `t` is row `t · 5000 + p` of the array, so the block a point writes back
  is that block of the array `finish ea h di b`, and the 10 blocks cover every row (row `r` lies in block `r / 5000`).
-/

set_option maxRecDepth 16384

noncomputable section

namespace Cert.KernelIdeal.RegV

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- The block's sum at row `p`, column `q`: the aggregate's entry, plus the features' entry times the row's one inverse
    degree, plus the bias of the column. -/
theorem fin5_pay (x0 x1 : Vec Ideal S5000x128 .f32) (x2 : Vec Ideal S5000x1 .f32) (x3 : Vec Ideal S128 .f32) (p : Fin 5000) (q : Fin 128) :
    k5_pay1 x0 x1 x2 x3 (ix2 p q) = (x0 (ix2 p q) + x1 (ix2 p q) * x2 (ix2 p (0 : Fin 1))) + x3 (ix1 q) := by
  unfold k5_pay1
  rw [addf_apply, addf_apply, mulf_apply, shapeCast_self, shapeCast_self, shapeCast_self]
  rw [broadcastTo_apply x2 broadcasts_S5000x1_S5000x128 (ix2 p q) (ix2 p (0 : Fin 1)) (fun a => by
    match a with
    | ⟨0, _⟩ => rfl
    | ⟨1, _⟩ => rfl)]
  rw [broadcastTo_1b_ab_apply, shapeCast_a_1a_apply]

/-- The whole array's sum at row `r`, column `q`: the same expression of the same entries. -/
theorem fin5_spec (ea h : (⟨Cert.ReferenceIdeal.S50000x128, .f32⟩ : BufTy).Contents (Elt Ideal))
    (dc : (⟨Cert.ReferenceIdeal.S50000x1, .f32⟩ : BufTy).Contents (Elt Ideal))
    (b : (⟨Cert.ReferenceIdeal.S128, .f32⟩ : BufTy).Contents (Elt Ideal)) (r : Fin 50000) (q : Fin 128) :
    Cert.Spec.finish ea h dc b (ix2 r q) = (ea (ix2 r q) + h (ix2 r q) * dc (ix2 r (0 : Fin 1))) + b (ix1 q) := by
  unfold Cert.Spec.finish
  rw [addf_apply, addf_apply, mulf_apply]
  rw [broadcastInDim_apply _ _ dc (ix2 r q) (ix2 r (0 : Fin 1)) (fun a => by
    match a with
    | ⟨0, _⟩ => rfl
    | ⟨1, _⟩ => rfl)]
  rw [broadcastInDim_apply _ _ (broadcastInDim _ _ _ b) (ix2 r q) (ix2 (0 : Fin 1) q) (fun a => by
    match a with
    | ⟨0, _⟩ => rfl
    | ⟨1, _⟩ => rfl)]
  rw [broadcastInDim_apply _ _ b (ix2 (0 : Fin 1) q) (ix1 q) (fun a => by
    match a with
    | ⟨0, _⟩ => rfl)]

theorem fin5_hz : (![0, 0] : Fin 2 → Nat) = fun _ => 0 := funext fun a => by fin_cases a <;> rfl

theorem fin5_hz1 : (![0] : Fin 1 → Nat) = fun _ => 0 := funext fun a => by fin_cases a; rfl

/-- At point `t` the four row-blocked windows have block index `t` on the row axis and `0` on the column axis; the
    bias window's block index is `0`. -/
theorem fin5_idx : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- Row `p` of block `t` is a row of the array. -/
theorem fin5_rows (t : Fin cfg5.N) (p : Fin 5000) : t.val * 5000 + p.val < 50000 := by
  have h1 : t.val < 10 := t.isLt
  have h2 := p.isLt
  omega

variable (V : (c : Dev nD) → (b : Ref sig .tc) → Buf (Elt Ideal) ((c : Thread nD τ).loc b))

/-- Where entry `(p, q)` of the aggregate's block at `t` sits in the array: row `t · 5000 + p`, column `q`. -/
theorem fin5_emb0 (t : Fin cfg5.N) (p : Fin 5000) (q : Fin 128) :
    ((cfg5.win 0).blk t).view.emb (ix2 p q) = ix2 (⟨t.val * 5000 + p.val, fin5_rows t p⟩ : Fin 50000) q := by
  obtain ⟨e0, e1, e2, e3, e4, e5, e6, e7, e8⟩ := fin5_idx t
  funext a; apply Fin.ext
  match a with
  | ⟨0, _⟩ => show win5_0.index t (0 : Fin 2) * 5000 + 1 * p.val = t.val * 5000 + p.val; omega
  | ⟨1, _⟩ => show win5_0.index t (1 : Fin 2) * 128 + 1 * q.val = q.val; omega

/-- The same for the node features' block. -/
theorem fin5_emb1 (t : Fin cfg5.N) (p : Fin 5000) (q : Fin 128) :
    ((cfg5.win 1).blk t).view.emb (ix2 p q) = ix2 (⟨t.val * 5000 + p.val, fin5_rows t p⟩ : Fin 50000) q := by
  obtain ⟨e0, e1, e2, e3, e4, e5, e6, e7, e8⟩ := fin5_idx t
  funext a; apply Fin.ext
  match a with
  | ⟨0, _⟩ => show win5_1.index t (0 : Fin 2) * 5000 + 1 * p.val = t.val * 5000 + p.val; omega
  | ⟨1, _⟩ => show win5_1.index t (1 : Fin 2) * 128 + 1 * q.val = q.val; omega

/-- The same for the inverse-degree column's block. -/
theorem fin5_emb2 (t : Fin cfg5.N) (p : Fin 5000) (q : Fin 1) :
    ((cfg5.win 2).blk t).view.emb (ix2 p q) = ix2 (⟨t.val * 5000 + p.val, fin5_rows t p⟩ : Fin 50000) q := by
  obtain ⟨e0, e1, e2, e3, e4, e5, e6, e7, e8⟩ := fin5_idx t
  funext a; apply Fin.ext
  match a with
  | ⟨0, _⟩ => show win5_2.index t (0 : Fin 2) * 5000 + 1 * p.val = t.val * 5000 + p.val; omega
  | ⟨1, _⟩ => show win5_2.index t (1 : Fin 2) * 1 + 1 * q.val = q.val; omega

/-- The bias window's block is the whole bias at every point. -/
theorem fin5_emb3 (t : Fin cfg5.N) (q : Fin 128) :
    ((cfg5.win 3).blk t).view.emb (ix1 q) = ix1 q := by
  obtain ⟨e0, e1, e2, e3, e4, e5, e6, e7, e8⟩ := fin5_idx t
  funext a; apply Fin.ext
  match a with
  | ⟨0, _⟩ => show win5_3.index t (0 : Fin 1) * 128 + 1 * q.val = q.val; omega

/-- The same as the first for the result's block. -/
theorem fin5_emb4 (t : Fin cfg5.N) (p : Fin 5000) (q : Fin 128) :
    ((cfg5.win 4).blk t).view.emb (ix2 p q) = ix2 (⟨t.val * 5000 + p.val, fin5_rows t p⟩ : Fin 50000) q := by
  obtain ⟨e0, e1, e2, e3, e4, e5, e6, e7, e8⟩ := fin5_idx t
  funext a; apply Fin.ext
  match a with
  | ⟨0, _⟩ => show win5_4.index t (0 : Fin 2) * 5000 + 1 * p.val = t.val * 5000 + p.val; omega
  | ⟨1, _⟩ => show win5_4.index t (1 : Fin 2) * 128 + 1 * q.val = q.val; omega

/-- Entry `(p, q)` of the aggregate's block at `t` is the array's entry at row `t · 5000 + p`. -/
theorem fin5_blk0 (c : Dev nD) (t : Fin cfg5.N) (p : Fin 5000) (q : Fin 128) :
    (iblk5 V c 0 t (ix2 p q) : Elt Ideal .f32) = V c main_v55 (ix2 (⟨t.val * 5000 + p.val, fin5_rows t p⟩ : Fin 50000) q) := by
  show V c main_v55 (((cfg5.win 0).blk t).view.emb (ix2 p q)) = _
  rw [fin5_emb0]

/-- The same for the node features. -/
theorem fin5_blk1 (c : Dev nD) (t : Fin cfg5.N) (p : Fin 5000) (q : Fin 128) :
    (iblk5 V c 1 t (ix2 p q) : Elt Ideal .f32) = V c main_v44 (ix2 (⟨t.val * 5000 + p.val, fin5_rows t p⟩ : Fin 50000) q) := by
  show V c main_v44 (((cfg5.win 1).blk t).view.emb (ix2 p q)) = _
  rw [fin5_emb1]

/-- Entry `(p, 0)` of the inverse-degree block at `t` is the inverse degree of node `t · 5000 + p`. -/
theorem fin5_blk2 (c : Dev nD) (t : Fin cfg5.N) (p : Fin 5000) (q : Fin 1) :
    (iblk5 V c 2 t (ix2 p q) : Elt Ideal .f32) = V c main_v14 (ix2 (⟨t.val * 5000 + p.val, fin5_rows t p⟩ : Fin 50000) q) := by
  show V c main_v14 (((cfg5.win 2).blk t).view.emb (ix2 p q)) = _
  rw [fin5_emb2]

/-- Entry `q` of the bias block is the bias at `q`. -/
theorem fin5_blk3 (c : Dev nD) (t : Fin cfg5.N) (q : Fin 128) :
    (iblk5 V c 3 t (ix1 q) : Elt Ideal .f32) = V c main_arg6 (ix1 q) := by
  show V c main_arg6 (((cfg5.win 3).blk t).view.emb (ix1 q)) = _
  rw [fin5_emb3]

/-- What point `t` writes back is block `t` of the finished layer. -/
theorem fin5_flushed (c : Dev nD) (t : Fin cfg5.N) :
    (dat5 (F := Ideal) V c).flushed 4 t
      = ((cfg5.win 4).blk t).view.read (Elt Ideal) (Cert.Spec.finish (V c main_v55) (V c main_v44) (V c main_v14) (V c main_arg6)) := by
  show (cfg5.win 4).cut (grid5.coords t) ((dat5 V c).after 4 t) = _
  rw [after5_4]
  unfold out5_4
  rw [View.canon_unit_zero fin5_hz]
  simp only [View.ld_unit_zero (S := S5000x128) fin5_hz, View.ld_unit_zero (S := S5000x1) fin5_hz, View.ld_unit_zero (S := S128) fin5_hz1]
  funext j
  obtain ⟨p, q, rfl⟩ : ∃ (p : Fin 5000) (q : Fin 128), j = ix2 p q := ⟨j 0, j 1, eq_ix2 j⟩
  show k5_pay1 (iblk5 V c 0 t) (iblk5 V c 1 t) (iblk5 V c 2 t) (iblk5 V c 3 t) (ix2 p q)
    = Cert.Spec.finish (V c main_v55) (V c main_v44) (V c main_v14) (V c main_arg6) (((cfg5.win 4).blk t).view.emb (ix2 p q))
  rw [fin5_pay, fin5_emb4, fin5_spec, fin5_blk0, fin5_blk1, fin5_blk2, fin5_blk3]

/-- An index of the array is in point `t`'s block iff each coordinate is in the block's range on its axis. -/
theorem fin5_mem (t : Fin cfg5.N) (i : S50000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v56).slice (win5_4.rect t)).set ↔ _
  rw [View.set_slice_whole, Rect.mem_set_unit]
  exact Iff.rfl

/-- Every index of the array is in the block of the point `row / 5000`. -/
theorem fin5_cover (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  have hN : (i 0).val / 5000 < grid5.N := by rw [N_5]; omega
  obtain ⟨e0, e1, e2, e3, e4, e5, e6, e7, e8⟩ := fin5_idx ⟨(i 0).val / 5000, hN⟩
  have e7' : win5_4.index ⟨(i 0).val / 5000, hN⟩ (0 : Fin 2) = (i 0).val / 5000 := e7
  refine ⟨⟨(i 0).val / 5000, hN⟩, flush5_4 _, ?_⟩
  rw [fin5_mem]
  intro a
  match a with
  | ⟨0, _⟩ =>
    show win5_4.index ⟨(i 0).val / 5000, hN⟩ (0 : Fin 2) * 5000 ≤ (i 0).val
      ∧ (i 0).val < win5_4.index ⟨(i 0).val / 5000, hN⟩ (0 : Fin 2) * 5000 + 5000
    omega
  | ⟨1, _⟩ =>
    show win5_4.index ⟨(i 0).val / 5000, hN⟩ (1 : Fin 2) * 128 ≤ (i 1).val
      ∧ (i 1).val < win5_4.index ⟨(i 0).val / 5000, hN⟩ (1 : Fin 2) * 128 + 128
    omega

/-- After the region the result array holds the aggregate, plus the node's features over its degree, plus the bias. -/
theorem arr5 (c : Dev nD) : (dat5 (F := Ideal) V c).arrAt 4 cfg5.N = Cert.Spec.finish (V c main_v55) (V c main_v44) (V c main_v14) (V c main_arg6) :=
  (dat5 V c).arrAt_eq_of_cover 4 _ (fun t _ => fin5_flushed V c t) fin5_cover

end Cert.KernelIdeal.RegV

end
-- ==== Proof.RegMatmul0.lean ====
/-
  Region 0: the first dense product.

  The grid has 10 points. Point `t` holds rows `5000·t … 5000·t + 4999` of the node features (a block of
  5000 × 128) and the whole 128 × 128 weight matrix, and stores their product into its block of the output. At the
  ideal values the narrowing of the operands is the identity and the product into the zero accumulator is
  `Σ_k x (p, k) · W (k, q)`; entry `(p, q)` of block `t` is entry `(5000·t + p, q)` of the array, where the network's
  dense product is the same sum. Row `r` of the array lies in the block of point `r / 5000`, so the ten blocks cover the
  array and it ends holding the dense product.
-/
import proofs.«401817_j18751827214892_1_alg».proof.Proof.Gen.KernelIdeal.Frame
import proofs.«401817_j18751827214892_1_alg».proof.Proof.Spec
import proofs.«401817_j18751827214892_1_alg».proof.Proof.LibRowDims
import proofs.«401817_j18751827214892_1_alg».proof.Proof.MatmulLaws
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.RegV.Matmul0

open Cert.KernelIdeal Cert.KernelIdeal.Gen
open Idealize.ShloMosaic Idealize.ShloMosaic.TcCoe Idealize.SL.Sem
open Idealize.ShloMosaic.Pipeline (Dat Cfg Window)
open Idealize.ShloMosaic.ValueIdx Idealize.ShloMosaic.RowDims

theorem origin : (![0, 0] : Fin 2 → Nat) = fun _ => 0 := funext fun a => by fin_cases a <;> rfl

/-- The printed index maps over the grid: the two row-block windows sit at block `t`, the matrix window at block `0`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's contraction record of `[5000, 128] × [128, 128]` is the plain one at these sizes. -/
theorem dot_body_eq : dot_S5000x128_S128x128_S5000x128_1_0_0_1_n_n = DotDims.plain 5000 128 128 := rfl

/-- The body's payload at the entry `(p, q)`: row `p` of the block against column `q` of the matrix. -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  rw [dot_body_eq]
  exact matmul_plain_zero_apply none _ _ p q

variable (V : (c : Dev nD) → (b : Ref sig .tc) → Buf (Elt Ideal) ((c : Thread nD τ).loc b))

/-- What point `t` writes back is block `t` of the dense product. -/
theorem flushed_eq (c : Dev nD) (t : Fin cfg0.N) :
    (dat0 (F := Ideal) V c).flushed 2 t
      = ((cfg0.win 2).blk t).view.read (Elt Ideal) (Cert.Spec.dense (V c main_arg0) (V c main_arg3)) := by
  show (cfg0.win 2).cut (grid0.coords t) ((dat0 (F := Ideal) V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := idx_facts t
  funext j
  obtain ⟨p, q, rfl⟩ : ∃ (p : Fin 5000) (q : Fin 128), j = ix2 p q := ⟨j 0, j 1, eq_ix2 j⟩
  have hp : p.val < 5000 := p.isLt
  have ht : t.val < 10 := t.isLt
  show k0_pay1 (iblk0 V c 0 t) (iblk0 V c 1 t) (ix2 p q)
    = Cert.Spec.dense (V c main_arg0) (V c main_arg3) (((cfg0.win 2).blk t).view.emb (ix2 p q))
  -- entry (p, q) of the output's block is entry (5000·t + p, q) of the array
  have hemb : ((cfg0.win 2).blk t).view.emb (ix2 p q) = ix2 (⟨5000 * t.val + p.val, by omega⟩ : Fin 50000) q := by
    funext a; apply Fin.ext
    match a with
    | ⟨0, _⟩ => show win0_2.index t (0 : Fin 2) * 5000 + 1 * p.val = 5000 * t.val + p.val; omega
    | ⟨1, _⟩ => show win0_2.index t (1 : Fin 2) * 128 + 1 * q.val = q.val; omega
  rw [hemb, pay_apply, Cert.MatmulLaws.dense_apply]
  refine Finset.sum_congr rfl fun k _ => ?_
  -- entry (p, k) of the features' block is entry (5000·t + p, k) of the features
  have h0 : iblk0 V c 0 t (ix2 p k) = V c main_arg0 (ix2 (⟨5000 * t.val + p.val, by omega⟩ : Fin 50000) k) := by
    show V c main_arg0 (((cfg0.win 0).blk t).view.emb (ix2 p k)) = _
    congr 1
    funext a; apply Fin.ext
    match a with
    | ⟨0, _⟩ => show win0_0.index t (0 : Fin 2) * 5000 + 1 * p.val = 5000 * t.val + p.val; omega
    | ⟨1, _⟩ => show win0_0.index t (1 : Fin 2) * 128 + 1 * k.val = k.val; omega
  -- the matrix's block is the whole matrix
  have h1 : iblk0 V c 1 t (ix2 k q) = V c main_arg3 (ix2 k q) := by
    show V c main_arg3 (((cfg0.win 1).blk t).view.emb (ix2 k q)) = _
    congr 1
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [h0, h1]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every entry of the array lies in the block of the point its row names: row `r` in that of point `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 5000, by show _ < 10; omega⟩, flush0_2 _, ?_⟩
  rw [mem_blk]
  obtain ⟨e0, e1, e2, e3, e4, e5⟩ := idx_facts ⟨(i 0).val / 5000, by show _ < 10; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
  | ⟨1, _⟩ => show win0_2.index _ (1 : Fin 2) * 128 ≤ (i 1).val ∧ (i 1).val < win0_2.index _ (1 : Fin 2) * 128 + 128; rw [e5]; omega

end Cert.KernelIdeal.RegV.Matmul0

namespace Cert.KernelIdeal.RegV

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- Region 0 leaves the dense product of the node features with the first weight matrix. -/
theorem arr0 (c : Dev nD) : (dat0 (F := Ideal) V c).arrAt 2 cfg0.N = Cert.Spec.dense (V c main_arg0) (V c main_arg3) :=
  (dat0 (F := Ideal) V c).arrAt_eq_of_cover 2 _ (fun t _ => Matmul0.flushed_eq V c t) Matmul0.cover

end Cert.KernelIdeal.RegV

end
-- ==== Proof.RegScale1.lean ====
import proofs.«401817_j18751827214892_1_alg».proof.Proof.Gen.KernelIdeal.Frame
import proofs.«401817_j18751827214892_1_alg».proof.Proof.Spec
import Idealize.ShloMosaic.PureOps.Ideal
import Idealize.ShloMosaic.PureOps.Ideal.Laws
import Idealize.ShloMosaic.Lib.ValueIdx
import Idealize.ShloMosaic.Lib.Pipeline.Value

/-!
  Edge scaling, read entry by entry.

  The region multiplies every edge row by that edge's weight: `out (e, f) = hs (e, f) · coef (e, 0)`. The 1600000 edge
  rows are cut into 160 blocks of 10000 rows; grid point `t` reads block `t` of the rows and of the weight column and
  writes block `t` of the result. Row `p` of block `t` is row `t · 10000 + p` of the array, so the block a point writes
  back is that block of the array `scaleRows hs coef`, and the 160 blocks cover every row (row `r` lies in block
  `r / 10000`).
-/

set_option maxRecDepth 16384

noncomputable section

namespace Cert.KernelIdeal.RegV

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- The block's product at row `p`, column `q`: the row's entry times the row's one weight. -/
theorem scale1_pay (x0 : Vec Ideal S10000x128 .f32) (x1 : Vec Ideal S10000x1 .f32) (p : Fin 10000) (q : Fin 128) :
    k1_pay1 x0 x1 (ix2 p q) = x0 (ix2 p q) * x1 (ix2 p (0 : Fin 1)) := by
  unfold k1_pay1
  rw [mulf_apply, shapeCast_self, shapeCast_self]
  rw [broadcastTo_apply x1 broadcasts_S10000x1_S10000x128 (ix2 p q) (ix2 p (0 : Fin 1))]
  intro a
  match a with
  | ⟨0, _⟩ => rfl
  | ⟨1, _⟩ => rfl

/-- The whole array's product at row `r`, column `q`: the same expression of the same entries. -/
theorem scale1_spec (hs : (⟨Cert.ReferenceIdeal.S1600000x128, .f32⟩ : BufTy).Contents (Elt Ideal))
    (cc : (⟨Cert.ReferenceIdeal.S1600000x1, .f32⟩ : BufTy).Contents (Elt Ideal)) (r : Fin 1600000) (q : Fin 128) :
    Cert.Spec.scaleRows hs cc (ix2 r q) = hs (ix2 r q) * cc (ix2 r (0 : Fin 1)) := by
  unfold Cert.Spec.scaleRows
  rw [mulf_apply]
  rw [broadcastInDim_apply _ _ cc (ix2 r q) (ix2 r (0 : Fin 1))]
  intro a
  match a with
  | ⟨0, _⟩ => rfl
  | ⟨1, _⟩ => rfl

theorem scale1_hz : (![0, 0] : Fin 2 → Nat) = fun _ => 0 := funext fun a => by fin_cases a <;> rfl

/-- At point `t` every window's block index is `t` on the row axis and `0` on the column axis. -/
theorem scale1_idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row `p` of block `t` is a row of the array. -/
theorem scale1_rows (t : Fin cfg1.N) (p : Fin 10000) : t.val * 10000 + p.val < 1600000 := by
  have h1 : t.val < 160 := t.isLt
  have h2 := p.isLt
  omega

variable (V : (c : Dev nD) → (b : Ref sig .tc) → Buf (Elt Ideal) ((c : Thread nD τ).loc b))

/-- Where entry `(p, q)` of the rows' block at `t` sits in the array: row `t · 10000 + p`, column `q`. -/
theorem scale1_emb0 (t : Fin cfg1.N) (p : Fin 10000) (q : Fin 128) :
    ((cfg1.win 0).blk t).view.emb (ix2 p q) = ix2 (⟨t.val * 10000 + p.val, scale1_rows t p⟩ : Fin 1600000) q := by
  obtain ⟨e0, e1, e2, e3, e4, e5⟩ := scale1_idx t
  funext a; apply Fin.ext
  match a with
  | ⟨0, _⟩ => show win1_0.index t (0 : Fin 2) * 10000 + 1 * p.val = t.val * 10000 + p.val; omega
  | ⟨1, _⟩ => show win1_0.index t (1 : Fin 2) * 128 + 1 * q.val = q.val; omega

/-- The same for the weight column's block. -/
theorem scale1_emb1 (t : Fin cfg1.N) (p : Fin 10000) (q : Fin 1) :
    ((cfg1.win 1).blk t).view.emb (ix2 p q) = ix2 (⟨t.val * 10000 + p.val, scale1_rows t p⟩ : Fin 1600000) q := by
  obtain ⟨e0, e1, e2, e3, e4, e5⟩ := scale1_idx t
  funext a; apply Fin.ext
  match a with
  | ⟨0, _⟩ => show win1_1.index t (0 : Fin 2) * 10000 + 1 * p.val = t.val * 10000 + p.val; omega
  | ⟨1, _⟩ => show win1_1.index t (1 : Fin 2) * 1 + 1 * q.val = q.val; omega

/-- The same for the result's block. -/
theorem scale1_emb2 (t : Fin cfg1.N) (p : Fin 10000) (q : Fin 128) :
    ((cfg1.win 2).blk t).view.emb (ix2 p q) = ix2 (⟨t.val * 10000 + p.val, scale1_rows t p⟩ : Fin 1600000) q := by
  obtain ⟨e0, e1, e2, e3, e4, e5⟩ := scale1_idx t
  funext a; apply Fin.ext
  match a with
  | ⟨0, _⟩ => show win1_2.index t (0 : Fin 2) * 10000 + 1 * p.val = t.val * 10000 + p.val; omega
  | ⟨1, _⟩ => show win1_2.index t (1 : Fin 2) * 128 + 1 * q.val = q.val; omega

/-- Entry `(p, q)` of the rows' block at `t` is the array's entry at row `t · 10000 + p`. -/
theorem scale1_blk0 (c : Dev nD) (t : Fin cfg1.N) (p : Fin 10000) (q : Fin 128) :
    (iblk1 V c 0 t (ix2 p q) : Elt Ideal .f32) = V c main_v38 (ix2 (⟨t.val * 10000 + p.val, scale1_rows t p⟩ : Fin 1600000) q) := by
  show V c main_v38 (((cfg1.win 0).blk t).view.emb (ix2 p q)) = _
  rw [scale1_emb0]

/-- Entry `(p, 0)` of the weights' block at `t` is the weight of edge `t · 10000 + p`. -/
theorem scale1_blk1 (c : Dev nD) (t : Fin cfg1.N) (p : Fin 10000) (q : Fin 1) :
    (iblk1 V c 1 t (ix2 p q) : Elt Ideal .f32) = V c main_v30 (ix2 (⟨t.val * 10000 + p.val, scale1_rows t p⟩ : Fin 1600000) q) := by
  show V c main_v30 (((cfg1.win 1).blk t).view.emb (ix2 p q)) = _
  rw [scale1_emb1]

/-- What point `t` writes back is block `t` of the scaled rows. -/
theorem scale1_flushed (c : Dev nD) (t : Fin cfg1.N) :
    (dat1 (F := Ideal) V c).flushed 2 t
      = ((cfg1.win 2).blk t).view.read (Elt Ideal) (Cert.Spec.scaleRows (V c main_v38) (V c main_v30)) := by
  show (cfg1.win 2).cut (grid1.coords t) ((dat1 V c).after 2 t) = _
  rw [after1_2]
  unfold out1_2
  rw [View.canon_unit_zero scale1_hz]
  simp only [View.ld_unit_zero (S := S10000x128) scale1_hz, View.ld_unit_zero (S := S10000x1) scale1_hz]
  funext j
  obtain ⟨p, q, rfl⟩ : ∃ (p : Fin 10000) (q : Fin 128), j = ix2 p q := ⟨j 0, j 1, eq_ix2 j⟩
  show k1_pay1 (iblk1 V c 0 t) (iblk1 V c 1 t) (ix2 p q)
    = Cert.Spec.scaleRows (V c main_v38) (V c main_v30) (((cfg1.win 2).blk t).view.emb (ix2 p q))
  rw [scale1_pay, scale1_emb2, scale1_spec, scale1_blk0, scale1_blk1]

/-- An index of the array is in point `t`'s block iff each coordinate is in the block's range on its axis. -/
theorem scale1_mem (t : Fin cfg1.N) (i : S1600000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v39).slice (win1_2.rect t)).set ↔ _
  rw [View.set_slice_whole, Rect.mem_set_unit]
  exact Iff.rfl

/-- Every index of the array is in the block of the point `row / 10000`. -/
theorem scale1_cover (i : S1600000x128.Idx) :
    ∃ t : Fin cfg1.N, (cfg1.win 2).flush t = true ∧ i ∈ ((cfg1.win 2).blk t).view.set := by
  have hi0 : (i 0).val < 1600000 := (i 0).isLt
  have hi1 : (i 1).val < 128 := (i 1).isLt
  have hN : (i 0).val / 10000 < grid1.N := by rw [N_1]; omega
  obtain ⟨e0, e1, e2, e3, e4, e5⟩ := scale1_idx ⟨(i 0).val / 10000, hN⟩
  have e4' : win1_2.index ⟨(i 0).val / 10000, hN⟩ (0 : Fin 2) = (i 0).val / 10000 := e4
  refine ⟨⟨(i 0).val / 10000, hN⟩, flush1_2 _, ?_⟩
  rw [scale1_mem]
  intro a
  match a with
  | ⟨0, _⟩ =>
    show win1_2.index ⟨(i 0).val / 10000, hN⟩ (0 : Fin 2) * 10000 ≤ (i 0).val
      ∧ (i 0).val < win1_2.index ⟨(i 0).val / 10000, hN⟩ (0 : Fin 2) * 10000 + 10000
    omega
  | ⟨1, _⟩ =>
    show win1_2.index ⟨(i 0).val / 10000, hN⟩ (1 : Fin 2) * 128 ≤ (i 1).val
      ∧ (i 1).val < win1_2.index ⟨(i 0).val / 10000, hN⟩ (1 : Fin 2) * 128 + 128
    omega

/-- After the region the result array holds every edge row times the edge's weight. -/
theorem arr1 (c : Dev nD) : (dat1 (F := Ideal) V c).arrAt 2 cfg1.N = Cert.Spec.scaleRows (V c main_v38) (V c main_v30) :=
  (dat1 V c).arrAt_eq_of_cover 2 _ (fun t _ => scale1_flushed V c t) scale1_cover

end Cert.KernelIdeal.RegV

end
-- ==== Proof.RegFin2.lean ====
import proofs.«401817_j18751827214892_1_alg».proof.Proof.Gen.KernelIdeal.Frame
import proofs.«401817_j18751827214892_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

/-!
  The layer's last step, read entry by entry.

  The region adds, to the aggregate, the node's own features over its degree and the bias:
  `out (v, f) = (ea (v, f) + h (v, f) · di (v, 0)) + b (f)`. The 50000 node rows are cut into 10 blocks of 5000 rows; grid
  point `t` reads block `t` of the aggregate, of the features and of the inverse-degree column, the whole bias, and
  writes block `t` of the result. Row `p` of block `t` is row `t · 5000 + p` of the array, so the block a point writes back
  is that block of the array `finish ea h di b`, and the 10 blocks cover every row (row `r` lies in block `r / 5000`).
-/

set_option maxRecDepth 16384

noncomputable section

namespace Cert.KernelIdeal.RegV

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- The block's sum at row `p`, column `q`: the aggregate's entry, plus the features' entry times the row's one inverse
    degree, plus the bias of the column. -/
theorem fin2_pay (x0 x1 : Vec Ideal S5000x128 .f32) (x2 : Vec Ideal S5000x1 .f32) (x3 : Vec Ideal S128 .f32) (p : Fin 5000) (q : Fin 128) :
    k2_pay1 x0 x1 x2 x3 (ix2 p q) = (x0 (ix2 p q) + x1 (ix2 p q) * x2 (ix2 p (0 : Fin 1))) + x3 (ix1 q) := by
  unfold k2_pay1
  rw [addf_apply, addf_apply, mulf_apply, shapeCast_self, shapeCast_self, shapeCast_self]
  rw [broadcastTo_apply x2 broadcasts_S5000x1_S5000x128 (ix2 p q) (ix2 p (0 : Fin 1)) (fun a => by
    match a with
    | ⟨0, _⟩ => rfl
    | ⟨1, _⟩ => rfl)]
  rw [broadcastTo_1b_ab_apply, shapeCast_a_1a_apply]

/-- The whole array's sum at row `r`, column `q`: the same expression of the same entries. -/
theorem fin2_spec (ea h : (⟨Cert.ReferenceIdeal.S50000x128, .f32⟩ : BufTy).Contents (Elt Ideal))
    (dc : (⟨Cert.ReferenceIdeal.S50000x1, .f32⟩ : BufTy).Contents (Elt Ideal))
    (b : (⟨Cert.ReferenceIdeal.S128, .f32⟩ : BufTy).Contents (Elt Ideal)) (r : Fin 50000) (q : Fin 128) :
    Cert.Spec.finish ea h dc b (ix2 r q) = (ea (ix2 r q) + h (ix2 r q) * dc (ix2 r (0 : Fin 1))) + b (ix1 q) := by
  unfold Cert.Spec.finish
  rw [addf_apply, addf_apply, mulf_apply]
  rw [broadcastInDim_apply _ _ dc (ix2 r q) (ix2 r (0 : Fin 1)) (fun a => by
    match a with
    | ⟨0, _⟩ => rfl
    | ⟨1, _⟩ => rfl)]
  rw [broadcastInDim_apply _ _ (broadcastInDim _ _ _ b) (ix2 r q) (ix2 (0 : Fin 1) q) (fun a => by
    match a with
    | ⟨0, _⟩ => rfl
    | ⟨1, _⟩ => rfl)]
  rw [broadcastInDim_apply _ _ b (ix2 (0 : Fin 1) q) (ix1 q) (fun a => by
    match a with
    | ⟨0, _⟩ => rfl)]

theorem fin2_hz : (![0, 0] : Fin 2 → Nat) = fun _ => 0 := funext fun a => by fin_cases a <;> rfl

theorem fin2_hz1 : (![0] : Fin 1 → Nat) = fun _ => 0 := funext fun a => by fin_cases a; rfl

/-- At point `t` the four row-blocked windows have block index `t` on the row axis and `0` on the column axis; the
    bias window's block index is `0`. -/
theorem fin2_idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- Row `p` of block `t` is a row of the array. -/
theorem fin2_rows (t : Fin cfg2.N) (p : Fin 5000) : t.val * 5000 + p.val < 50000 := by
  have h1 : t.val < 10 := t.isLt
  have h2 := p.isLt
  omega

variable (V : (c : Dev nD) → (b : Ref sig .tc) → Buf (Elt Ideal) ((c : Thread nD τ).loc b))

/-- Where entry `(p, q)` of the aggregate's block at `t` sits in the array: row `t · 5000 + p`, column `q`. -/
theorem fin2_emb0 (t : Fin cfg2.N) (p : Fin 5000) (q : Fin 128) :
    ((cfg2.win 0).blk t).view.emb (ix2 p q) = ix2 (⟨t.val * 5000 + p.val, fin2_rows t p⟩ : Fin 50000) q := by
  obtain ⟨e0, e1, e2, e3, e4, e5, e6, e7, e8⟩ := fin2_idx t
  funext a; apply Fin.ext
  match a with
  | ⟨0, _⟩ => show win2_0.index t (0 : Fin 2) * 5000 + 1 * p.val = t.val * 5000 + p.val; omega
  | ⟨1, _⟩ => show win2_0.index t (1 : Fin 2) * 128 + 1 * q.val = q.val; omega

/-- The same for the node features' block. -/
theorem fin2_emb1 (t : Fin cfg2.N) (p : Fin 5000) (q : Fin 128) :
    ((cfg2.win 1).blk t).view.emb (ix2 p q) = ix2 (⟨t.val * 5000 + p.val, fin2_rows t p⟩ : Fin 50000) q := by
  obtain ⟨e0, e1, e2, e3, e4, e5, e6, e7, e8⟩ := fin2_idx t
  funext a; apply Fin.ext
  match a with
  | ⟨0, _⟩ => show win2_1.index t (0 : Fin 2) * 5000 + 1 * p.val = t.val * 5000 + p.val; omega
  | ⟨1, _⟩ => show win2_1.index t (1 : Fin 2) * 128 + 1 * q.val = q.val; omega

/-- The same for the inverse-degree column's block. -/
theorem fin2_emb2 (t : Fin cfg2.N) (p : Fin 5000) (q : Fin 1) :
    ((cfg2.win 2).blk t).view.emb (ix2 p q) = ix2 (⟨t.val * 5000 + p.val, fin2_rows t p⟩ : Fin 50000) q := by
  obtain ⟨e0, e1, e2, e3, e4, e5, e6, e7, e8⟩ := fin2_idx t
  funext a; apply Fin.ext
  match a with
  | ⟨0, _⟩ => show win2_2.index t (0 : Fin 2) * 5000 + 1 * p.val = t.val * 5000 + p.val; omega
  | ⟨1, _⟩ => show win2_2.index t (1 : Fin 2) * 1 + 1 * q.val = q.val; omega

/-- The bias window's block is the whole bias at every point. -/
theorem fin2_emb3 (t : Fin cfg2.N) (q : Fin 128) :
    ((cfg2.win 3).blk t).view.emb (ix1 q) = ix1 q := by
  obtain ⟨e0, e1, e2, e3, e4, e5, e6, e7, e8⟩ := fin2_idx t
  funext a; apply Fin.ext
  match a with
  | ⟨0, _⟩ => show win2_3.index t (0 : Fin 1) * 128 + 1 * q.val = q.val; omega

/-- The same as the first for the result's block. -/
theorem fin2_emb4 (t : Fin cfg2.N) (p : Fin 5000) (q : Fin 128) :
    ((cfg2.win 4).blk t).view.emb (ix2 p q) = ix2 (⟨t.val * 5000 + p.val, fin2_rows t p⟩ : Fin 50000) q := by
  obtain ⟨e0, e1, e2, e3, e4, e5, e6, e7, e8⟩ := fin2_idx t
  funext a; apply Fin.ext
  match a with
  | ⟨0, _⟩ => show win2_4.index t (0 : Fin 2) * 5000 + 1 * p.val = t.val * 5000 + p.val; omega
  | ⟨1, _⟩ => show win2_4.index t (1 : Fin 2) * 128 + 1 * q.val = q.val; omega

/-- Entry `(p, q)` of the aggregate's block at `t` is the array's entry at row `t · 5000 + p`. -/
theorem fin2_blk0 (c : Dev nD) (t : Fin cfg2.N) (p : Fin 5000) (q : Fin 128) :
    (iblk2 V c 0 t (ix2 p q) : Elt Ideal .f32) = V c main_v42 (ix2 (⟨t.val * 5000 + p.val, fin2_rows t p⟩ : Fin 50000) q) := by
  show V c main_v42 (((cfg2.win 0).blk t).view.emb (ix2 p q)) = _
  rw [fin2_emb0]

/-- The same for the node features. -/
theorem fin2_blk1 (c : Dev nD) (t : Fin cfg2.N) (p : Fin 5000) (q : Fin 128) :
    (iblk2 V c 1 t (ix2 p q) : Elt Ideal .f32) = V c main_v31 (ix2 (⟨t.val * 5000 + p.val, fin2_rows t p⟩ : Fin 50000) q) := by
  show V c main_v31 (((cfg2.win 1).blk t).view.emb (ix2 p q)) = _
  rw [fin2_emb1]

/-- Entry `(p, 0)` of the inverse-degree block at `t` is the inverse degree of node `t · 5000 + p`. -/
theorem fin2_blk2 (c : Dev nD) (t : Fin cfg2.N) (p : Fin 5000) (q : Fin 1) :
    (iblk2 V c 2 t (ix2 p q) : Elt Ideal .f32) = V c main_v14 (ix2 (⟨t.val * 5000 + p.val, fin2_rows t p⟩ : Fin 50000) q) := by
  show V c main_v14 (((cfg2.win 2).blk t).view.emb (ix2 p q)) = _
  rw [fin2_emb2]

/-- Entry `q` of the bias block is the bias at `q`. -/
theorem fin2_blk3 (c : Dev nD) (t : Fin cfg2.N) (q : Fin 128) :
    (iblk2 V c 3 t (ix1 q) : Elt Ideal .f32) = V c main_arg4 (ix1 q) := by
  show V c main_arg4 (((cfg2.win 3).blk t).view.emb (ix1 q)) = _
  rw [fin2_emb3]

/-- What point `t` writes back is block `t` of the finished layer. -/
theorem fin2_flushed (c : Dev nD) (t : Fin cfg2.N) :
    (dat2 (F := Ideal) V c).flushed 4 t
      = ((cfg2.win 4).blk t).view.read (Elt Ideal) (Cert.Spec.finish (V c main_v42) (V c main_v31) (V c main_v14) (V c main_arg4)) := by
  show (cfg2.win 4).cut (grid2.coords t) ((dat2 V c).after 4 t) = _
  rw [after2_4]
  unfold out2_4
  rw [View.canon_unit_zero fin2_hz]
  simp only [View.ld_unit_zero (S := S5000x128) fin2_hz, View.ld_unit_zero (S := S5000x1) fin2_hz, View.ld_unit_zero (S := S128) fin2_hz1]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 3 t) (ix2 p q)
    = Cert.Spec.finish (V c main_v42) (V c main_v31) (V c main_v14) (V c main_arg4) (((cfg2.win 4).blk t).view.emb (ix2 p q))
  rw [fin2_pay, fin2_emb4, fin2_spec, fin2_blk0, fin2_blk1, fin2_blk2, fin2_blk3]

/-- An index of the array is in point `t`'s block iff each coordinate is in the block's range on its axis. -/
theorem fin2_mem (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v43).slice (win2_4.rect t)).set ↔ _
  rw [View.set_slice_whole, Rect.mem_set_unit]
  exact Iff.rfl

/-- Every index of the array is in the block of the point `row / 5000`. -/
theorem fin2_cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : (i 0).val / 5000 < grid2.N := by rw [N_2]; omega
  obtain ⟨e0, e1, e2, e3, e4, e5, e6, e7, e8⟩ := fin2_idx ⟨(i 0).val / 5000, hN⟩
  have e7' : win2_4.index ⟨(i 0).val / 5000, hN⟩ (0 : Fin 2) = (i 0).val / 5000 := e7
  refine ⟨⟨(i 0).val / 5000, hN⟩, flush2_4 _, ?_⟩
  rw [fin2_mem]
  intro a
  match a with
  | ⟨0, _⟩ =>
    show win2_4.index ⟨(i 0).val / 5000, hN⟩ (0 : Fin 2) * 5000 ≤ (i 0).val
      ∧ (i 0).val < win2_4.index ⟨(i 0).val / 5000, hN⟩ (0 : Fin 2) * 5000 + 5000
    omega
  | ⟨1, _⟩ =>
    show win2_4.index ⟨(i 0).val / 5000, hN⟩ (1 : Fin 2) * 128 ≤ (i 1).val
      ∧ (i 1).val < win2_4.index ⟨(i 0).val / 5000, hN⟩ (1 : Fin 2) * 128 + 128
    omega

/-- After the region the result array holds the aggregate, plus the node's features over its degree, plus the bias. -/
theorem arr2 (c : Dev nD) : (dat2 (F := Ideal) V c).arrAt 4 cfg2.N = Cert.Spec.finish (V c main_v42) (V c main_v31) (V c main_v14) (V c main_arg4) :=
  (dat2 V c).arrAt_eq_of_cover 4 _ (fun t _ => fin2_flushed V c t) fin2_cover

end Cert.KernelIdeal.RegV

end
-- ==== Proof.LibColumn.lean ====
/-
  A vector laid out as a column: reshaping `[n]` to `[n, 1]` and broadcasting `[n]` into `[n, 1]` along axis 0 are the same
  array, entry `(r, 0)` of either being entry `r` of the vector.
-/
import Idealize.ShloMosaic.PureOps.Ideal
import Idealize.ShloMosaic.Lib.ValueIdx
import Idealize.ShloMosaic.Lib.ValueLayout
import Idealize.ShloMosaic.Lib.Pipeline.Value

noncomputable section

namespace Idealize.ShloMosaic.ColumnLaws

open Idealize.ShloMosaic Idealize.ShloMosaic.ValueIdx

/-- The reshape of a vector to a column is its broadcast into the column along axis 0. -/
theorem reshape_eq_broadcastInDim_col {α : Type} {n : Nat} (x : (⟨1, ![n]⟩ : Shape).Idx → α)
    (hc : (⟨1, ![n]⟩ : Shape).ShapeCasts ⟨2, ![n, 1]⟩)
    (hb : (⟨1, ![n]⟩ : Shape).BroadcastsInDim ⟨2, ![n, 1]⟩ (![0] : Fin 1 → Fin 2)) :
    shapeCast (⟨2, ![n, 1]⟩ : Shape) x hc = broadcastInDim (⟨2, ![n, 1]⟩ : Shape) (![0] : Fin 1 → Fin 2) hb x := by
  funext j
  -- entry `(r, u)` of the column, `u = 0`: both sides read entry `r` of the vector
  obtain ⟨r, u, rfl⟩ : ∃ (r : Fin n) (u : Fin 1), j = ix2 r u := ⟨j 0, j 1, eq_ix2 j⟩
  have hu : u.val = 0 := by have := u.isLt; omega
  have hr : r.val < n := r.isLt
  have e1 : shapeCast (⟨2, ![n, 1]⟩ : Shape) x hc (ix2 r u) = x (ix1 r) :=
    shapeCast_apply x hc (ix2 r u) (ix1 r) (by
      rw [Shape.rowMajor_val_two, Shape.rowMajor_val_one]
      show r.val = r.val * 1 + u.val
      rw [hu, Nat.mul_one, Nat.add_zero])
  have e2 : broadcastInDim (⟨2, ![n, 1]⟩ : Shape) (![0] : Fin 1 → Fin 2) hb x (ix2 r u) = x (ix1 r) :=
    broadcastInDim_apply (![0] : Fin 1 → Fin 2) hb x (ix2 r u) (ix1 r) (by
      intro a
      match a with
      | ⟨0, _⟩ =>
        show r.val = if n = 1 then 0 else r.val
        by_cases h1 : n = 1
        · rw [if_pos h1]; omega
        · rw [if_neg h1])
  exact e1.trans e2.symm

end Idealize.ShloMosaic.ColumnLaws

end
-- ==== Proof.KChainA.lean ====
import proofs.«401817_j18751827214892_1_alg».proof.Proof.Gen.KernelIdeal.Frame
import proofs.«401817_j18751827214892_1_alg».proof.Proof.Spec
import Idealize.ShloMosaic.PureOps.Ideal
import Idealize.ShloMosaic.PureOps.Ideal.Laws
import Idealize.ShloMosaic.Lib.StableHlo.Run
import proofs.«401817_j18751827214892_1_alg».proof.Proof.LibColumn

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! After the first stretch of host operations: the edge endpoints, the inverse-degree column, the edge-weight column,
    and every argument still as launched. -/

/-- Every array the first stretch of host operations writes. -/
private def written0 : List (Ref sig .tc) :=
  [main_v0, main_v1, main_v2, main_v3, main_cst, main_v4, main_cst_0, main_v5, main_v6, main_v7, main_cst_1, main_v8, main_v9,
   main_cst_2, main_v10, main_v11, main_cst_3, main_v12, main_v13, main_v14, main_c, main_v15, main_v16, main_c_4, main_v17,
   main_v18, main_v19, main_v20, main_v21, main_c_5, main_v22, main_v23, main_c_6, main_v24, main_v25, main_v26, main_v27,
   main_v28, main_v29, main_v30]

private theorem hostOps0_written :
    (hostOps0 : List (HloOp τ sig (Elt Ideal))).Forall fun op => op.writes ⊆ (written0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- An array the first stretch does not write is as launched. -/
local macro "kept0" : term => `(StableHlo.after_of_writes_sub hostOps0 _ hostOps0_written (by decide))

/-- The sources: row 0 of the edge table, as a vector. -/
theorem W1_v1 (c : Dev nD) : W1 m ρ c (Proc.devRef .tc main_v1) = Cert.Spec.srcOf (m ((c : Thread nD τ).loc main_arg1)) := by
  show StableHlo.after hostOps0 _ (Proc.devRef .tc main_v1) = _
  after_results_simp
  rfl
/-- The targets: row 1 of the edge table, as a vector. -/
theorem W1_v3 (c : Dev nD) : W1 m ρ c (Proc.devRef .tc main_v3) = Cert.Spec.dstOf (m ((c : Thread nD τ).loc main_arg1)) := by
  show StableHlo.after hostOps0 _ (Proc.devRef .tc main_v3) = _
  after_results_simp
  rfl
/-- The inverse degrees: the vector `1 / deg` reshaped to a column, which is its broadcast along axis 0. -/
theorem W1_v14 (c : Dev nD) : W1 m ρ c (Proc.devRef .tc main_v14) = Cert.Spec.degInvCol (m ((c : Thread nD τ).loc main_arg1)) := by
  show StableHlo.after hostOps0 _ (Proc.devRef .tc main_v14) = _
  after_results_simp
  show shapeCast S50000x1 (Cert.Spec.degInv (m ((c : Thread nD τ).loc main_arg1))) shapeCasts_S50000_S50000x1 = _
  exact ColumnLaws.reshape_eq_broadcastInDim_col _ _ _
/-- The edge weights: the vector of weights reshaped to a column, which is its broadcast along axis 0. -/
theorem W1_v30 (c : Dev nD) : W1 m ρ c (Proc.devRef .tc main_v30) = Cert.Spec.coefCol (m ((c : Thread nD τ).loc main_arg1)) := by
  show StableHlo.after hostOps0 _ (Proc.devRef .tc main_v30) = _
  after_results_simp
  show shapeCast S1600000x1 (Cert.Spec.coef (m ((c : Thread nD τ).loc main_arg1))) shapeCasts_S1600000_S1600000x1 = _
  exact ColumnLaws.reshape_eq_broadcastInDim_col _ _ _
theorem W1_arg0 (c : Dev nD) : W1 m ρ c (Proc.devRef .tc main_arg0) = m ((c : Thread nD τ).loc main_arg0) := kept0
theorem W1_arg2 (c : Dev nD) : W1 m ρ c (Proc.devRef .tc main_arg2) = m ((c : Thread nD τ).loc main_arg2) := kept0
theorem W1_arg3 (c : Dev nD) : W1 m ρ c (Proc.devRef .tc main_arg3) = m ((c : Thread nD τ).loc main_arg3) := kept0
theorem W1_arg4 (c : Dev nD) : W1 m ρ c (Proc.devRef .tc main_arg4) = m ((c : Thread nD τ).loc main_arg4) := kept0
theorem W1_arg5 (c : Dev nD) : W1 m ρ c (Proc.devRef .tc main_arg5) = m ((c : Thread nD τ).loc main_arg5) := kept0
theorem W1_arg6 (c : Dev nD) : W1 m ρ c (Proc.devRef .tc main_arg6) = m ((c : Thread nD τ).loc main_arg6) := kept0
theorem W1_arg7 (c : Dev nD) : W1 m ρ c (Proc.devRef .tc main_arg7) = m ((c : Thread nD τ).loc main_arg7) := kept0
theorem W1_arg8 (c : Dev nD) : W1 m ρ c (Proc.devRef .tc main_arg8) = m ((c : Thread nD τ).loc main_arg8) := kept0
theorem W1_arg9 (c : Dev nD) : W1 m ρ c (Proc.devRef .tc main_arg9) = m ((c : Thread nD τ).loc main_arg9) := kept0
theorem W1_arg10 (c : Dev nD) : W1 m ρ c (Proc.devRef .tc main_arg10) = m ((c : Thread nD τ).loc main_arg10) := kept0
theorem W1_arg11 (c : Dev nD) : W1 m ρ c (Proc.devRef .tc main_arg11) = m ((c : Thread nD τ).loc main_arg11) := kept0
theorem W1_arg12 (c : Dev nD) : W1 m ρ c (Proc.devRef .tc main_arg12) = m ((c : Thread nD τ).loc main_arg12) := kept0

end Cert.KernelIdeal.Chain

end
-- ==== Proof.KChainL1.lean ====
import proofs.«401817_j18751827214892_1_alg».proof.Proof.Gen.KernelIdeal.Frame
import proofs.«401817_j18751827214892_1_alg».proof.Proof.Spec
import Idealize.ShloMosaic.PureOps.Ideal
import Idealize.ShloMosaic.PureOps.Ideal.Laws
import Idealize.ShloMosaic.Lib.StableHlo.Run
import proofs.«401817_j18751827214892_1_alg».proof.Proof.RegMatmul0
import proofs.«401817_j18751827214892_1_alg».proof.Proof.RegScale1
import proofs.«401817_j18751827214892_1_alg».proof.Proof.RegFin2
import proofs.«401817_j18751827214892_1_alg».proof.Proof.KChainA
import proofs.«401817_j18751827214892_1_alg».proof.Proof.LibColumn
set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! After the first layer (the exit of region 2): the layer's output, and what later segments still read. -/

/-- Every array the host operations between regions 0 and 1 write. -/
private def written1 : List (Ref sig .tc) :=
  [main_c_7, main_v32, main_v33, main_c_8, main_v34, main_v35, main_v36, main_v37, main_v38]

/-- Every array the host operations between regions 1 and 2 write. -/
private def written2 : List (Ref sig .tc) := [main_cst_9, main_v40, main_v41, main_v42]

private theorem hostOps1_written :
    (hostOps1 : List (HloOp τ sig (Elt Ideal))).Forall fun op => op.writes ⊆ (written1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

private theorem hostOps2_written :
    (hostOps2 : List (HloOp τ sig (Elt Ideal))).Forall fun op => op.writes ⊆ (written2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-! ### One step of the run at an array the step does not write -/

private theorem step23 (c : Dev nD) (b : Ref sig .tc) (hb : b ∉ written1) :
    W3 m ρ c (Proc.devRef .tc b) = W2 m ρ c (Proc.devRef .tc b) :=
  StableHlo.after_of_writes_sub hostOps1 _ hostOps1_written hb

private theorem step45 (c : Dev nD) (b : Ref sig .tc) (hb : b ∉ written2) :
    W5 m ρ c (Proc.devRef .tc b) = W4 m ρ c (Proc.devRef .tc b) :=
  StableHlo.after_of_writes_sub hostOps2 _ hostOps2_written hb

/-- An array none of the five steps writes is, after the first layer, as it was before it. -/
private theorem carry16 (c : Dev nD) (b : Ref sig .tc) (h0 : ∀ w, Pipeline.arrRef spec0 w ≠ b) (h1 : b ∉ written1)
    (h2 : ∀ w, Pipeline.arrRef spec1 w ≠ b) (h3 : b ∉ written2) (h4 : ∀ w, Pipeline.arrRef spec2 w ≠ b) :
    W6 m ρ c (Proc.devRef .tc b) = W1 m ρ c (Proc.devRef .tc b) :=
  (W6_of_ne m ρ c b h4).trans ((step45 m ρ c b h3).trans ((W4_of_ne m ρ c b h2).trans ((step23 m ρ c b h1).trans (W2_of_ne m ρ c b h0))))

/-- The same up to region 2's entry. -/
private theorem carry15 (c : Dev nD) (b : Ref sig .tc) (h0 : ∀ w, Pipeline.arrRef spec0 w ≠ b) (h1 : b ∉ written1)
    (h2 : ∀ w, Pipeline.arrRef spec1 w ≠ b) (h3 : b ∉ written2) :
    W5 m ρ c (Proc.devRef .tc b) = W1 m ρ c (Proc.devRef .tc b) :=
  (step45 m ρ c b h3).trans ((W4_of_ne m ρ c b h2).trans ((step23 m ρ c b h1).trans (W2_of_ne m ρ c b h0)))

/-- The same up to region 1's entry. -/
private theorem carry13 (c : Dev nD) (b : Ref sig .tc) (h0 : ∀ w, Pipeline.arrRef spec0 w ≠ b) (h1 : b ∉ written1) :
    W3 m ρ c (Proc.devRef .tc b) = W1 m ρ c (Proc.devRef .tc b) :=
  (step23 m ρ c b h1).trans (W2_of_ne m ρ c b h0)

/-! ### What the two host stretches compute, from any contents -/

/-- The stretch before region 1 gathers, for every edge, the row of `main_v31` at the edge's wrapped source. -/
private theorem hostOps1_v38 (V : Valuation τ sig (Elt Ideal)) :
    StableHlo.after hostOps1 V (Proc.devRef .tc main_v38)
      = Host.gather gather_S50000x128_S1600000x1_S1600000x128_1_0_n_n_0_1_1128 (V (Proc.devRef .tc main_v31))
          (Cert.Spec.wrapCol (V (Proc.devRef .tc main_v1))) := by
  after_results
  rfl

/-- The stretch before region 2 sums the rows of `main_v39` into their target nodes. -/
private theorem hostOps2_v42 (V : Valuation τ sig (Elt Ideal)) :
    StableHlo.after hostOps2 V (Proc.devRef .tc main_v42)
      = Host.scatterAdd scatter_S50000x128_S1600000x1_S1600000x128_1_0_0_1
          (broadcastInDim S50000x128 ![] bcast_S_S50000x128 (constant (F := Ideal) S_ .f32 0x00000000#32))
          (broadcastInDim S1600000x1 ![0] bcast_S1600000_S1600000x1_0 (V (Proc.devRef .tc main_v3)))
          (V (Proc.devRef .tc main_v39)) := by
  after_results

private theorem finish_congr {a a' h h' : (⟨Cert.ReferenceIdeal.S50000x128, .f32⟩ : BufTy).Contents (Elt Ideal)}
    {d d' : (⟨Cert.ReferenceIdeal.S50000x1, .f32⟩ : BufTy).Contents (Elt Ideal)}
    {b b' : (⟨Cert.ReferenceIdeal.S128, .f32⟩ : BufTy).Contents (Elt Ideal)}
    (e1 : a = a') (e2 : h = h') (e3 : d = d') (e4 : b = b') : Cert.Spec.finish a h d b = Cert.Spec.finish a' h' d' b' := by
  subst e1 e2 e3 e4; rfl

/-! ### The first layer, stage by stage -/

/-- Region 0 leaves the dense product. -/
private theorem W2_v31 (c : Dev nD) : W2 m ρ c (Proc.devRef .tc main_v31) = Cert.Spec.dense (m ((c : Thread nD τ).loc main_arg0)) (m ((c : Thread nD τ).loc main_arg3)) :=
  (W2_arr m ρ c 2).trans ((Cert.KernelIdeal.RegV.arr0 (V1 m ρ) c).trans
    (congrArg₂ Cert.Spec.dense (W1_arg0 m ρ c) (W1_arg3 m ρ c)))

private theorem W3_v31 (c : Dev nD) : W3 m ρ c (Proc.devRef .tc main_v31) = Cert.Spec.dense (m ((c : Thread nD τ).loc main_arg0)) (m ((c : Thread nD τ).loc main_arg3)) :=
  (step23 m ρ c main_v31 (by decide)).trans (W2_v31 m ρ c)

/-- The gathered rows: every edge's source row of the dense product. -/
private theorem W3_v38 (c : Dev nD) : W3 m ρ c (Proc.devRef .tc main_v38)
    = Cert.Spec.gatherSrc (m ((c : Thread nD τ).loc main_arg1)) (Cert.Spec.dense (m ((c : Thread nD τ).loc main_arg0)) (m ((c : Thread nD τ).loc main_arg3))) := by
  refine (hostOps1_v38 (W2 m ρ c)).trans ?_
  rw [W2_v31 m ρ c, (W2_of_ne m ρ c main_v1 (by decide)).trans (W1_v1 m ρ c)]
  rfl

private theorem W3_v30 (c : Dev nD) : W3 m ρ c (Proc.devRef .tc main_v30) = Cert.Spec.coefCol (m ((c : Thread nD τ).loc main_arg1)) :=
  (carry13 m ρ c main_v30 (by decide) (by decide)).trans (W1_v30 m ρ c)

/-- Region 1 leaves the gathered rows scaled by the edge weights. -/
private theorem W4_v39 (c : Dev nD) : W4 m ρ c (Proc.devRef .tc main_v39)
    = Cert.Spec.scaleRows (Cert.Spec.gatherSrc (m ((c : Thread nD τ).loc main_arg1)) (Cert.Spec.dense (m ((c : Thread nD τ).loc main_arg0)) (m ((c : Thread nD τ).loc main_arg3)))) (Cert.Spec.coefCol (m ((c : Thread nD τ).loc main_arg1))) :=
  (W4_arr m ρ c 2).trans ((Cert.KernelIdeal.RegV.arr1 (V3 m ρ) c).trans
    (congrArg₂ Cert.Spec.scaleRows (W3_v38 m ρ c) (W3_v30 m ρ c)))

private theorem W4_v3 (c : Dev nD) : W4 m ρ c (Proc.devRef .tc main_v3) = Cert.Spec.dstOf (m ((c : Thread nD τ).loc main_arg1)) :=
  (W4_of_ne m ρ c main_v3 (by decide)).trans ((carry13 m ρ c main_v3 (by decide) (by decide)).trans (W1_v3 m ρ c))

/-- The scaled rows summed into their target nodes. -/
private theorem W5_v42 (c : Dev nD) : W5 m ρ c (Proc.devRef .tc main_v42)
    = Cert.Spec.scatterDst (m ((c : Thread nD τ).loc main_arg1)) (Cert.Spec.scaleRows (Cert.Spec.gatherSrc (m ((c : Thread nD τ).loc main_arg1)) (Cert.Spec.dense (m ((c : Thread nD τ).loc main_arg0)) (m ((c : Thread nD τ).loc main_arg3)))) (Cert.Spec.coefCol (m ((c : Thread nD τ).loc main_arg1)))) := by
  refine (hostOps2_v42 (W4 m ρ c)).trans ?_
  rw [W4_v3 m ρ c, W4_v39 m ρ c]
  rfl

private theorem W5_v31 (c : Dev nD) : W5 m ρ c (Proc.devRef .tc main_v31) = Cert.Spec.dense (m ((c : Thread nD τ).loc main_arg0)) (m ((c : Thread nD τ).loc main_arg3)) :=
  (step45 m ρ c main_v31 (by decide)).trans ((W4_of_ne m ρ c main_v31 (by decide)).trans (W3_v31 m ρ c))

private theorem W5_v14 (c : Dev nD) : W5 m ρ c (Proc.devRef .tc main_v14) = Cert.Spec.degInvCol (m ((c : Thread nD τ).loc main_arg1)) :=
  (carry15 m ρ c main_v14 (by decide) (by decide) (by decide) (by decide)).trans (W1_v14 m ρ c)

private theorem W5_arg4 (c : Dev nD) : W5 m ρ c (Proc.devRef .tc main_arg4) = m ((c : Thread nD τ).loc main_arg4) :=
  (carry15 m ρ c main_arg4 (by decide) (by decide) (by decide) (by decide)).trans (W1_arg4 m ρ c)

/-- Region 2 leaves the layer's output. -/
theorem W6_v43 (c : Dev nD) : W6 m ρ c (Proc.devRef .tc main_v43) = (Cert.Spec.layerOf (m ((c : Thread nD τ).loc main_arg1)) (Cert.Spec.dense (m ((c : Thread nD τ).loc main_arg0)) (m ((c : Thread nD τ).loc main_arg3))) (m ((c : Thread nD τ).loc main_arg4))) :=
  (W6_arr m ρ c 4).trans ((Cert.KernelIdeal.RegV.arr2 (V5 m ρ) c).trans
    (finish_congr (W5_v42 m ρ c) (W5_v31 m ρ c) (W5_v14 m ρ c) (W5_arg4 m ρ c)))
theorem W6_v1 (c : Dev nD) : W6 m ρ c (Proc.devRef .tc main_v1) = Cert.Spec.srcOf (m ((c : Thread nD τ).loc main_arg1)) :=
  (carry16 m ρ c main_v1 (by decide) (by decide) (by decide) (by decide) (by decide)).trans (W1_v1 m ρ c)
theorem W6_v3 (c : Dev nD) : W6 m ρ c (Proc.devRef .tc main_v3) = Cert.Spec.dstOf (m ((c : Thread nD τ).loc main_arg1)) :=
  (carry16 m ρ c main_v3 (by decide) (by decide) (by decide) (by decide) (by decide)).trans (W1_v3 m ρ c)
/-- The inverse-degree column is an input of region 2, which leaves its inputs as entered. -/
theorem W6_v14 (c : Dev nD) : W6 m ρ c (Proc.devRef .tc main_v14) = Cert.Spec.degInvCol (m ((c : Thread nD τ).loc main_arg1)) :=
  ((W6_arr m ρ c 2).trans (((dat2 (V5 m ρ) c).arrAt_in 2 rfl _).trans (A_eq2 (V5 m ρ) c 2))).trans (W5_v14 m ρ c)
/-- The edge-weight column is an input of region 1, which leaves its inputs as entered. -/
theorem W6_v30 (c : Dev nD) : W6 m ρ c (Proc.devRef .tc main_v30) = Cert.Spec.coefCol (m ((c : Thread nD τ).loc main_arg1)) :=
  (W6_of_ne m ρ c main_v30 (by decide)).trans ((step45 m ρ c main_v30 (by decide)).trans
    (((W4_arr m ρ c 1).trans (((dat1 (V3 m ρ) c).arrAt_in 1 rfl _).trans (A_eq1 (V3 m ρ) c 1))).trans (W3_v30 m ρ c)))
theorem W6_arg2 (c : Dev nD) : W6 m ρ c (Proc.devRef .tc main_arg2) = m ((c : Thread nD τ).loc main_arg2) :=
  (carry16 m ρ c main_arg2 (by decide) (by decide) (by decide) (by decide) (by decide)).trans (W1_arg2 m ρ c)
theorem W6_arg5 (c : Dev nD) : W6 m ρ c (Proc.devRef .tc main_arg5) = m ((c : Thread nD τ).loc main_arg5) :=
  (carry16 m ρ c main_arg5 (by decide) (by decide) (by decide) (by decide) (by decide)).trans (W1_arg5 m ρ c)
theorem W6_arg6 (c : Dev nD) : W6 m ρ c (Proc.devRef .tc main_arg6) = m ((c : Thread nD τ).loc main_arg6) :=
  (carry16 m ρ c main_arg6 (by decide) (by decide) (by decide) (by decide) (by decide)).trans (W1_arg6 m ρ c)
theorem W6_arg7 (c : Dev nD) : W6 m ρ c (Proc.devRef .tc main_arg7) = m ((c : Thread nD τ).loc main_arg7) :=
  (carry16 m ρ c main_arg7 (by decide) (by decide) (by decide) (by decide) (by decide)).trans (W1_arg7 m ρ c)
theorem W6_arg8 (c : Dev nD) : W6 m ρ c (Proc.devRef .tc main_arg8) = m ((c : Thread nD τ).loc main_arg8) :=
  (carry16 m ρ c main_arg8 (by decide) (by decide) (by decide) (by decide) (by decide)).trans (W1_arg8 m ρ c)
theorem W6_arg9 (c : Dev nD) : W6 m ρ c (Proc.devRef .tc main_arg9) = m ((c : Thread nD τ).loc main_arg9) :=
  (carry16 m ρ c main_arg9 (by decide) (by decide) (by decide) (by decide) (by decide)).trans (W1_arg9 m ρ c)
theorem W6_arg10 (c : Dev nD) : W6 m ρ c (Proc.devRef .tc main_arg10) = m ((c : Thread nD τ).loc main_arg10) :=
  (carry16 m ρ c main_arg10 (by decide) (by decide) (by decide) (by decide) (by decide)).trans (W1_arg10 m ρ c)
theorem W6_arg11 (c : Dev nD) : W6 m ρ c (Proc.devRef .tc main_arg11) = m ((c : Thread nD τ).loc main_arg11) :=
  (carry16 m ρ c main_arg11 (by decide) (by decide) (by decide) (by decide) (by decide)).trans (W1_arg11 m ρ c)
theorem W6_arg12 (c : Dev nD) : W6 m ρ c (Proc.devRef .tc main_arg12) = m ((c : Thread nD τ).loc main_arg12) :=
  (carry16 m ρ c main_arg12 (by decide) (by decide) (by decide) (by decide) (by decide)).trans (W1_arg12 m ρ c)

end Cert.KernelIdeal.Chain

end
-- ==== Proof.KChainL2.lean ====
import proofs.«401817_j18751827214892_1_alg».proof.Proof.Gen.KernelIdeal.Frame
import proofs.«401817_j18751827214892_1_alg».proof.Proof.Spec
import Idealize.ShloMosaic.PureOps.Ideal
import Idealize.ShloMosaic.PureOps.Ideal.Laws
import Idealize.ShloMosaic.Lib.StableHlo.Run
import proofs.«401817_j18751827214892_1_alg».proof.Proof.RegMatmul3
import proofs.«401817_j18751827214892_1_alg».proof.Proof.RegScale4
import proofs.«401817_j18751827214892_1_alg».proof.Proof.RegFin5
import proofs.«401817_j18751827214892_1_alg».proof.Proof.KChainL1
set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! After the second layer (the exit of region 5). -/

/-! The buffers the layer's two host stretches write. -/

private abbrev hostOps4_W : List (Ref sig .tc) := [main_c_10, main_v45, main_v46, main_c_11, main_v47, main_v48, main_v49, main_v50, main_v51]
private theorem hostOps4_writes : (hostOps4 : List (HloOp τ sig (Elt Ideal))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
private abbrev hostOps5_W : List (Ref sig .tc) := [main_cst_12, main_v53, main_v54, main_v55]
private theorem hostOps5_writes : (hostOps5 : List (HloOp τ sig (Elt Ideal))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-! A buffer that is no array of the layer's regions and that no host stretch of the layer writes holds, at each
    boundary of the layer, what it held at the layer's entry. -/

private theorem W8_keep (c : Dev nD) (r : Ref sig .tc) (h3 : ∀ w, Pipeline.arrRef spec3 w ≠ r) (h4 : r ∉ hostOps4_W) :
    W8 m ρ c (Proc.devRef .tc r) = W6 m ρ c (Proc.devRef .tc r) :=
  (StableHlo.after_of_writes_sub hostOps4 _ hostOps4_writes h4).trans (W7_of_ne m ρ c r h3)
private theorem W9_keep (c : Dev nD) (r : Ref sig .tc) (h3 : ∀ w, Pipeline.arrRef spec3 w ≠ r) (h4 : r ∉ hostOps4_W)
    (h5 : ∀ w, Pipeline.arrRef spec4 w ≠ r) : W9 m ρ c (Proc.devRef .tc r) = W6 m ρ c (Proc.devRef .tc r) :=
  (W9_of_ne m ρ c r h5).trans (W8_keep m ρ c r h3 h4)
private theorem W10_keep (c : Dev nD) (r : Ref sig .tc) (h3 : ∀ w, Pipeline.arrRef spec3 w ≠ r) (h4 : r ∉ hostOps4_W)
    (h5 : ∀ w, Pipeline.arrRef spec4 w ≠ r) (h6 : r ∉ hostOps5_W) : W10 m ρ c (Proc.devRef .tc r) = W6 m ρ c (Proc.devRef .tc r) :=
  (StableHlo.after_of_writes_sub hostOps5 _ hostOps5_writes h6).trans (W9_keep m ρ c r h3 h4 h5)
private theorem W11_keep (c : Dev nD) (r : Ref sig .tc) (h3 : ∀ w, Pipeline.arrRef spec3 w ≠ r) (h4 : r ∉ hostOps4_W)
    (h5 : ∀ w, Pipeline.arrRef spec4 w ≠ r) (h6 : r ∉ hostOps5_W) (h7 : ∀ w, Pipeline.arrRef spec5 w ≠ r) :
    W11 m ρ c (Proc.devRef .tc r) = W6 m ρ c (Proc.devRef .tc r) :=
  (W11_of_ne m ρ c r h7).trans (W10_keep m ρ c r h3 h4 h5 h6)

/-! The dense product of the layer (region 3). -/

private theorem W7_v44 (c : Dev nD) : W7 m ρ c (Proc.devRef .tc main_v44) = (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5))) := by
  have h43 : V6 m ρ c main_v43 = (Cert.Spec.layerOf (m ((c : Thread nD τ).loc main_arg1)) (Cert.Spec.dense (m ((c : Thread nD τ).loc main_arg0)) (m ((c : Thread nD τ).loc main_arg3))) (m ((c : Thread nD τ).loc main_arg4))) := W6_v43 m ρ c
  have h5 : V6 m ρ c main_arg5 = (m ((c : Thread nD τ).loc main_arg5)) := W6_arg5 m ρ c
  refine (W7_arr m ρ c 2).trans ((Cert.KernelIdeal.RegV.arr3 (V6 m ρ) c).trans ?_)
  rw [h43, h5]
private theorem W7_v1 (c : Dev nD) : W7 m ρ c (Proc.devRef .tc main_v1) = Cert.Spec.srcOf (m ((c : Thread nD τ).loc main_arg1)) :=
  (W7_of_ne m ρ c main_v1 (by decide)).trans (W6_v1 m ρ c)

/-! The rows of the product at the edges' sources (the first host stretch). -/

private theorem W8_v51 (c : Dev nD) : W8 m ρ c (Proc.devRef .tc main_v51) = Cert.Spec.gatherSrc (m ((c : Thread nD τ).loc main_arg1)) (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5))) := by
  show StableHlo.after hostOps4 _ (Proc.devRef .tc main_v51) = _
  after_results
  rw [W7_v44, W7_v1]
  rfl
private theorem W8_v30 (c : Dev nD) : W8 m ρ c (Proc.devRef .tc main_v30) = Cert.Spec.coefCol (m ((c : Thread nD τ).loc main_arg1)) :=
  (W8_keep m ρ c main_v30 (by decide) (by decide)).trans (W6_v30 m ρ c)

/-! The rows multiplied by the edge weights (region 4). -/

private theorem W9_v52 (c : Dev nD) : W9 m ρ c (Proc.devRef .tc main_v52) = Cert.Spec.scaleRows (Cert.Spec.gatherSrc (m ((c : Thread nD τ).loc main_arg1)) (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5)))) (Cert.Spec.coefCol (m ((c : Thread nD τ).loc main_arg1))) := by
  have h51 : V8 m ρ c main_v51 = Cert.Spec.gatherSrc (m ((c : Thread nD τ).loc main_arg1)) (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5))) := W8_v51 m ρ c
  have h30 : V8 m ρ c main_v30 = Cert.Spec.coefCol (m ((c : Thread nD τ).loc main_arg1)) := W8_v30 m ρ c
  refine (W9_arr m ρ c 2).trans ((Cert.KernelIdeal.RegV.arr4 (V8 m ρ) c).trans ?_)
  rw [h51, h30]
private theorem W9_v3 (c : Dev nD) : W9 m ρ c (Proc.devRef .tc main_v3) = Cert.Spec.dstOf (m ((c : Thread nD τ).loc main_arg1)) :=
  (W9_keep m ρ c main_v3 (by decide) (by decide) (by decide)).trans (W6_v3 m ρ c)
private theorem W9_v30 (c : Dev nD) : W9 m ρ c (Proc.devRef .tc main_v30) = Cert.Spec.coefCol (m ((c : Thread nD τ).loc main_arg1)) :=
  ((W9_arr m ρ c 1).trans (((dat4 (V8 m ρ) c).arrAt_in 1 rfl _).trans (A_eq4 (V8 m ρ) c 1))).trans (W8_v30 m ρ c)

/-! The weighted rows summed into the edges' targets (the second host stretch). -/

private theorem W10_v55 (c : Dev nD) : W10 m ρ c (Proc.devRef .tc main_v55) = Cert.Spec.scatterDst (m ((c : Thread nD τ).loc main_arg1)) (Cert.Spec.scaleRows (Cert.Spec.gatherSrc (m ((c : Thread nD τ).loc main_arg1)) (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5)))) (Cert.Spec.coefCol (m ((c : Thread nD τ).loc main_arg1)))) := by
  show StableHlo.after hostOps5 _ (Proc.devRef .tc main_v55) = _
  after_results
  rw [W9_v52, W9_v3]
  rfl
private theorem W10_v44 (c : Dev nD) : W10 m ρ c (Proc.devRef .tc main_v44) = (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5))) :=
  ((StableHlo.after_of_writes_sub hostOps5 _ hostOps5_writes (by decide)).trans ((W9_of_ne m ρ c main_v44 (by decide)).trans
    (StableHlo.after_of_writes_sub hostOps4 _ hostOps4_writes (by decide)))).trans (W7_v44 m ρ c)
private theorem W10_v14 (c : Dev nD) : W10 m ρ c (Proc.devRef .tc main_v14) = Cert.Spec.degInvCol (m ((c : Thread nD τ).loc main_arg1)) :=
  (W10_keep m ρ c main_v14 (by decide) (by decide) (by decide) (by decide)).trans (W6_v14 m ρ c)
private theorem W10_arg6 (c : Dev nD) : W10 m ρ c (Proc.devRef .tc main_arg6) = (m ((c : Thread nD τ).loc main_arg6)) :=
  (W10_keep m ρ c main_arg6 (by decide) (by decide) (by decide) (by decide)).trans (W6_arg6 m ρ c)

/-! The layer's output (region 5), and what later segments still read. -/

theorem W11_v56 (c : Dev nD) : W11 m ρ c (Proc.devRef .tc main_v56) = (Cert.Spec.layerOf (m ((c : Thread nD τ).loc main_arg1)) (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5))) (m ((c : Thread nD τ).loc main_arg6))) := by
  have h55 : V10 m ρ c main_v55 = Cert.Spec.scatterDst (m ((c : Thread nD τ).loc main_arg1)) (Cert.Spec.scaleRows (Cert.Spec.gatherSrc (m ((c : Thread nD τ).loc main_arg1)) (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5)))) (Cert.Spec.coefCol (m ((c : Thread nD τ).loc main_arg1)))) := W10_v55 m ρ c
  have h44 : V10 m ρ c main_v44 = (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5))) := W10_v44 m ρ c
  have h14 : V10 m ρ c main_v14 = Cert.Spec.degInvCol (m ((c : Thread nD τ).loc main_arg1)) := W10_v14 m ρ c
  have h6 : V10 m ρ c main_arg6 = (m ((c : Thread nD τ).loc main_arg6)) := W10_arg6 m ρ c
  refine (W11_arr m ρ c 4).trans ((Cert.KernelIdeal.RegV.arr5 (V10 m ρ) c).trans ?_)
  rw [h55, h44, h14, h6]
  rfl
theorem W11_v1 (c : Dev nD) : W11 m ρ c (Proc.devRef .tc main_v1) = Cert.Spec.srcOf (m ((c : Thread nD τ).loc main_arg1)) := (W11_keep m ρ c main_v1 (by decide) (by decide) (by decide) (by decide) (by decide)).trans (W6_v1 m ρ c)
theorem W11_v3 (c : Dev nD) : W11 m ρ c (Proc.devRef .tc main_v3) = Cert.Spec.dstOf (m ((c : Thread nD τ).loc main_arg1)) := (W11_keep m ρ c main_v3 (by decide) (by decide) (by decide) (by decide) (by decide)).trans (W6_v3 m ρ c)
theorem W11_v14 (c : Dev nD) : W11 m ρ c (Proc.devRef .tc main_v14) = Cert.Spec.degInvCol (m ((c : Thread nD τ).loc main_arg1)) := ((W11_arr m ρ c 2).trans (((dat5 (V10 m ρ) c).arrAt_in 2 rfl _).trans (A_eq5 (V10 m ρ) c 2))).trans (W10_v14 m ρ c)
theorem W11_v30 (c : Dev nD) : W11 m ρ c (Proc.devRef .tc main_v30) = Cert.Spec.coefCol (m ((c : Thread nD τ).loc main_arg1)) := ((W11_of_ne m ρ c main_v30 (by decide)).trans ((StableHlo.after_of_writes_sub hostOps5 _ hostOps5_writes (by decide)).trans (W9_v30 m ρ c)))
theorem W11_arg2 (c : Dev nD) : W11 m ρ c (Proc.devRef .tc main_arg2) = m ((c : Thread nD τ).loc main_arg2) := (W11_keep m ρ c main_arg2 (by decide) (by decide) (by decide) (by decide) (by decide)).trans (W6_arg2 m ρ c)
theorem W11_arg7 (c : Dev nD) : W11 m ρ c (Proc.devRef .tc main_arg7) = m ((c : Thread nD τ).loc main_arg7) := (W11_keep m ρ c main_arg7 (by decide) (by decide) (by decide) (by decide) (by decide)).trans (W6_arg7 m ρ c)
theorem W11_arg8 (c : Dev nD) : W11 m ρ c (Proc.devRef .tc main_arg8) = m ((c : Thread nD τ).loc main_arg8) := (W11_keep m ρ c main_arg8 (by decide) (by decide) (by decide) (by decide) (by decide)).trans (W6_arg8 m ρ c)
theorem W11_arg9 (c : Dev nD) : W11 m ρ c (Proc.devRef .tc main_arg9) = m ((c : Thread nD τ).loc main_arg9) := (W11_keep m ρ c main_arg9 (by decide) (by decide) (by decide) (by decide) (by decide)).trans (W6_arg9 m ρ c)
theorem W11_arg10 (c : Dev nD) : W11 m ρ c (Proc.devRef .tc main_arg10) = m ((c : Thread nD τ).loc main_arg10) := (W11_keep m ρ c main_arg10 (by decide) (by decide) (by decide) (by decide) (by decide)).trans (W6_arg10 m ρ c)
theorem W11_arg11 (c : Dev nD) : W11 m ρ c (Proc.devRef .tc main_arg11) = m ((c : Thread nD τ).loc main_arg11) := (W11_keep m ρ c main_arg11 (by decide) (by decide) (by decide) (by decide) (by decide)).trans (W6_arg11 m ρ c)
theorem W11_arg12 (c : Dev nD) : W11 m ρ c (Proc.devRef .tc main_arg12) = m ((c : Thread nD τ).loc main_arg12) := (W11_keep m ρ c main_arg12 (by decide) (by decide) (by decide) (by decide) (by decide)).trans (W6_arg12 m ρ c)

end Cert.KernelIdeal.Chain

end
-- ==== Proof.KChainL3.lean ====
import proofs.«401817_j18751827214892_1_alg».proof.Proof.Gen.KernelIdeal.Frame
import proofs.«401817_j18751827214892_1_alg».proof.Proof.Spec
import Idealize.ShloMosaic.PureOps.Ideal
import Idealize.ShloMosaic.PureOps.Ideal.Laws
import Idealize.ShloMosaic.Lib.StableHlo.Run
import proofs.«401817_j18751827214892_1_alg».proof.Proof.RegMatmul6
import proofs.«401817_j18751827214892_1_alg».proof.Proof.RegScale7
import proofs.«401817_j18751827214892_1_alg».proof.Proof.RegFin8
import proofs.«401817_j18751827214892_1_alg».proof.Proof.KChainL2
set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! After the third layer (the exit of region 8). -/

/-! The buffers the layer's two host stretches write. -/

private abbrev hostOps7_W : List (Ref sig .tc) := [main_c_13, main_v58, main_v59, main_c_14, main_v60, main_v61, main_v62, main_v63, main_v64]
private theorem hostOps7_writes : (hostOps7 : List (HloOp τ sig (Elt Ideal))).Forall fun op => op.writes ⊆ (hostOps7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
private abbrev hostOps8_W : List (Ref sig .tc) := [main_cst_15, main_v66, main_v67, main_v68]
private theorem hostOps8_writes : (hostOps8 : List (HloOp τ sig (Elt Ideal))).Forall fun op => op.writes ⊆ (hostOps8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-! A buffer that is no array of the layer's regions and that no host stretch of the layer writes holds, at each
    boundary of the layer, what it held at the layer's entry. -/

private theorem W13_keep (c : Dev nD) (r : Ref sig .tc) (h3 : ∀ w, Pipeline.arrRef spec6 w ≠ r) (h4 : r ∉ hostOps7_W) :
    W13 m ρ c (Proc.devRef .tc r) = W11 m ρ c (Proc.devRef .tc r) :=
  (StableHlo.after_of_writes_sub hostOps7 _ hostOps7_writes h4).trans (W12_of_ne m ρ c r h3)
private theorem W14_keep (c : Dev nD) (r : Ref sig .tc) (h3 : ∀ w, Pipeline.arrRef spec6 w ≠ r) (h4 : r ∉ hostOps7_W)
    (h5 : ∀ w, Pipeline.arrRef spec7 w ≠ r) : W14 m ρ c (Proc.devRef .tc r) = W11 m ρ c (Proc.devRef .tc r) :=
  (W14_of_ne m ρ c r h5).trans (W13_keep m ρ c r h3 h4)
private theorem W15_keep (c : Dev nD) (r : Ref sig .tc) (h3 : ∀ w, Pipeline.arrRef spec6 w ≠ r) (h4 : r ∉ hostOps7_W)
    (h5 : ∀ w, Pipeline.arrRef spec7 w ≠ r) (h6 : r ∉ hostOps8_W) : W15 m ρ c (Proc.devRef .tc r) = W11 m ρ c (Proc.devRef .tc r) :=
  (StableHlo.after_of_writes_sub hostOps8 _ hostOps8_writes h6).trans (W14_keep m ρ c r h3 h4 h5)
private theorem W16_keep (c : Dev nD) (r : Ref sig .tc) (h3 : ∀ w, Pipeline.arrRef spec6 w ≠ r) (h4 : r ∉ hostOps7_W)
    (h5 : ∀ w, Pipeline.arrRef spec7 w ≠ r) (h6 : r ∉ hostOps8_W) (h7 : ∀ w, Pipeline.arrRef spec8 w ≠ r) :
    W16 m ρ c (Proc.devRef .tc r) = W11 m ρ c (Proc.devRef .tc r) :=
  (W16_of_ne m ρ c r h7).trans (W15_keep m ρ c r h3 h4 h5 h6)

/-! The dense product of the layer (region 6). -/

private theorem W12_v57 (c : Dev nD) : W12 m ρ c (Proc.devRef .tc main_v57) = (Cert.Spec.dense (Cert.Spec.elu (Cert.Spec.layerOf (m ((c : Thread nD τ).loc main_arg1)) (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5))) (m ((c : Thread nD τ).loc main_arg6)))) (m ((c : Thread nD τ).loc main_arg7))) := by
  have h43 : V11 m ρ c main_v56 = (Cert.Spec.layerOf (m ((c : Thread nD τ).loc main_arg1)) (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5))) (m ((c : Thread nD τ).loc main_arg6))) := W11_v56 m ρ c
  have h5 : V11 m ρ c main_arg7 = (m ((c : Thread nD τ).loc main_arg7)) := W11_arg7 m ρ c
  refine (W12_arr m ρ c 2).trans ((Cert.KernelIdeal.RegV.arr6 (V11 m ρ) c).trans ?_)
  rw [h43, h5]
private theorem W12_v1 (c : Dev nD) : W12 m ρ c (Proc.devRef .tc main_v1) = Cert.Spec.srcOf (m ((c : Thread nD τ).loc main_arg1)) :=
  (W12_of_ne m ρ c main_v1 (by decide)).trans (W11_v1 m ρ c)

/-! The rows of the product at the edges' sources (the first host stretch). -/

private theorem W13_v64 (c : Dev nD) : W13 m ρ c (Proc.devRef .tc main_v64) = Cert.Spec.gatherSrc (m ((c : Thread nD τ).loc main_arg1)) (Cert.Spec.dense (Cert.Spec.elu (Cert.Spec.layerOf (m ((c : Thread nD τ).loc main_arg1)) (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5))) (m ((c : Thread nD τ).loc main_arg6)))) (m ((c : Thread nD τ).loc main_arg7))) := by
  show StableHlo.after hostOps7 _ (Proc.devRef .tc main_v64) = _
  after_results
  rw [W12_v57, W12_v1]
  rfl
private theorem W13_v30 (c : Dev nD) : W13 m ρ c (Proc.devRef .tc main_v30) = Cert.Spec.coefCol (m ((c : Thread nD τ).loc main_arg1)) :=
  (W13_keep m ρ c main_v30 (by decide) (by decide)).trans (W11_v30 m ρ c)

/-! The rows multiplied by the edge weights (region 7). -/

private theorem W14_v65 (c : Dev nD) : W14 m ρ c (Proc.devRef .tc main_v65) = Cert.Spec.scaleRows (Cert.Spec.gatherSrc (m ((c : Thread nD τ).loc main_arg1)) (Cert.Spec.dense (Cert.Spec.elu (Cert.Spec.layerOf (m ((c : Thread nD τ).loc main_arg1)) (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5))) (m ((c : Thread nD τ).loc main_arg6)))) (m ((c : Thread nD τ).loc main_arg7)))) (Cert.Spec.coefCol (m ((c : Thread nD τ).loc main_arg1))) := by
  have h51 : V13 m ρ c main_v64 = Cert.Spec.gatherSrc (m ((c : Thread nD τ).loc main_arg1)) (Cert.Spec.dense (Cert.Spec.elu (Cert.Spec.layerOf (m ((c : Thread nD τ).loc main_arg1)) (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5))) (m ((c : Thread nD τ).loc main_arg6)))) (m ((c : Thread nD τ).loc main_arg7))) := W13_v64 m ρ c
  have h30 : V13 m ρ c main_v30 = Cert.Spec.coefCol (m ((c : Thread nD τ).loc main_arg1)) := W13_v30 m ρ c
  refine (W14_arr m ρ c 2).trans ((Cert.KernelIdeal.RegV.arr7 (V13 m ρ) c).trans ?_)
  rw [h51, h30]
private theorem W14_v3 (c : Dev nD) : W14 m ρ c (Proc.devRef .tc main_v3) = Cert.Spec.dstOf (m ((c : Thread nD τ).loc main_arg1)) :=
  (W14_keep m ρ c main_v3 (by decide) (by decide) (by decide)).trans (W11_v3 m ρ c)
private theorem W14_v30 (c : Dev nD) : W14 m ρ c (Proc.devRef .tc main_v30) = Cert.Spec.coefCol (m ((c : Thread nD τ).loc main_arg1)) :=
  ((W14_arr m ρ c 1).trans (((dat7 (V13 m ρ) c).arrAt_in 1 rfl _).trans (A_eq7 (V13 m ρ) c 1))).trans (W13_v30 m ρ c)

/-! The weighted rows summed into the edges' targets (the second host stretch). -/

private theorem W15_v68 (c : Dev nD) : W15 m ρ c (Proc.devRef .tc main_v68) = Cert.Spec.scatterDst (m ((c : Thread nD τ).loc main_arg1)) (Cert.Spec.scaleRows (Cert.Spec.gatherSrc (m ((c : Thread nD τ).loc main_arg1)) (Cert.Spec.dense (Cert.Spec.elu (Cert.Spec.layerOf (m ((c : Thread nD τ).loc main_arg1)) (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5))) (m ((c : Thread nD τ).loc main_arg6)))) (m ((c : Thread nD τ).loc main_arg7)))) (Cert.Spec.coefCol (m ((c : Thread nD τ).loc main_arg1)))) := by
  show StableHlo.after hostOps8 _ (Proc.devRef .tc main_v68) = _
  after_results
  rw [W14_v65, W14_v3]
  rfl
private theorem W15_v57 (c : Dev nD) : W15 m ρ c (Proc.devRef .tc main_v57) = (Cert.Spec.dense (Cert.Spec.elu (Cert.Spec.layerOf (m ((c : Thread nD τ).loc main_arg1)) (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5))) (m ((c : Thread nD τ).loc main_arg6)))) (m ((c : Thread nD τ).loc main_arg7))) :=
  ((StableHlo.after_of_writes_sub hostOps8 _ hostOps8_writes (by decide)).trans ((W14_of_ne m ρ c main_v57 (by decide)).trans
    (StableHlo.after_of_writes_sub hostOps7 _ hostOps7_writes (by decide)))).trans (W12_v57 m ρ c)
private theorem W15_v14 (c : Dev nD) : W15 m ρ c (Proc.devRef .tc main_v14) = Cert.Spec.degInvCol (m ((c : Thread nD τ).loc main_arg1)) :=
  (W15_keep m ρ c main_v14 (by decide) (by decide) (by decide) (by decide)).trans (W11_v14 m ρ c)
private theorem W15_arg8 (c : Dev nD) : W15 m ρ c (Proc.devRef .tc main_arg8) = (m ((c : Thread nD τ).loc main_arg8)) :=
  (W15_keep m ρ c main_arg8 (by decide) (by decide) (by decide) (by decide)).trans (W11_arg8 m ρ c)

/-! The layer's output (region 8), and what later segments still read. -/

theorem W16_v69 (c : Dev nD) : W16 m ρ c (Proc.devRef .tc main_v69) = (Cert.Spec.nodes (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  have h55 : V15 m ρ c main_v68 = Cert.Spec.scatterDst (m ((c : Thread nD τ).loc main_arg1)) (Cert.Spec.scaleRows (Cert.Spec.gatherSrc (m ((c : Thread nD τ).loc main_arg1)) (Cert.Spec.dense (Cert.Spec.elu (Cert.Spec.layerOf (m ((c : Thread nD τ).loc main_arg1)) (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5))) (m ((c : Thread nD τ).loc main_arg6)))) (m ((c : Thread nD τ).loc main_arg7)))) (Cert.Spec.coefCol (m ((c : Thread nD τ).loc main_arg1)))) := W15_v68 m ρ c
  have h44 : V15 m ρ c main_v57 = (Cert.Spec.dense (Cert.Spec.elu (Cert.Spec.layerOf (m ((c : Thread nD τ).loc main_arg1)) (Cert.Spec.dense (Cert.Spec.elu (Cert.Spec.layerOf (m ((c : Thread nD τ).loc main_arg1)) (Cert.Spec.dense (m ((c : Thread nD τ).loc main_arg0)) (m ((c : Thread nD τ).loc main_arg3))) (m ((c : Thread nD τ).loc main_arg4)))) (m ((c : Thread nD τ).loc main_arg5))) (m ((c : Thread nD τ).loc main_arg6)))) (m ((c : Thread nD τ).loc main_arg7))) := W15_v57 m ρ c
  have h14 : V15 m ρ c main_v14 = Cert.Spec.degInvCol (m ((c : Thread nD τ).loc main_arg1)) := W15_v14 m ρ c
  have h6 : V15 m ρ c main_arg8 = (m ((c : Thread nD τ).loc main_arg8)) := W15_arg8 m ρ c
  refine (W16_arr m ρ c 4).trans ((Cert.KernelIdeal.RegV.arr8 (V15 m ρ) c).trans ?_)
  rw [h55, h44, h14, h6]
  rfl
theorem W16_arg2 (c : Dev nD) : W16 m ρ c (Proc.devRef .tc main_arg2) = m ((c : Thread nD τ).loc main_arg2) := (W16_keep m ρ c main_arg2 (by decide) (by decide) (by decide) (by decide) (by decide)).trans (W11_arg2 m ρ c)
theorem W16_arg9 (c : Dev nD) : W16 m ρ c (Proc.devRef .tc main_arg9) = m ((c : Thread nD τ).loc main_arg9) := (W16_keep m ρ c main_arg9 (by decide) (by decide) (by decide) (by decide) (by decide)).trans (W11_arg9 m ρ c)
theorem W16_arg10 (c : Dev nD) : W16 m ρ c (Proc.devRef .tc main_arg10) = m ((c : Thread nD τ).loc main_arg10) := (W16_keep m ρ c main_arg10 (by decide) (by decide) (by decide) (by decide) (by decide)).trans (W11_arg10 m ρ c)
theorem W16_arg11 (c : Dev nD) : W16 m ρ c (Proc.devRef .tc main_arg11) = m ((c : Thread nD τ).loc main_arg11) := (W16_keep m ρ c main_arg11 (by decide) (by decide) (by decide) (by decide) (by decide)).trans (W11_arg11 m ρ c)
theorem W16_arg12 (c : Dev nD) : W16 m ρ c (Proc.devRef .tc main_arg12) = m ((c : Thread nD τ).loc main_arg12) := (W16_keep m ρ c main_arg12 (by decide) (by decide) (by decide) (by decide) (by decide)).trans (W11_arg12 m ρ c)

end Cert.KernelIdeal.Chain

end
-- ==== Proof.KChainT.lean ====
import proofs.«401817_j18751827214892_1_alg».proof.Proof.Gen.KernelIdeal.Frame
import proofs.«401817_j18751827214892_1_alg».proof.Proof.Spec
import Idealize.ShloMosaic.PureOps.Ideal
import Idealize.ShloMosaic.PureOps.Ideal.Laws
import Idealize.ShloMosaic.Lib.StableHlo.Run
import proofs.«401817_j18751827214892_1_alg».proof.Proof.RegPool9
import proofs.«401817_j18751827214892_1_alg».proof.Proof.KChainL3
import proofs.«401817_j18751827214892_1_alg».proof.Proof.LibColumn
set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! The three results at the last boundary, as functions of the launch contents of the arguments. -/

/-! Before the pooling region: the only buffer the stretch writes is the column of graph indices. -/

theorem W17_of_ne (c : Dev nD) (b : Ref sig .tc) (hb : b ≠ main_v70) :
    W17 m ρ c (Proc.devRef .tc b) = W16 m ρ c (Proc.devRef .tc b) :=
  StableHlo.after_of_forall_not_mem (b := Proc.devRef .tc b) _ _ (List.forall_iff_forall_mem.mp (by
    simp only [hostOps9, List.Forall, StableHlo.reshape_writes, Finset.mem_singleton]
    exact StableHlo.devRef_ne_of_ne hb))

theorem W17_v70 (c : Dev nD) :
    W17 m ρ c (Proc.devRef .tc main_v70) = Cert.Spec.batchCol (m ((c : Thread nD τ).loc main_arg2)) := by
  have h : W17 m ρ c (Proc.devRef .tc main_v70)
      = shapeCast S50000x1 (W16 m ρ c (Proc.devRef .tc main_arg2)) Facts₀.shapeCasts_S50000_S50000x1 := by
    show StableHlo.after hostOps9 _ (Proc.devRef .tc main_v70) = _
    after_results
    rfl
  rw [h, W16_arg2]
  exact ColumnLaws.reshape_eq_broadcastInDim_col _ _ _

theorem W17_v69 (c : Dev nD) : W17 m ρ c (Proc.devRef .tc main_v69) = (Cert.Spec.nodes (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W17_of_ne m ρ c main_v69 (by decide)).trans (W16_v69 m ρ c)

/-! Across the pooling region: its two outputs, and the heads' weights and biases, which it does not touch. -/

theorem W18_sum (c : Dev nD) :
    extractStridedSlice S64x128 ![0, 0] (W18 m ρ c (Proc.devRef .tc main_v71_0)) Facts₀.slices_S128x128_S64x128_0_0
      = Cert.Spec.poolSum (Cert.Spec.batchCol (m ((c : Thread nD τ).loc main_arg2))) (Cert.Spec.nodes (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  have h : W18 m ρ c (Proc.devRef .tc main_v71_0) = (dat9 (V17 m ρ) c).arrAt 2 cfg9.N := W18_arr m ρ c 2
  rw [h, Cert.KernelIdeal.RegV.arr9_sum (V17 m ρ) c]
  show Cert.Spec.poolSum (W17 m ρ c (Proc.devRef .tc main_v70)) (W17 m ρ c (Proc.devRef .tc main_v69)) = _
  rw [W17_v70, W17_v69]

theorem W18_cnt (c : Dev nD) :
    shapeCast S64 (extractStridedSlice S1x64 ![0, 0] (W18 m ρ c (Proc.devRef .tc main_v71_1)) Facts₀.slices_S1x128_S1x64_0_0) Facts₀.shapeCasts_S1x64_S64
      = Cert.Spec.poolCnt (Cert.Spec.batchCol (m ((c : Thread nD τ).loc main_arg2))) := by
  have h : W18 m ρ c (Proc.devRef .tc main_v71_1) = (dat9 (V17 m ρ) c).arrAt 3 cfg9.N := W18_arr m ρ c 3
  rw [h, Cert.KernelIdeal.RegV.arr9_cnt (V17 m ρ) c]
  show Cert.Spec.poolCnt (W17 m ρ c (Proc.devRef .tc main_v70)) = _
  rw [W17_v70]

theorem W18_arg9 (c : Dev nD) : W18 m ρ c (Proc.devRef .tc main_arg9) = m ((c : Thread nD τ).loc main_arg9) :=
  (W18_of_ne m ρ c main_arg9 (by decide)).trans ((W17_of_ne m ρ c main_arg9 (by decide)).trans (W16_arg9 m ρ c))
theorem W18_arg10 (c : Dev nD) : W18 m ρ c (Proc.devRef .tc main_arg10) = m ((c : Thread nD τ).loc main_arg10) :=
  (W18_of_ne m ρ c main_arg10 (by decide)).trans ((W17_of_ne m ρ c main_arg10 (by decide)).trans (W16_arg10 m ρ c))
theorem W18_arg11 (c : Dev nD) : W18 m ρ c (Proc.devRef .tc main_arg11) = m ((c : Thread nD τ).loc main_arg11) :=
  (W18_of_ne m ρ c main_arg11 (by decide)).trans ((W17_of_ne m ρ c main_arg11 (by decide)).trans (W16_arg11 m ρ c))
theorem W18_arg12 (c : Dev nD) : W18 m ρ c (Proc.devRef .tc main_arg12) = m ((c : Thread nD τ).loc main_arg12) :=
  (W18_of_ne m ρ c main_arg12 (by decide)).trans ((W17_of_ne m ρ c main_arg12 (by decide)).trans (W16_arg12 m ρ c))

/-! The last stretch: the mean, then the two heads. -/

theorem W19_v79 (c : Dev nD) : W19 m ρ c (Proc.devRef .tc main_v79) = (Cert.Spec.pooled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  have h : W19 m ρ c (Proc.devRef .tc main_v79) = (Cert.Spec.meanOf
          (extractStridedSlice S64x128 ![0, 0] (W18 m ρ c (Proc.devRef .tc main_v71_0)) Facts₀.slices_S128x128_S64x128_0_0)
          (shapeCast S64 (extractStridedSlice S1x64 ![0, 0] (W18 m ρ c (Proc.devRef .tc main_v71_1)) Facts₀.slices_S1x128_S1x64_0_0) Facts₀.shapeCasts_S1x64_S64)) := by
    show StableHlo.after hostOps10 _ (Proc.devRef .tc main_v79) = _
    after_results
    rfl
  rw [h, W18_sum, W18_cnt]
  rfl

theorem W19_v83 (c : Dev nD) : W19 m ρ c (Proc.devRef .tc main_v83) = Cert.Spec.headC (Cert.Spec.pooled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10)) := by
  have h : W19 m ρ c (Proc.devRef .tc main_v83)
      = Cert.Spec.headC (Cert.Spec.meanOf
          (extractStridedSlice S64x128 ![0, 0] (W18 m ρ c (Proc.devRef .tc main_v71_0)) Facts₀.slices_S128x128_S64x128_0_0)
          (shapeCast S64 (extractStridedSlice S1x64 ![0, 0] (W18 m ρ c (Proc.devRef .tc main_v71_1)) Facts₀.slices_S1x128_S1x64_0_0) Facts₀.shapeCasts_S1x64_S64)) (W18 m ρ c (Proc.devRef .tc main_arg9)) (W18 m ρ c (Proc.devRef .tc main_arg10)) := by
    show StableHlo.after hostOps10 _ (Proc.devRef .tc main_v83) = _
    after_results
    rfl
  rw [h, W18_sum, W18_cnt, W18_arg9, W18_arg10]
  rfl

theorem W19_v87 (c : Dev nD) : W19 m ρ c (Proc.devRef .tc main_v87) = Cert.Spec.headR (Cert.Spec.pooled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg11)) (m ((c : Thread nD τ).loc main_arg12)) := by
  have h : W19 m ρ c (Proc.devRef .tc main_v87)
      = Cert.Spec.headR (Cert.Spec.meanOf
          (extractStridedSlice S64x128 ![0, 0] (W18 m ρ c (Proc.devRef .tc main_v71_0)) Facts₀.slices_S128x128_S64x128_0_0)
          (shapeCast S64 (extractStridedSlice S1x64 ![0, 0] (W18 m ρ c (Proc.devRef .tc main_v71_1)) Facts₀.slices_S1x128_S1x64_0_0) Facts₀.shapeCasts_S1x64_S64)) (W18 m ρ c (Proc.devRef .tc main_arg11)) (W18 m ρ c (Proc.devRef .tc main_arg12)) := by
    show StableHlo.after hostOps10 _ (Proc.devRef .tc main_v87) = _
    after_results
    rfl
  rw [h, W18_sum, W18_cnt, W18_arg11, W18_arg12]
  rfl

end Cert.KernelIdeal.Chain

end
-- ==== Proof.RefRun.lean ====
/-
  The reference program's @main as a list of its 202 host operations, and its run.

  The three windows of @main are three lists (the two calls of the exponential linear unit written out as the
  fifteen operations of the callee's body over the call's own buffers); @main is the straight line of their
  concatenation, so every weakly fair execution terminates and leaves each buffer at the fold of the operations'
  results over the launch contents.  The same 202 operations are cut a second time where the stages of the network
  end (degrees and first product; first layer; unit; product and second layer; unit; product and third layer;
  pooling; heads), and each stage comes with the list of the references it writes: a reference outside that list
  keeps its contents through the stage.
-/
import proofs.«401817_j18751827214892_1_alg».proof.Proof.Gen.ReferenceIdeal
import proofs.«401817_j18751827214892_1_alg».proof.Proof.Spec
import Idealize.ShloMosaic.Lib.StableHlo.Run

noncomputable section

namespace Cert.ReferenceIdeal.RunV

open Cert.ReferenceIdeal Cert.ReferenceIdeal.Gen Idealize.ShloMosaic Idealize.ShloMosaic.TcCoe Idealize.SL.Sem Idealize.ShloMosaic.StableHlo

variable {F : FTy → Type} [FloatOps F]

/-- The first window's sixty operations, in order. -/
def ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (addf : (⟨S50000, .f32⟩ : BufTy).Contents (Elt F) → (⟨S50000, .f32⟩ : BufTy).Contents (Elt F) → (⟨S50000, .f32⟩ : BufTy).Contents (Elt F)),
    StableHlo.nullary main_cst_2 (constant S_ .f32 0xBF000000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v9 main_v10 main_v11 (Host.powf : (⟨S50000, .f32⟩ : BufTy).Contents (Elt F) → (⟨S50000, .f32⟩ : BufTy).Contents (Elt F) → (⟨S50000, .f32⟩ : BufTy).Contents (Elt F)),
    StableHlo.nullary main_cst_3 (constant S_ .f32 0x3F800000#32),
    StableHlo.unary main_cst_3 main_v12 (broadcastInDim S50000 ![] bcast_S_S50000 : (⟨S_, .f32⟩ : BufTy).Contents (Elt F) → (⟨S50000, .f32⟩ : BufTy).Contents (Elt F)),
    StableHlo.binary main_v12 main_v9 main_v13 (Host.divf : (⟨S50000, .f32⟩ : BufTy).Contents (Elt F) → (⟨S50000, .f32⟩ : BufTy).Contents (Elt F) → (⟨S50000, .f32⟩ : BufTy).Contents (Elt F)),
    StableHlo.binary main_arg0 main_arg3 main_v14 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c (constantI S_ 32 0#32),
    StableHlo.unary main_c main_v15 (broadcastInDim S1600000 ![] bcast_S_S1600000 : (⟨S_, .i32⟩ : BufTy).Contents (Elt F) → (⟨S1600000, .i32⟩ : BufTy).Contents (Elt F)),
    StableHlo.binary main_v1 main_v15 main_v16 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 50000#32),
    StableHlo.unary main_c_4 main_v17 (broadcastInDim S1600000 ![] bcast_S_S1600000 : (⟨S_, .i32⟩ : BufTy).Contents (Elt F) → (⟨S1600000, .i32⟩ : BufTy).Contents (Elt F)),
    StableHlo.binary main_v1 main_v17 main_v18 (addi : (⟨S1600000, .i32⟩ : BufTy).Contents (Elt F) → (⟨S1600000, .i32⟩ : BufTy).Contents (Elt F) → (⟨S1600000, .i32⟩ : BufTy).Contents (Elt F)),
    StableHlo.ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v19 main_v20 (broadcastInDim S1600000x1 ![0] bcast_S1600000_S1600000x1_0 : (⟨S1600000, .i32⟩ : BufTy).Contents (Elt F) → (⟨S1600000x1, .i32⟩ : BufTy).Contents (Elt F)),
    StableHlo.binary main_v11 main_v20 main_v21 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.nullary main_c_5 (constantI S_ 32 0#32),
    StableHlo.unary main_c_5 main_v22 (broadcastInDim S1600000 ![] bcast_S_S1600000 : (⟨S_, .i32⟩ : BufTy).Contents (Elt F) → (⟨S1600000, .i32⟩ : BufTy).Contents (Elt F)),
    StableHlo.binary main_v3 main_v22 main_v23 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 50000#32),
    StableHlo.unary main_c_6 main_v24 (broadcastInDim S1600000 ![] bcast_S_S1600000 : (⟨S_, .i32⟩ : BufTy).Contents (Elt F) → (⟨S1600000, .i32⟩ : BufTy).Contents (Elt F)),
    StableHlo.binary main_v3 main_v24 main_v25 (addi : (⟨S1600000, .i32⟩ : BufTy).Contents (Elt F) → (⟨S1600000, .i32⟩ : BufTy).Contents (Elt F) → (⟨S1600000, .i32⟩ : BufTy).Contents (Elt F)),
    StableHlo.ternary main_v23 main_v25 main_v3 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v26 main_v27 (broadcastInDim S1600000x1 ![0] bcast_S1600000_S1600000x1_0 : (⟨S1600000, .i32⟩ : BufTy).Contents (Elt F) → (⟨S1600000x1, .i32⟩ : BufTy).Contents (Elt F)),
    StableHlo.binary main_v11 main_v27 main_v28 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v21 main_v28 main_v29 (mulf : (⟨S1600000, .f32⟩ : BufTy).Contents (Elt F) → (⟨S1600000, .f32⟩ : BufTy).Contents (Elt F) → (⟨S1600000, .f32⟩ : BufTy).Contents (Elt F)),
    StableHlo.unary main_v29 main_v30 (broadcastInDim S1600000x1 ![0] bcast_S1600000_S1600000x1_0 : (⟨S1600000, .f32⟩ : BufTy).Contents (Elt F) → (⟨S1600000x1, .f32⟩ : BufTy).Contents (Elt F)),
    StableHlo.nullary main_c_7 (constantI S_ 32 0#32),
    StableHlo.unary main_c_7 main_v31 (broadcastInDim S1600000 ![] bcast_S_S1600000 : (⟨S_, .i32⟩ : BufTy).Contents (Elt F) → (⟨S1600000, .i32⟩ : BufTy).Contents (Elt F)),
    StableHlo.binary main_v1 main_v31 main_v32 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 50000#32),
    StableHlo.unary main_c_8 main_v33 (broadcastInDim S1600000 ![] bcast_S_S1600000 : (⟨S_, .i32⟩ : BufTy).Contents (Elt F) → (⟨S1600000, .i32⟩ : BufTy).Contents (Elt F)),
    StableHlo.binary main_v1 main_v33 main_v34 (addi : (⟨S1600000, .i32⟩ : BufTy).Contents (Elt F) → (⟨S1600000, .i32⟩ : BufTy).Contents (Elt F) → (⟨S1600000, .i32⟩ : BufTy).Contents (Elt F)),
    StableHlo.ternary main_v32 main_v34 main_v1 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v35 main_v36 (broadcastInDim S1600000x1 ![0] bcast_S1600000_S1600000x1_0 : (⟨S1600000, .i32⟩ : BufTy).Contents (Elt F) → (⟨S1600000x1, .i32⟩ : BufTy).Contents (Elt F)),
    StableHlo.binary main_v14 main_v36 main_v37 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.unary main_v30 main_v38 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v37 main_v38 main_v39 (mulf : (⟨S1600000x128, .f32⟩ : BufTy).Contents (Elt F) → (⟨S1600000x128, .f32⟩ : BufTy).Contents (Elt F) → (⟨S1600000x128, .f32⟩ : BufTy).Contents (Elt F)),
    StableHlo.nullary main_cst_9 (constant S_ .f32 0x00000000#32),
    StableHlo.unary main_cst_9 main_v40 (broadcastInDim S50000x128 ![] bcast_S_S50000x128 : (⟨S_, .f32⟩ : BufTy).Contents (Elt F) → (⟨S50000x128, .f32⟩ : BufTy).Contents (Elt F)),
    StableHlo.unary main_v3 main_v41 (broadcastInDim S1600000x1 ![0] bcast_S1600000_S1600000x1_0 : (⟨S1600000, .i32⟩ : BufTy).Contents (Elt F) → (⟨S1600000x1, .i32⟩ : BufTy).Contents (Elt F)),
    StableHlo.ternary main_v40 main_v41 main_v39 main_v42 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_v13 main_v43 (broadcastInDim S50000x1 ![0] bcast_S50000_S50000x1_0 : (⟨S50000, .f32⟩ : BufTy).Contents (Elt F) → (⟨S50000x1, .f32⟩ : BufTy).Contents (Elt F)),
    StableHlo.unary main_v43 main_v44 (broadcastInDim S50000x128 ![0, 1] bcast_S50000x1_S50000x128_0_1 : (⟨S50000x1, .f32⟩ : BufTy).Contents (Elt F) → (⟨S50000x128, .f32⟩ : BufTy).Contents (Elt F)),
    StableHlo.binary main_v14 main_v44 main_v45 (mulf : (⟨S50000x128, .f32⟩ : BufTy).Contents (Elt F) → (⟨S50000x128, .f32⟩ : BufTy).Contents (Elt F) → (⟨S50000x128, .f32⟩ : BufTy).Contents (Elt F)),
    StableHlo.binary main_v42 main_v45 main_v46 (addf : (⟨S50000x128, .f32⟩ : BufTy).Contents (Elt F) → (⟨S50000x128, .f32⟩ : BufTy).Contents (Elt F) → (⟨S50000x128, .f32⟩ : BufTy).Contents (Elt F)),
    StableHlo.unary main_arg4 main_v47 (broadcastInDim S1x128 ![1] bcast_S128_S1x128_1 : (⟨S128, .f32⟩ : BufTy).Contents (Elt F) → (⟨S1x128, .f32⟩ : BufTy).Contents (Elt F)) ]

set_option maxRecDepth 8192 in
set_option maxHeartbeats 4000000 in
/-- The window is the straight line of its operations. -/
theorem main_part0_eq (c : Dev nD) : main_part0 (F := F) c = seq ops0 := rfl

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The second window's operations, in order, each of the two calls of the exponential linear unit replaced by the fifteen operations of its body over that call's buffers. -/
def ops1 : List (HloOp τ sig (Elt F)) :=
  [ StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v48 main_v49 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (TRef.of main_v49 : TRef sig ⟨S50000x128, .f32⟩) main_call0.v0 main_call0.v1 (cmpf .ogt),
    TRef.nullary main_call0.cst_0 (constant S_ .f32 0x00000000#32),
    TRef.unary main_call0.cst_0 main_call0.v2 (broadcastInDim S50000x128 ![] bcast_S_S50000x128),
    TRef.binary (TRef.of main_v49 : TRef sig ⟨S50000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x128 ![] bcast_S_S50000x128),
    TRef.ternary main_call0.v3 main_call0.call0.v1 (TRef.of main_v49 : TRef sig ⟨S50000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S50000x128 ![] bcast_S_S50000x128),
    TRef.binary main_call0.v6 main_call0.v5 main_call0.v7 mulf,
    TRef.ternary main_call0.v1 (TRef.of main_v49 : TRef sig ⟨S50000x128, .f32⟩) main_call0.v7 main_call0.call1.v0 select,
    StableHlo.binary main_v50 main_arg5 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_10 (constantI S_ 32 0#32),
    StableHlo.unary main_c_10 main_v52 (broadcastInDim S1600000 ![] bcast_S_S1600000 : (⟨S_, .i32⟩ : BufTy).Contents (Elt F) → (⟨S1600000, .i32⟩ : BufTy).Contents (Elt F)),
    StableHlo.binary main_v1 main_v52 main_v53 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 50000#32),
    StableHlo.unary main_c_11 main_v54 (broadcastInDim S1600000 ![] bcast_S_S1600000 : (⟨S_, .i32⟩ : BufTy).Contents (Elt F) → (⟨S1600000, .i32⟩ : BufTy).Contents (Elt F)),
    StableHlo.binary main_v1 main_v54 main_v55 (addi : (⟨S1600000, .i32⟩ : BufTy).Contents (Elt F) → (⟨S1600000, .i32⟩ : BufTy).Contents (Elt F) → (⟨S1600000, .i32⟩ : BufTy).Contents (Elt F)),
    StableHlo.ternary main_v53 main_v55 main_v1 main_v56 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v56 main_v57 (broadcastInDim S1600000x1 ![0] bcast_S1600000_S1600000x1_0 : (⟨S1600000, .i32⟩ : BufTy).Contents (Elt F) → (⟨S1600000x1, .i32⟩ : BufTy).Contents (Elt F)),
    StableHlo.binary main_v11 main_v57 main_v58 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.nullary main_c_12 (constantI S_ 32 0#32),
    StableHlo.unary main_c_12 main_v59 (broadcastInDim S1600000 ![] bcast_S_S1600000 : (⟨S_, .i32⟩ : BufTy).Contents (Elt F) → (⟨S1600000, .i32⟩ : BufTy).Contents (Elt F)),
    StableHlo.binary main_v3 main_v59 main_v60 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 50000#32),
    StableHlo.unary main_c_13 main_v61 (broadcastInDim S1600000 ![] bcast_S_S1600000 : (⟨S_, .i32⟩ : BufTy).Contents (Elt F) → (⟨S1600000, .i32⟩ : BufTy).Contents (Elt F)),
    StableHlo.binary main_v3 main_v61 main_v62 (addi : (⟨S1600000, .i32⟩ : BufTy).Contents (Elt F) → (⟨S1600000, .i32⟩ : BufTy).Contents (Elt F) → (⟨S1600000, .i32⟩ : BufTy).Contents (Elt F)),
    StableHlo.ternary main_v60 main_v62 main_v3 main_v63 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v63 main_v64 (broadcastInDim S1600000x1 ![0] bcast_S1600000_S1600000x1_0 : (⟨S1600000, .i32⟩ : BufTy).Contents (Elt F) → (⟨S1600000x1, .i32⟩ : BufTy).Contents (Elt F)),
    StableHlo.binary main_v11 main_v64 main_v65 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v58 main_v65 main_v66 (mulf : (⟨S1600000, .f32⟩ : BufTy).Contents (Elt F) → (⟨S1600000, .f32⟩ : BufTy).Contents (Elt F) → (⟨S1600000, .f32⟩ : BufTy).Contents (Elt F)),
    StableHlo.unary main_v66 main_v67 (broadcastInDim S1600000x1 ![0] bcast_S1600000_S1600000x1_0 : (⟨S1600000, .f32⟩ : BufTy).Contents (Elt F) → (⟨S1600000x1, .f32⟩ : BufTy).Contents (Elt F)),
    StableHlo.nullary main_c_14 (constantI S_ 32 0#32),
    StableHlo.unary main_c_14 main_v68 (broadcastInDim S1600000 ![] bcast_S_S1600000 : (⟨S_, .i32⟩ : BufTy).Contents (Elt F) → (⟨S1600000, .i32⟩ : BufTy).Contents (Elt F)),
    StableHlo.binary main_v1 main_v68 main_v69 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 50000#32),
    StableHlo.unary main_c_15 main_v70 (broadcastInDim S1600000 ![] bcast_S_S1600000 : (⟨S_, .i32⟩ : BufTy).Contents (Elt F) → (⟨S1600000, .i32⟩ : BufTy).Contents (Elt F)),
    StableHlo.binary main_v1 main_v70 main_v71 (addi : (⟨S1600000, .i32⟩ : BufTy).Contents (Elt F) → (⟨S1600000, .i32⟩ : BufTy).Contents (Elt F) → (⟨S1600000, .i32⟩ : BufTy).Contents (Elt F)),
    StableHlo.ternary main_v69 main_v71 main_v1 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v72 main_v73 (broadcastInDim S1600000x1 ![0] bcast_S1600000_S1600000x1_0 : (⟨S1600000, .i32⟩ : BufTy).Contents (Elt F) → (⟨S1600000x1, .i32⟩ : BufTy).Contents (Elt F)),
    StableHlo.binary main_v51 main_v73 main_v74 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.unary main_v67 main_v75 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v74 main_v75 main_v76 (mulf : (⟨S1600000x128, .f32⟩ : BufTy).Contents (Elt F) → (⟨S1600000x128, .f32⟩ : BufTy).Contents (Elt F) → (⟨S1600000x128, .f32⟩ : BufTy).Contents (Elt F)),
    StableHlo.nullary main_cst_16 (constant S_ .f32 0x00000000#32),
    StableHlo.unary main_cst_16 main_v77 (broadcastInDim S50000x128 ![] bcast_S_S50000x128 : (⟨S_, .f32⟩ : BufTy).Contents (Elt F) → (⟨S50000x128, .f32⟩ : BufTy).Contents (Elt F)),
    StableHlo.unary main_v3 main_v78 (broadcastInDim S1600000x1 ![0] bcast_S1600000_S1600000x1_0 : (⟨S1600000, .i32⟩ : BufTy).Contents (Elt F) → (⟨S1600000x1, .i32⟩ : BufTy).Contents (Elt F)),
    StableHlo.ternary main_v77 main_v78 main_v76 main_v79 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_v13 main_v80 (broadcastInDim S50000x1 ![0] bcast_S50000_S50000x1_0 : (⟨S50000, .f32⟩ : BufTy).Contents (Elt F) → (⟨S50000x1, .f32⟩ : BufTy).Contents (Elt F)),
    StableHlo.unary main_v80 main_v81 (broadcastInDim S50000x128 ![0, 1] bcast_S50000x1_S50000x128_0_1 : (⟨S50000x1, .f32⟩ : BufTy).Contents (Elt F) → (⟨S50000x128, .f32⟩ : BufTy).Contents (Elt F)),
    StableHlo.binary main_v51 main_v81 main_v82 (mulf : (⟨S50000x128, .f32⟩ : BufTy).Contents (Elt F) → (⟨S50000x128, .f32⟩ : BufTy).Contents (Elt F) → (⟨S50000x128, .f32⟩ : BufTy).Contents (Elt F)),
    StableHlo.binary main_v79 main_v82 main_v83 (addf : (⟨S50000x128, .f32⟩ : BufTy).Contents (Elt F) → (⟨S50000x128, .f32⟩ : BufTy).Contents (Elt F) → (⟨S50000x128, .f32⟩ : BufTy).Contents (Elt F)),
    StableHlo.unary main_arg6 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v85 main_v86 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (TRef.of main_v86 : TRef sig ⟨S50000x128, .f32⟩) main_call1.v0 main_call1.v1 (cmpf .ogt),
    TRef.nullary main_call1.cst_0 (constant S_ .f32 0x00000000#32),
    TRef.unary main_call1.cst_0 main_call1.v2 (broadcastInDim S50000x128 ![] bcast_S_S50000x128),
    TRef.binary (TRef.of main_v86 : TRef sig ⟨S50000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x128 ![] bcast_S_S50000x128),
    TRef.ternary main_call1.v3 main_call1.call0.v1 (TRef.of main_v86 : TRef sig ⟨S50000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x128 ![] bcast_S_S50000x128),
    TRef.binary main_call1.v6 main_call1.v5 main_call1.v7 mulf,
    TRef.ternary main_call1.v1 (TRef.of main_v86 : TRef sig ⟨S50000x128, .f32⟩) main_call1.v7 main_call1.call1.v0 select,
    StableHlo.binary main_v87 main_arg7 main_v88 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_17 (constantI S_ 32 0#32),
    StableHlo.unary main_c_17 main_v89 (broadcastInDim S1600000 ![] bcast_S_S1600000 : (⟨S_, .i32⟩ : BufTy).Contents (Elt F) → (⟨S1600000, .i32⟩ : BufTy).Contents (Elt F)),
    StableHlo.binary main_v1 main_v89 main_v90 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 50000#32),
    StableHlo.unary main_c_18 main_v91 (broadcastInDim S1600000 ![] bcast_S_S1600000 : (⟨S_, .i32⟩ : BufTy).Contents (Elt F) → (⟨S1600000, .i32⟩ : BufTy).Contents (Elt F)),
    StableHlo.binary main_v1 main_v91 main_v92 (addi : (⟨S1600000, .i32⟩ : BufTy).Contents (Elt F) → (⟨S1600000, .i32⟩ : BufTy).Contents (Elt F) → (⟨S1600000, .i32⟩ : BufTy).Contents (Elt F)),
    StableHlo.ternary main_v90 main_v92 main_v1 main_v93 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v93 main_v94 (broadcastInDim S1600000x1 ![0] bcast_S1600000_S1600000x1_0 : (⟨S1600000, .i32⟩ : BufTy).Contents (Elt F) → (⟨S1600000x1, .i32⟩ : BufTy).Contents (Elt F)),
    StableHlo.binary main_v11 main_v94 main_v95 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.nullary main_c_19 (constantI S_ 32 0#32),
    StableHlo.unary main_c_19 main_v96 (broadcastInDim S1600000 ![] bcast_S_S1600000 : (⟨S_, .i32⟩ : BufTy).Contents (Elt F) → (⟨S1600000, .i32⟩ : BufTy).Contents (Elt F)),
    StableHlo.binary main_v3 main_v96 main_v97 (cmpi .slt : (⟨S1600000, .i32⟩ : BufTy).Contents (Elt F) → (⟨S1600000, .i32⟩ : BufTy).Contents (Elt F) → (⟨S1600000, .i1⟩ : BufTy).Contents (Elt F)) ]

set_option maxRecDepth 8192 in
set_option maxHeartbeats 4000000 in
/-- The window is the straight line of its operations. -/
theorem main_part1_eq (c : Dev nD) : main_part1 (F := F) c = seq ops1 := rfl

set_option maxRecDepth 8192 in
theorem ops1_sub : (ops1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The third window's operations, in order. -/
def ops2 : List (HloOp τ sig (Elt F)) :=
  [ StableHlo.nullary main_c_20 (constantI S_ 32 50000#32),
    StableHlo.unary main_c_20 main_v98 (broadcastInDim S1600000 ![] bcast_S_S1600000 : (⟨S_, .i32⟩ : BufTy).Contents (Elt F) → (⟨S1600000, .i32⟩ : BufTy).Contents (Elt F)),
    StableHlo.binary main_v3 main_v98 main_v99 (addi : (⟨S1600000, .i32⟩ : BufTy).Contents (Elt F) → (⟨S1600000, .i32⟩ : BufTy).Contents (Elt F) → (⟨S1600000, .i32⟩ : BufTy).Contents (Elt F)),
    StableHlo.ternary main_v97 main_v99 main_v3 main_v100 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v100 main_v101 (broadcastInDim S1600000x1 ![0] bcast_S1600000_S1600000x1_0 : (⟨S1600000, .i32⟩ : BufTy).Contents (Elt F) → (⟨S1600000x1, .i32⟩ : BufTy).Contents (Elt F)),
    StableHlo.binary main_v11 main_v101 main_v102 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v95 main_v102 main_v103 (mulf : (⟨S1600000, .f32⟩ : BufTy).Contents (Elt F) → (⟨S1600000, .f32⟩ : BufTy).Contents (Elt F) → (⟨S1600000, .f32⟩ : BufTy).Contents (Elt F)),
    StableHlo.unary main_v103 main_v104 (broadcastInDim S1600000x1 ![0] bcast_S1600000_S1600000x1_0 : (⟨S1600000, .f32⟩ : BufTy).Contents (Elt F) → (⟨S1600000x1, .f32⟩ : BufTy).Contents (Elt F)),
    StableHlo.nullary main_c_21 (constantI S_ 32 0#32),
    StableHlo.unary main_c_21 main_v105 (broadcastInDim S1600000 ![] bcast_S_S1600000 : (⟨S_, .i32⟩ : BufTy).Contents (Elt F) → (⟨S1600000, .i32⟩ : BufTy).Contents (Elt F)),
    StableHlo.binary main_v1 main_v105 main_v106 (cmpi .slt : (⟨S1600000, .i32⟩ : BufTy).Contents (Elt F) → (⟨S1600000, .i32⟩ : BufTy).Contents (Elt F) → (⟨S1600000, .i1⟩ : BufTy).Contents (Elt F)),
    StableHlo.nullary main_c_22 (constantI S_ 32 50000#32),
    StableHlo.unary main_c_22 main_v107 (broadcastInDim S1600000 ![] bcast_S_S1600000 : (⟨S_, .i32⟩ : BufTy).Contents (Elt F) → (⟨S1600000, .i32⟩ : BufTy).Contents (Elt F)),
    StableHlo.binary main_v1 main_v107 main_v108 (addi : (⟨S1600000, .i32⟩ : BufTy).Contents (Elt F) → (⟨S1600000, .i32⟩ : BufTy).Contents (Elt F) → (⟨S1600000, .i32⟩ : BufTy).Contents (Elt F)),
    StableHlo.ternary main_v106 main_v108 main_v1 main_v109 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v109 main_v110 (broadcastInDim S1600000x1 ![0] bcast_S1600000_S1600000x1_0 : (⟨S1600000, .i32⟩ : BufTy).Contents (Elt F) → (⟨S1600000x1, .i32⟩ : BufTy).Contents (Elt F)),
    StableHlo.binary main_v88 main_v110 main_v111 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.unary main_v104 main_v112 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v111 main_v112 main_v113 (mulf : (⟨S1600000x128, .f32⟩ : BufTy).Contents (Elt F) → (⟨S1600000x128, .f32⟩ : BufTy).Contents (Elt F) → (⟨S1600000x128, .f32⟩ : BufTy).Contents (Elt F)),
    StableHlo.nullary main_cst_23 (constant S_ .f32 0x00000000#32),
    StableHlo.unary main_cst_23 main_v114 (broadcastInDim S50000x128 ![] bcast_S_S50000x128 : (⟨S_, .f32⟩ : BufTy).Contents (Elt F) → (⟨S50000x128, .f32⟩ : BufTy).Contents (Elt F)),
    StableHlo.unary main_v3 main_v115 (broadcastInDim S1600000x1 ![0] bcast_S1600000_S1600000x1_0 : (⟨S1600000, .i32⟩ : BufTy).Contents (Elt F) → (⟨S1600000x1, .i32⟩ : BufTy).Contents (Elt F)),
    StableHlo.ternary main_v114 main_v115 main_v113 main_v116 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_v13 main_v117 (broadcastInDim S50000x1 ![0] bcast_S50000_S50000x1_0 : (⟨S50000, .f32⟩ : BufTy).Contents (Elt F) → (⟨S50000x1, .f32⟩ : BufTy).Contents (Elt F)),
    StableHlo.unary main_v117 main_v118 (broadcastInDim S50000x128 ![0, 1] bcast_S50000x1_S50000x128_0_1 : (⟨S50000x1, .f32⟩ : BufTy).Contents (Elt F) → (⟨S50000x128, .f32⟩ : BufTy).Contents (Elt F)),
    StableHlo.binary main_v88 main_v118 main_v119 (mulf : (⟨S50000x128, .f32⟩ : BufTy).Contents (Elt F) → (⟨S50000x128, .f32⟩ : BufTy).Contents (Elt F) → (⟨S50000x128, .f32⟩ : BufTy).Contents (Elt F)),
    StableHlo.binary main_v116 main_v119 main_v120 (addf : (⟨S50000x128, .f32⟩ : BufTy).Contents (Elt F) → (⟨S50000x128, .f32⟩ : BufTy).Contents (Elt F) → (⟨S50000x128, .f32⟩ : BufTy).Contents (Elt F)),
    StableHlo.unary main_arg8 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S50000x128 ![0, 1] bcast_S1x128_S50000x128_0_1 : (⟨S1x128, .f32⟩ : BufTy).Contents (Elt F) → (⟨S50000x128, .f32⟩ : BufTy).Contents (Elt F)),
    StableHlo.binary main_v120 main_v122 main_v123 (addf : (⟨S50000x128, .f32⟩ : BufTy).Contents (Elt F) → (⟨S50000x128, .f32⟩ : BufTy).Contents (Elt F) → (⟨S50000x128, .f32⟩ : BufTy).Contents (Elt F)),
    StableHlo.nullary main_cst_24 (constant S_ .f32 0x00000000#32),
    StableHlo.unary main_cst_24 main_v124 (broadcastInDim S64x128 ![] bcast_S_S64x128 : (⟨S_, .f32⟩ : BufTy).Contents (Elt F) → (⟨S64x128, .f32⟩ : BufTy).Contents (Elt F)),
    StableHlo.unary main_arg2 main_v125 (broadcastInDim S50000x1 ![0] bcast_S50000_S50000x1_0 : (⟨S50000, .i32⟩ : BufTy).Contents (Elt F) → (⟨S50000x1, .i32⟩ : BufTy).Contents (Elt F)),
    StableHlo.ternary main_v124 main_v125 main_v123 main_v126 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    StableHlo.nullary main_cst_25 (constant S_ .f32 0x3F800000#32),
    StableHlo.unary main_cst_25 main_v127 (broadcastInDim S50000 ![] bcast_S_S50000 : (⟨S_, .f32⟩ : BufTy).Contents (Elt F) → (⟨S50000, .f32⟩ : BufTy).Contents (Elt F)),
    StableHlo.nullary main_cst_26 (constant S_ .f32 0x00000000#32),
    StableHlo.unary main_cst_26 main_v128 (broadcastInDim S64 ![] bcast_S_S64 : (⟨S_, .f32⟩ : BufTy).Contents (Elt F) → (⟨S64, .f32⟩ : BufTy).Contents (Elt F)),
    StableHlo.unary main_arg2 main_v129 (broadcastInDim S50000x1 ![0] bcast_S50000_S50000x1_0 : (⟨S50000, .i32⟩ : BufTy).Contents (Elt F) → (⟨S50000x1, .i32⟩ : BufTy).Contents (Elt F)),
    StableHlo.ternary main_v128 main_v129 main_v127 main_v130 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_27 (constant S_ .f32 0x3F800000#32),
    StableHlo.unary main_cst_27 main_v131 (broadcastInDim S64 ![] bcast_S_S64 : (⟨S_, .f32⟩ : BufTy).Contents (Elt F) → (⟨S64, .f32⟩ : BufTy).Contents (Elt F)),
    StableHlo.binary main_v130 main_v131 main_v132 (maximumf : (⟨S64, .f32⟩ : BufTy).Contents (Elt F) → (⟨S64, .f32⟩ : BufTy).Contents (Elt F) → (⟨S64, .f32⟩ : BufTy).Contents (Elt F)),
    StableHlo.unary main_v132 main_v133 (broadcastInDim S64x1 ![0] bcast_S64_S64x1_0 : (⟨S64, .f32⟩ : BufTy).Contents (Elt F) → (⟨S64x1, .f32⟩ : BufTy).Contents (Elt F)),
    StableHlo.unary main_v133 main_v134 (broadcastInDim S64x128 ![0, 1] bcast_S64x1_S64x128_0_1 : (⟨S64x1, .f32⟩ : BufTy).Contents (Elt F) → (⟨S64x128, .f32⟩ : BufTy).Contents (Elt F)),
    StableHlo.binary main_v126 main_v134 main_v135 (Host.divf : (⟨S64x128, .f32⟩ : BufTy).Contents (Elt F) → (⟨S64x128, .f32⟩ : BufTy).Contents (Elt F) → (⟨S64x128, .f32⟩ : BufTy).Contents (Elt F)),
    StableHlo.binary main_v135 main_arg9 main_v136 ((fun l r => Host.dotGeneral dot_S64x128_S128x10_S64x10_1_0_0_1_n_n none l r) : (⟨S64x128, .f32⟩ : BufTy).Contents (Elt F) → (⟨S128x10, .f32⟩ : BufTy).Contents (Elt F) → (⟨S64x10, .f32⟩ : BufTy).Contents (Elt F)),
    StableHlo.unary main_arg10 main_v137 (broadcastInDim S1x10 ![1] bcast_S10_S1x10_1 : (⟨S10, .f32⟩ : BufTy).Contents (Elt F) → (⟨S1x10, .f32⟩ : BufTy).Contents (Elt F)),
    StableHlo.unary main_v137 main_v138 (broadcastInDim S64x10 ![0, 1] bcast_S1x10_S64x10_0_1 : (⟨S1x10, .f32⟩ : BufTy).Contents (Elt F) → (⟨S64x10, .f32⟩ : BufTy).Contents (Elt F)),
    StableHlo.binary main_v136 main_v138 main_v139 (addf : (⟨S64x10, .f32⟩ : BufTy).Contents (Elt F) → (⟨S64x10, .f32⟩ : BufTy).Contents (Elt F) → (⟨S64x10, .f32⟩ : BufTy).Contents (Elt F)),
    StableHlo.binary main_v135 main_arg11 main_v140 ((fun l r => Host.dotGeneral dot_S64x128_S128x1_S64x1_1_0_0_1_n_n none l r) : (⟨S64x128, .f32⟩ : BufTy).Contents (Elt F) → (⟨S128x1, .f32⟩ : BufTy).Contents (Elt F) → (⟨S64x1, .f32⟩ : BufTy).Contents (Elt F)),
    StableHlo.unary main_arg12 main_v141 (broadcastInDim S1x1 ![1] bcast_S1_S1x1_1 : (⟨S1, .f32⟩ : BufTy).Contents (Elt F) → (⟨S1x1, .f32⟩ : BufTy).Contents (Elt F)),
    StableHlo.unary main_v141 main_v142 (broadcastInDim S64x1 ![0, 1] bcast_S1x1_S64x1_0_1 : (⟨S1x1, .f32⟩ : BufTy).Contents (Elt F) → (⟨S64x1, .f32⟩ : BufTy).Contents (Elt F)),
    StableHlo.binary main_v140 main_v142 main_v143 (addf : (⟨S64x1, .f32⟩ : BufTy).Contents (Elt F) → (⟨S64x1, .f32⟩ : BufTy).Contents (Elt F) → (⟨S64x1, .f32⟩ : BufTy).Contents (Elt F)) ]

set_option maxRecDepth 8192 in
set_option maxHeartbeats 4000000 in
/-- The window is the straight line of its operations. -/
theorem main_part2_eq (c : Dev nD) : main_part2 (F := F) c = seq ops2 := rfl

set_option maxRecDepth 8192 in
theorem ops2_sub : (ops2 : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main is the straight line of the three windows' operations. -/
theorem main_eq (c : Dev nD) : main (F := F) c = seq (ops0 ++ (ops1 ++ ops2)) := by
  rw [seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops0 ++ (ops1 ++ ops2) : List (HloOp τ sig (Elt F))).Forall fun op => op.bufs ⊆ tcRefs τ sig :=
  List.forall_iff_forall_mem.2 fun op h => by
    rcases List.mem_append.1 h with h | h
    · exact List.forall_iff_forall_mem.1 ops0_sub op h
    rcases List.mem_append.1 h with h | h
    · exact List.forall_iff_forall_mem.1 ops1_sub op h
    · exact List.forall_iff_forall_mem.1 ops2_sub op h

theorem ops_fresh : ∀ op ∈ (ops0 ++ (ops1 ++ ops2) : List (HloOp τ sig (Elt F))), op.fresh = ∅ := fun op h => by
  rcases List.mem_append.1 h with h | h
  · exact List.forall_iff_forall_mem.1 ops0_fresh op h
  rcases List.mem_append.1 h with h | h
  · exact List.forall_iff_forall_mem.1 ops1_fresh op h
  · exact List.forall_iff_forall_mem.1 ops2_fresh op h

/-- On every device, for any float values, from any memory with zero counters: every weakly fair execution of @main
    terminates, and every final state has each buffer at the fold of the 202 operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after (ops0 ++ (ops1 ++ ops2)) (launchContents m c) (b : DevRef τ sig) :=
  run_seq scopedRefs_eq scopedSems_eq defs main (fun _ => ops0 ++ (ops1 ++ ops2)) main_eq (fun _ => ops_sub) m ρ
    (fun _ => ops_fresh)

/-! ## The same operations, cut where the stages of the network end -/

/-- Stage 0: the two rows of the edge table, the degrees with their inverse and inverse square root, and the first dense product. -/
def st0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (addf : (⟨S50000, .f32⟩ : BufTy).Contents (Elt F) → (⟨S50000, .f32⟩ : BufTy).Contents (Elt F) → (⟨S50000, .f32⟩ : BufTy).Contents (Elt F)),
    StableHlo.nullary main_cst_2 (constant S_ .f32 0xBF000000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v9 main_v10 main_v11 (Host.powf : (⟨S50000, .f32⟩ : BufTy).Contents (Elt F) → (⟨S50000, .f32⟩ : BufTy).Contents (Elt F) → (⟨S50000, .f32⟩ : BufTy).Contents (Elt F)),
    StableHlo.nullary main_cst_3 (constant S_ .f32 0x3F800000#32),
    StableHlo.unary main_cst_3 main_v12 (broadcastInDim S50000 ![] bcast_S_S50000 : (⟨S_, .f32⟩ : BufTy).Contents (Elt F) → (⟨S50000, .f32⟩ : BufTy).Contents (Elt F)),
    StableHlo.binary main_v12 main_v9 main_v13 (Host.divf : (⟨S50000, .f32⟩ : BufTy).Contents (Elt F) → (⟨S50000, .f32⟩ : BufTy).Contents (Elt F) → (⟨S50000, .f32⟩ : BufTy).Contents (Elt F)),
    StableHlo.binary main_arg0 main_arg3 main_v14 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Stage 1: the first layer's aggregation, from the product to the layer's output. -/
def st1 : List (HloOp τ sig (Elt F)) :=
  [ StableHlo.nullary main_c (constantI S_ 32 0#32),
    StableHlo.unary main_c main_v15 (broadcastInDim S1600000 ![] bcast_S_S1600000 : (⟨S_, .i32⟩ : BufTy).Contents (Elt F) → (⟨S1600000, .i32⟩ : BufTy).Contents (Elt F)),
    StableHlo.binary main_v1 main_v15 main_v16 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 50000#32),
    StableHlo.unary main_c_4 main_v17 (broadcastInDim S1600000 ![] bcast_S_S1600000 : (⟨S_, .i32⟩ : BufTy).Contents (Elt F) → (⟨S1600000, .i32⟩ : BufTy).Contents (Elt F)),
    StableHlo.binary main_v1 main_v17 main_v18 (addi : (⟨S1600000, .i32⟩ : BufTy).Contents (Elt F) → (⟨S1600000, .i32⟩ : BufTy).Contents (Elt F) → (⟨S1600000, .i32⟩ : BufTy).Contents (Elt F)),
    StableHlo.ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v19 main_v20 (broadcastInDim S1600000x1 ![0] bcast_S1600000_S1600000x1_0 : (⟨S1600000, .i32⟩ : BufTy).Contents (Elt F) → (⟨S1600000x1, .i32⟩ : BufTy).Contents (Elt F)),
    StableHlo.binary main_v11 main_v20 main_v21 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.nullary main_c_5 (constantI S_ 32 0#32),
    StableHlo.unary main_c_5 main_v22 (broadcastInDim S1600000 ![] bcast_S_S1600000 : (⟨S_, .i32⟩ : BufTy).Contents (Elt F) → (⟨S1600000, .i32⟩ : BufTy).Contents (Elt F)),
    StableHlo.binary main_v3 main_v22 main_v23 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 50000#32),
    StableHlo.unary main_c_6 main_v24 (broadcastInDim S1600000 ![] bcast_S_S1600000 : (⟨S_, .i32⟩ : BufTy).Contents (Elt F) → (⟨S1600000, .i32⟩ : BufTy).Contents (Elt F)),
    StableHlo.binary main_v3 main_v24 main_v25 (addi : (⟨S1600000, .i32⟩ : BufTy).Contents (Elt F) → (⟨S1600000, .i32⟩ : BufTy).Contents (Elt F) → (⟨S1600000, .i32⟩ : BufTy).Contents (Elt F)),
    StableHlo.ternary main_v23 main_v25 main_v3 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v26 main_v27 (broadcastInDim S1600000x1 ![0] bcast_S1600000_S1600000x1_0 : (⟨S1600000, .i32⟩ : BufTy).Contents (Elt F) → (⟨S1600000x1, .i32⟩ : BufTy).Contents (Elt F)),
    StableHlo.binary main_v11 main_v27 main_v28 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v21 main_v28 main_v29 (mulf : (⟨S1600000, .f32⟩ : BufTy).Contents (Elt F) → (⟨S1600000, .f32⟩ : BufTy).Contents (Elt F) → (⟨S1600000, .f32⟩ : BufTy).Contents (Elt F)),
    StableHlo.unary main_v29 main_v30 (broadcastInDim S1600000x1 ![0] bcast_S1600000_S1600000x1_0 : (⟨S1600000, .f32⟩ : BufTy).Contents (Elt F) → (⟨S1600000x1, .f32⟩ : BufTy).Contents (Elt F)),
    StableHlo.nullary main_c_7 (constantI S_ 32 0#32),
    StableHlo.unary main_c_7 main_v31 (broadcastInDim S1600000 ![] bcast_S_S1600000 : (⟨S_, .i32⟩ : BufTy).Contents (Elt F) → (⟨S1600000, .i32⟩ : BufTy).Contents (Elt F)),
    StableHlo.binary main_v1 main_v31 main_v32 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 50000#32),
    StableHlo.unary main_c_8 main_v33 (broadcastInDim S1600000 ![] bcast_S_S1600000 : (⟨S_, .i32⟩ : BufTy).Contents (Elt F) → (⟨S1600000, .i32⟩ : BufTy).Contents (Elt F)),
    StableHlo.binary main_v1 main_v33 main_v34 (addi : (⟨S1600000, .i32⟩ : BufTy).Contents (Elt F) → (⟨S1600000, .i32⟩ : BufTy).Contents (Elt F) → (⟨S1600000, .i32⟩ : BufTy).Contents (Elt F)),
    StableHlo.ternary main_v32 main_v34 main_v1 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v35 main_v36 (broadcastInDim S1600000x1 ![0] bcast_S1600000_S1600000x1_0 : (⟨S1600000, .i32⟩ : BufTy).Contents (Elt F) → (⟨S1600000x1, .i32⟩ : BufTy).Contents (Elt F)),
    StableHlo.binary main_v14 main_v36 main_v37 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.unary main_v30 main_v38 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v37 main_v38 main_v39 (mulf : (⟨S1600000x128, .f32⟩ : BufTy).Contents (Elt F) → (⟨S1600000x128, .f32⟩ : BufTy).Contents (Elt F) → (⟨S1600000x128, .f32⟩ : BufTy).Contents (Elt F)),
    StableHlo.nullary main_cst_9 (constant S_ .f32 0x00000000#32),
    StableHlo.unary main_cst_9 main_v40 (broadcastInDim S50000x128 ![] bcast_S_S50000x128 : (⟨S_, .f32⟩ : BufTy).Contents (Elt F) → (⟨S50000x128, .f32⟩ : BufTy).Contents (Elt F)),
    StableHlo.unary main_v3 main_v41 (broadcastInDim S1600000x1 ![0] bcast_S1600000_S1600000x1_0 : (⟨S1600000, .i32⟩ : BufTy).Contents (Elt F) → (⟨S1600000x1, .i32⟩ : BufTy).Contents (Elt F)),
    StableHlo.ternary main_v40 main_v41 main_v39 main_v42 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_v13 main_v43 (broadcastInDim S50000x1 ![0] bcast_S50000_S50000x1_0 : (⟨S50000, .f32⟩ : BufTy).Contents (Elt F) → (⟨S50000x1, .f32⟩ : BufTy).Contents (Elt F)),
    StableHlo.unary main_v43 main_v44 (broadcastInDim S50000x128 ![0, 1] bcast_S50000x1_S50000x128_0_1 : (⟨S50000x1, .f32⟩ : BufTy).Contents (Elt F) → (⟨S50000x128, .f32⟩ : BufTy).Contents (Elt F)),
    StableHlo.binary main_v14 main_v44 main_v45 (mulf : (⟨S50000x128, .f32⟩ : BufTy).Contents (Elt F) → (⟨S50000x128, .f32⟩ : BufTy).Contents (Elt F) → (⟨S50000x128, .f32⟩ : BufTy).Contents (Elt F)),
    StableHlo.binary main_v42 main_v45 main_v46 (addf : (⟨S50000x128, .f32⟩ : BufTy).Contents (Elt F) → (⟨S50000x128, .f32⟩ : BufTy).Contents (Elt F) → (⟨S50000x128, .f32⟩ : BufTy).Contents (Elt F)),
    StableHlo.unary main_arg4 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v48 main_v49 (addf : (⟨S50000x128, .f32⟩ : BufTy).Contents (Elt F) → (⟨S50000x128, .f32⟩ : BufTy).Contents (Elt F) → (⟨S50000x128, .f32⟩ : BufTy).Contents (Elt F)) ]

/-- Stage 2: the exponential linear unit on the first layer's output. -/
def st2 : List (HloOp τ sig (Elt F)) :=
  [ TRef.nullary main_call0.cst (constant S_ .f32 0x00000000#32),
    TRef.unary main_call0.cst main_call0.v0 (broadcastInDim S50000x128 ![] bcast_S_S50000x128),
    TRef.binary (TRef.of main_v49 : TRef sig ⟨S50000x128, .f32⟩) main_call0.v0 main_call0.v1 (cmpf .ogt),
    TRef.nullary main_call0.cst_0 (constant S_ .f32 0x00000000#32),
    TRef.unary main_call0.cst_0 main_call0.v2 (broadcastInDim S50000x128 ![] bcast_S_S50000x128),
    TRef.binary (TRef.of main_v49 : TRef sig ⟨S50000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x128 ![] bcast_S_S50000x128),
    TRef.ternary main_call0.v3 main_call0.call0.v1 (TRef.of main_v49 : TRef sig ⟨S50000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S50000x128 ![] bcast_S_S50000x128),
    TRef.binary main_call0.v6 main_call0.v5 main_call0.v7 mulf,
    TRef.ternary main_call0.v1 (TRef.of main_v49 : TRef sig ⟨S50000x128, .f32⟩) main_call0.v7 main_call0.call1.v0 select ]

/-- Stage 3: the second dense product and the second layer's aggregation. -/
def st3 : List (HloOp τ sig (Elt F)) :=
  [ StableHlo.binary main_v50 main_arg5 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_10 (constantI S_ 32 0#32),
    StableHlo.unary main_c_10 main_v52 (broadcastInDim S1600000 ![] bcast_S_S1600000 : (⟨S_, .i32⟩ : BufTy).Contents (Elt F) → (⟨S1600000, .i32⟩ : BufTy).Contents (Elt F)),
    StableHlo.binary main_v1 main_v52 main_v53 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 50000#32),
    StableHlo.unary main_c_11 main_v54 (broadcastInDim S1600000 ![] bcast_S_S1600000 : (⟨S_, .i32⟩ : BufTy).Contents (Elt F) → (⟨S1600000, .i32⟩ : BufTy).Contents (Elt F)),
    StableHlo.binary main_v1 main_v54 main_v55 (addi : (⟨S1600000, .i32⟩ : BufTy).Contents (Elt F) → (⟨S1600000, .i32⟩ : BufTy).Contents (Elt F) → (⟨S1600000, .i32⟩ : BufTy).Contents (Elt F)),
    StableHlo.ternary main_v53 main_v55 main_v1 main_v56 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v56 main_v57 (broadcastInDim S1600000x1 ![0] bcast_S1600000_S1600000x1_0 : (⟨S1600000, .i32⟩ : BufTy).Contents (Elt F) → (⟨S1600000x1, .i32⟩ : BufTy).Contents (Elt F)),
    StableHlo.binary main_v11 main_v57 main_v58 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.nullary main_c_12 (constantI S_ 32 0#32),
    StableHlo.unary main_c_12 main_v59 (broadcastInDim S1600000 ![] bcast_S_S1600000 : (⟨S_, .i32⟩ : BufTy).Contents (Elt F) → (⟨S1600000, .i32⟩ : BufTy).Contents (Elt F)),
    StableHlo.binary main_v3 main_v59 main_v60 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 50000#32),
    StableHlo.unary main_c_13 main_v61 (broadcastInDim S1600000 ![] bcast_S_S1600000 : (⟨S_, .i32⟩ : BufTy).Contents (Elt F) → (⟨S1600000, .i32⟩ : BufTy).Contents (Elt F)),
    StableHlo.binary main_v3 main_v61 main_v62 (addi : (⟨S1600000, .i32⟩ : BufTy).Contents (Elt F) → (⟨S1600000, .i32⟩ : BufTy).Contents (Elt F) → (⟨S1600000, .i32⟩ : BufTy).Contents (Elt F)),
    StableHlo.ternary main_v60 main_v62 main_v3 main_v63 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v63 main_v64 (broadcastInDim S1600000x1 ![0] bcast_S1600000_S1600000x1_0 : (⟨S1600000, .i32⟩ : BufTy).Contents (Elt F) → (⟨S1600000x1, .i32⟩ : BufTy).Contents (Elt F)),
    StableHlo.binary main_v11 main_v64 main_v65 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v58 main_v65 main_v66 (mulf : (⟨S1600000, .f32⟩ : BufTy).Contents (Elt F) → (⟨S1600000, .f32⟩ : BufTy).Contents (Elt F) → (⟨S1600000, .f32⟩ : BufTy).Contents (Elt F)),
    StableHlo.unary main_v66 main_v67 (broadcastInDim S1600000x1 ![0] bcast_S1600000_S1600000x1_0 : (⟨S1600000, .f32⟩ : BufTy).Contents (Elt F) → (⟨S1600000x1, .f32⟩ : BufTy).Contents (Elt F)),
    StableHlo.nullary main_c_14 (constantI S_ 32 0#32),
    StableHlo.unary main_c_14 main_v68 (broadcastInDim S1600000 ![] bcast_S_S1600000 : (⟨S_, .i32⟩ : BufTy).Contents (Elt F) → (⟨S1600000, .i32⟩ : BufTy).Contents (Elt F)),
    StableHlo.binary main_v1 main_v68 main_v69 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 50000#32),
    StableHlo.unary main_c_15 main_v70 (broadcastInDim S1600000 ![] bcast_S_S1600000 : (⟨S_, .i32⟩ : BufTy).Contents (Elt F) → (⟨S1600000, .i32⟩ : BufTy).Contents (Elt F)),
    StableHlo.binary main_v1 main_v70 main_v71 (addi : (⟨S1600000, .i32⟩ : BufTy).Contents (Elt F) → (⟨S1600000, .i32⟩ : BufTy).Contents (Elt F) → (⟨S1600000, .i32⟩ : BufTy).Contents (Elt F)),
    StableHlo.ternary main_v69 main_v71 main_v1 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v72 main_v73 (broadcastInDim S1600000x1 ![0] bcast_S1600000_S1600000x1_0 : (⟨S1600000, .i32⟩ : BufTy).Contents (Elt F) → (⟨S1600000x1, .i32⟩ : BufTy).Contents (Elt F)),
    StableHlo.binary main_v51 main_v73 main_v74 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.unary main_v67 main_v75 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v74 main_v75 main_v76 (mulf : (⟨S1600000x128, .f32⟩ : BufTy).Contents (Elt F) → (⟨S1600000x128, .f32⟩ : BufTy).Contents (Elt F) → (⟨S1600000x128, .f32⟩ : BufTy).Contents (Elt F)),
    StableHlo.nullary main_cst_16 (constant S_ .f32 0x00000000#32),
    StableHlo.unary main_cst_16 main_v77 (broadcastInDim S50000x128 ![] bcast_S_S50000x128 : (⟨S_, .f32⟩ : BufTy).Contents (Elt F) → (⟨S50000x128, .f32⟩ : BufTy).Contents (Elt F)),
    StableHlo.unary main_v3 main_v78 (broadcastInDim S1600000x1 ![0] bcast_S1600000_S1600000x1_0 : (⟨S1600000, .i32⟩ : BufTy).Contents (Elt F) → (⟨S1600000x1, .i32⟩ : BufTy).Contents (Elt F)),
    StableHlo.ternary main_v77 main_v78 main_v76 main_v79 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_v13 main_v80 (broadcastInDim S50000x1 ![0] bcast_S50000_S50000x1_0 : (⟨S50000, .f32⟩ : BufTy).Contents (Elt F) → (⟨S50000x1, .f32⟩ : BufTy).Contents (Elt F)),
    StableHlo.unary main_v80 main_v81 (broadcastInDim S50000x128 ![0, 1] bcast_S50000x1_S50000x128_0_1 : (⟨S50000x1, .f32⟩ : BufTy).Contents (Elt F) → (⟨S50000x128, .f32⟩ : BufTy).Contents (Elt F)),
    StableHlo.binary main_v51 main_v81 main_v82 (mulf : (⟨S50000x128, .f32⟩ : BufTy).Contents (Elt F) → (⟨S50000x128, .f32⟩ : BufTy).Contents (Elt F) → (⟨S50000x128, .f32⟩ : BufTy).Contents (Elt F)),
    StableHlo.binary main_v79 main_v82 main_v83 (addf : (⟨S50000x128, .f32⟩ : BufTy).Contents (Elt F) → (⟨S50000x128, .f32⟩ : BufTy).Contents (Elt F) → (⟨S50000x128, .f32⟩ : BufTy).Contents (Elt F)),
    StableHlo.unary main_arg6 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v85 main_v86 (addf : (⟨S50000x128, .f32⟩ : BufTy).Contents (Elt F) → (⟨S50000x128, .f32⟩ : BufTy).Contents (Elt F) → (⟨S50000x128, .f32⟩ : BufTy).Contents (Elt F)) ]

/-- Stage 4: the exponential linear unit on the second layer's output. -/
def st4 : List (HloOp τ sig (Elt F)) :=
  [ TRef.nullary main_call1.cst (constant S_ .f32 0x00000000#32),
    TRef.unary main_call1.cst main_call1.v0 (broadcastInDim S50000x128 ![] bcast_S_S50000x128),
    TRef.binary (TRef.of main_v86 : TRef sig ⟨S50000x128, .f32⟩) main_call1.v0 main_call1.v1 (cmpf .ogt),
    TRef.nullary main_call1.cst_0 (constant S_ .f32 0x00000000#32),
    TRef.unary main_call1.cst_0 main_call1.v2 (broadcastInDim S50000x128 ![] bcast_S_S50000x128),
    TRef.binary (TRef.of main_v86 : TRef sig ⟨S50000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x128 ![] bcast_S_S50000x128),
    TRef.ternary main_call1.v3 main_call1.call0.v1 (TRef.of main_v86 : TRef sig ⟨S50000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x128 ![] bcast_S_S50000x128),
    TRef.binary main_call1.v6 main_call1.v5 main_call1.v7 mulf,
    TRef.ternary main_call1.v1 (TRef.of main_v86 : TRef sig ⟨S50000x128, .f32⟩) main_call1.v7 main_call1.call1.v0 select ]

/-- Stage 5: the third dense product and the third layer's aggregation. -/
def st5 : List (HloOp τ sig (Elt F)) :=
  [ StableHlo.binary main_v87 main_arg7 main_v88 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_17 (constantI S_ 32 0#32),
    StableHlo.unary main_c_17 main_v89 (broadcastInDim S1600000 ![] bcast_S_S1600000 : (⟨S_, .i32⟩ : BufTy).Contents (Elt F) → (⟨S1600000, .i32⟩ : BufTy).Contents (Elt F)),
    StableHlo.binary main_v1 main_v89 main_v90 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 50000#32),
    StableHlo.unary main_c_18 main_v91 (broadcastInDim S1600000 ![] bcast_S_S1600000 : (⟨S_, .i32⟩ : BufTy).Contents (Elt F) → (⟨S1600000, .i32⟩ : BufTy).Contents (Elt F)),
    StableHlo.binary main_v1 main_v91 main_v92 (addi : (⟨S1600000, .i32⟩ : BufTy).Contents (Elt F) → (⟨S1600000, .i32⟩ : BufTy).Contents (Elt F) → (⟨S1600000, .i32⟩ : BufTy).Contents (Elt F)),
    StableHlo.ternary main_v90 main_v92 main_v1 main_v93 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v93 main_v94 (broadcastInDim S1600000x1 ![0] bcast_S1600000_S1600000x1_0 : (⟨S1600000, .i32⟩ : BufTy).Contents (Elt F) → (⟨S1600000x1, .i32⟩ : BufTy).Contents (Elt F)),
    StableHlo.binary main_v11 main_v94 main_v95 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.nullary main_c_19 (constantI S_ 32 0#32),
    StableHlo.unary main_c_19 main_v96 (broadcastInDim S1600000 ![] bcast_S_S1600000 : (⟨S_, .i32⟩ : BufTy).Contents (Elt F) → (⟨S1600000, .i32⟩ : BufTy).Contents (Elt F)),
    StableHlo.binary main_v3 main_v96 main_v97 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 50000#32),
    StableHlo.unary main_c_20 main_v98 (broadcastInDim S1600000 ![] bcast_S_S1600000 : (⟨S_, .i32⟩ : BufTy).Contents (Elt F) → (⟨S1600000, .i32⟩ : BufTy).Contents (Elt F)),
    StableHlo.binary main_v3 main_v98 main_v99 (addi : (⟨S1600000, .i32⟩ : BufTy).Contents (Elt F) → (⟨S1600000, .i32⟩ : BufTy).Contents (Elt F) → (⟨S1600000, .i32⟩ : BufTy).Contents (Elt F)),
    StableHlo.ternary main_v97 main_v99 main_v3 main_v100 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v100 main_v101 (broadcastInDim S1600000x1 ![0] bcast_S1600000_S1600000x1_0 : (⟨S1600000, .i32⟩ : BufTy).Contents (Elt F) → (⟨S1600000x1, .i32⟩ : BufTy).Contents (Elt F)),
    StableHlo.binary main_v11 main_v101 main_v102 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    StableHlo.binary main_v95 main_v102 main_v103 (mulf : (⟨S1600000, .f32⟩ : BufTy).Contents (Elt F) → (⟨S1600000, .f32⟩ : BufTy).Contents (Elt F) → (⟨S1600000, .f32⟩ : BufTy).Contents (Elt F)),
    StableHlo.unary main_v103 main_v104 (broadcastInDim S1600000x1 ![0] bcast_S1600000_S1600000x1_0 : (⟨S1600000, .f32⟩ : BufTy).Contents (Elt F) → (⟨S1600000x1, .f32⟩ : BufTy).Contents (Elt F)),
    StableHlo.nullary main_c_21 (constantI S_ 32 0#32),
    StableHlo.unary main_c_21 main_v105 (broadcastInDim S1600000 ![] bcast_S_S1600000 : (⟨S_, .i32⟩ : BufTy).Contents (Elt F) → (⟨S1600000, .i32⟩ : BufTy).Contents (Elt F)),
    StableHlo.binary main_v1 main_v105 main_v106 (cmpi .slt : (⟨S1600000, .i32⟩ : BufTy).Contents (Elt F) → (⟨S1600000, .i32⟩ : BufTy).Contents (Elt F) → (⟨S1600000, .i1⟩ : BufTy).Contents (Elt F)),
    StableHlo.nullary main_c_22 (constantI S_ 32 50000#32),
    StableHlo.unary main_c_22 main_v107 (broadcastInDim S1600000 ![] bcast_S_S1600000 : (⟨S_, .i32⟩ : BufTy).Contents (Elt F) → (⟨S1600000, .i32⟩ : BufTy).Contents (Elt F)),
    StableHlo.binary main_v1 main_v107 main_v108 (addi : (⟨S1600000, .i32⟩ : BufTy).Contents (Elt F) → (⟨S1600000, .i32⟩ : BufTy).Contents (Elt F) → (⟨S1600000, .i32⟩ : BufTy).Contents (Elt F)),
    StableHlo.ternary main_v106 main_v108 main_v1 main_v109 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v109 main_v110 (broadcastInDim S1600000x1 ![0] bcast_S1600000_S1600000x1_0 : (⟨S1600000, .i32⟩ : BufTy).Contents (Elt F) → (⟨S1600000x1, .i32⟩ : BufTy).Contents (Elt F)),
    StableHlo.binary main_v88 main_v110 main_v111 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    StableHlo.unary main_v104 main_v112 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v111 main_v112 main_v113 (mulf : (⟨S1600000x128, .f32⟩ : BufTy).Contents (Elt F) → (⟨S1600000x128, .f32⟩ : BufTy).Contents (Elt F) → (⟨S1600000x128, .f32⟩ : BufTy).Contents (Elt F)),
    StableHlo.nullary main_cst_23 (constant S_ .f32 0x00000000#32),
    StableHlo.unary main_cst_23 main_v114 (broadcastInDim S50000x128 ![] bcast_S_S50000x128 : (⟨S_, .f32⟩ : BufTy).Contents (Elt F) → (⟨S50000x128, .f32⟩ : BufTy).Contents (Elt F)),
    StableHlo.unary main_v3 main_v115 (broadcastInDim S1600000x1 ![0] bcast_S1600000_S1600000x1_0 : (⟨S1600000, .i32⟩ : BufTy).Contents (Elt F) → (⟨S1600000x1, .i32⟩ : BufTy).Contents (Elt F)),
    StableHlo.ternary main_v114 main_v115 main_v113 main_v116 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    StableHlo.unary main_v13 main_v117 (broadcastInDim S50000x1 ![0] bcast_S50000_S50000x1_0 : (⟨S50000, .f32⟩ : BufTy).Contents (Elt F) → (⟨S50000x1, .f32⟩ : BufTy).Contents (Elt F)),
    StableHlo.unary main_v117 main_v118 (broadcastInDim S50000x128 ![0, 1] bcast_S50000x1_S50000x128_0_1 : (⟨S50000x1, .f32⟩ : BufTy).Contents (Elt F) → (⟨S50000x128, .f32⟩ : BufTy).Contents (Elt F)),
    StableHlo.binary main_v88 main_v118 main_v119 (mulf : (⟨S50000x128, .f32⟩ : BufTy).Contents (Elt F) → (⟨S50000x128, .f32⟩ : BufTy).Contents (Elt F) → (⟨S50000x128, .f32⟩ : BufTy).Contents (Elt F)),
    StableHlo.binary main_v116 main_v119 main_v120 (addf : (⟨S50000x128, .f32⟩ : BufTy).Contents (Elt F) → (⟨S50000x128, .f32⟩ : BufTy).Contents (Elt F) → (⟨S50000x128, .f32⟩ : BufTy).Contents (Elt F)),
    StableHlo.unary main_arg8 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S50000x128 ![0, 1] bcast_S1x128_S50000x128_0_1 : (⟨S1x128, .f32⟩ : BufTy).Contents (Elt F) → (⟨S50000x128, .f32⟩ : BufTy).Contents (Elt F)),
    StableHlo.binary main_v120 main_v122 main_v123 (addf : (⟨S50000x128, .f32⟩ : BufTy).Contents (Elt F) → (⟨S50000x128, .f32⟩ : BufTy).Contents (Elt F) → (⟨S50000x128, .f32⟩ : BufTy).Contents (Elt F)) ]

/-- Stage 6: the per-graph sums, the counts and the means. -/
def st6 : List (HloOp τ sig (Elt F)) :=
  [ StableHlo.nullary main_cst_24 (constant S_ .f32 0x00000000#32),
    StableHlo.unary main_cst_24 main_v124 (broadcastInDim S64x128 ![] bcast_S_S64x128 : (⟨S_, .f32⟩ : BufTy).Contents (Elt F) → (⟨S64x128, .f32⟩ : BufTy).Contents (Elt F)),
    StableHlo.unary main_arg2 main_v125 (broadcastInDim S50000x1 ![0] bcast_S50000_S50000x1_0 : (⟨S50000, .i32⟩ : BufTy).Contents (Elt F) → (⟨S50000x1, .i32⟩ : BufTy).Contents (Elt F)),
    StableHlo.ternary main_v124 main_v125 main_v123 main_v126 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    StableHlo.nullary main_cst_25 (constant S_ .f32 0x3F800000#32),
    StableHlo.unary main_cst_25 main_v127 (broadcastInDim S50000 ![] bcast_S_S50000 : (⟨S_, .f32⟩ : BufTy).Contents (Elt F) → (⟨S50000, .f32⟩ : BufTy).Contents (Elt F)),
    StableHlo.nullary main_cst_26 (constant S_ .f32 0x00000000#32),
    StableHlo.unary main_cst_26 main_v128 (broadcastInDim S64 ![] bcast_S_S64 : (⟨S_, .f32⟩ : BufTy).Contents (Elt F) → (⟨S64, .f32⟩ : BufTy).Contents (Elt F)),
    StableHlo.unary main_arg2 main_v129 (broadcastInDim S50000x1 ![0] bcast_S50000_S50000x1_0 : (⟨S50000, .i32⟩ : BufTy).Contents (Elt F) → (⟨S50000x1, .i32⟩ : BufTy).Contents (Elt F)),
    StableHlo.ternary main_v128 main_v129 main_v127 main_v130 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_27 (constant S_ .f32 0x3F800000#32),
    StableHlo.unary main_cst_27 main_v131 (broadcastInDim S64 ![] bcast_S_S64 : (⟨S_, .f32⟩ : BufTy).Contents (Elt F) → (⟨S64, .f32⟩ : BufTy).Contents (Elt F)),
    StableHlo.binary main_v130 main_v131 main_v132 (maximumf : (⟨S64, .f32⟩ : BufTy).Contents (Elt F) → (⟨S64, .f32⟩ : BufTy).Contents (Elt F) → (⟨S64, .f32⟩ : BufTy).Contents (Elt F)),
    StableHlo.unary main_v132 main_v133 (broadcastInDim S64x1 ![0] bcast_S64_S64x1_0 : (⟨S64, .f32⟩ : BufTy).Contents (Elt F) → (⟨S64x1, .f32⟩ : BufTy).Contents (Elt F)),
    StableHlo.unary main_v133 main_v134 (broadcastInDim S64x128 ![0, 1] bcast_S64x1_S64x128_0_1 : (⟨S64x1, .f32⟩ : BufTy).Contents (Elt F) → (⟨S64x128, .f32⟩ : BufTy).Contents (Elt F)),
    StableHlo.binary main_v126 main_v134 main_v135 (Host.divf : (⟨S64x128, .f32⟩ : BufTy).Contents (Elt F) → (⟨S64x128, .f32⟩ : BufTy).Contents (Elt F) → (⟨S64x128, .f32⟩ : BufTy).Contents (Elt F)) ]

/-- Stage 7: the two linear heads. -/
def st7 : List (HloOp τ sig (Elt F)) :=
  [ StableHlo.binary main_v135 main_arg9 main_v136 ((fun l r => Host.dotGeneral dot_S64x128_S128x10_S64x10_1_0_0_1_n_n none l r) : (⟨S64x128, .f32⟩ : BufTy).Contents (Elt F) → (⟨S128x10, .f32⟩ : BufTy).Contents (Elt F) → (⟨S64x10, .f32⟩ : BufTy).Contents (Elt F)),
    StableHlo.unary main_arg10 main_v137 (broadcastInDim S1x10 ![1] bcast_S10_S1x10_1 : (⟨S10, .f32⟩ : BufTy).Contents (Elt F) → (⟨S1x10, .f32⟩ : BufTy).Contents (Elt F)),
    StableHlo.unary main_v137 main_v138 (broadcastInDim S64x10 ![0, 1] bcast_S1x10_S64x10_0_1 : (⟨S1x10, .f32⟩ : BufTy).Contents (Elt F) → (⟨S64x10, .f32⟩ : BufTy).Contents (Elt F)),
    StableHlo.binary main_v136 main_v138 main_v139 (addf : (⟨S64x10, .f32⟩ : BufTy).Contents (Elt F) → (⟨S64x10, .f32⟩ : BufTy).Contents (Elt F) → (⟨S64x10, .f32⟩ : BufTy).Contents (Elt F)),
    StableHlo.binary main_v135 main_arg11 main_v140 ((fun l r => Host.dotGeneral dot_S64x128_S128x1_S64x1_1_0_0_1_n_n none l r) : (⟨S64x128, .f32⟩ : BufTy).Contents (Elt F) → (⟨S128x1, .f32⟩ : BufTy).Contents (Elt F) → (⟨S64x1, .f32⟩ : BufTy).Contents (Elt F)),
    StableHlo.unary main_arg12 main_v141 (broadcastInDim S1x1 ![1] bcast_S1_S1x1_1 : (⟨S1, .f32⟩ : BufTy).Contents (Elt F) → (⟨S1x1, .f32⟩ : BufTy).Contents (Elt F)),
    StableHlo.unary main_v141 main_v142 (broadcastInDim S64x1 ![0, 1] bcast_S1x1_S64x1_0_1 : (⟨S1x1, .f32⟩ : BufTy).Contents (Elt F) → (⟨S64x1, .f32⟩ : BufTy).Contents (Elt F)),
    StableHlo.binary main_v140 main_v142 main_v143 (addf : (⟨S64x1, .f32⟩ : BufTy).Contents (Elt F) → (⟨S64x1, .f32⟩ : BufTy).Contents (Elt F) → (⟨S64x1, .f32⟩ : BufTy).Contents (Elt F)) ]

set_option maxRecDepth 8192 in
/-- The windows' operations are the stages' operations, in the same order. -/
theorem ops_split : (ops0 ++ (ops1 ++ ops2) : List (HloOp τ sig (Elt F)))
    = st0 ++ (st1 ++ (st2 ++ (st3 ++ (st4 ++ (st5 ++ (st6 ++ st7)))))) := rfl

/-- A singleton of a listed reference lies in the listed references' buffers. -/
theorem wsub {W : List (Ref sig .tc)} (y : Ref sig .tc) (h : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, h, rfl⟩))

/-- The references stage 0 writes. -/
def wr0 : List (Ref sig .tc) := [main_v0, main_v1, main_v2, main_v3, main_cst, main_v4, main_cst_0, main_v5, main_v6, main_v7, main_cst_1, main_v8, main_v9, main_cst_2, main_v10, main_v11, main_cst_3, main_v12, main_v13, main_v14]

set_option maxRecDepth 8192 in
theorem st0_writes : (st0 : List (HloOp τ sig (Elt F))).Forall fun op => op.writes ⊆ ((wr0).map (Proc.devRef (τ := τ) .tc)).toFinset :=
  ⟨wsub main_v0 (by decide), wsub main_v1 (by decide), wsub main_v2 (by decide), wsub main_v3 (by decide), wsub main_cst (by decide), wsub main_v4 (by decide), wsub main_cst_0 (by decide), wsub main_v5 (by decide), wsub main_v6 (by decide), wsub main_v7 (by decide), wsub main_cst_1 (by decide), wsub main_v8 (by decide), wsub main_v9 (by decide), wsub main_cst_2 (by decide), wsub main_v10 (by decide), wsub main_v11 (by decide), wsub main_cst_3 (by decide), wsub main_v12 (by decide), wsub main_v13 (by decide), wsub main_v14 (by decide)⟩

/-- A reference stage 0 does not write keeps its contents through it. -/
theorem keep0 (V : Valuation τ sig (Elt F)) (r : Ref sig .tc) (hr : r ∉ wr0) :
    after st0 V (Proc.devRef .tc r) = V (Proc.devRef .tc r) :=
  after_of_writes_sub st0 V st0_writes hr

/-- The references stage 1 writes. -/
def wr1 : List (Ref sig .tc) := [main_c, main_v15, main_v16, main_c_4, main_v17, main_v18, main_v19, main_v20, main_v21, main_c_5, main_v22, main_v23, main_c_6, main_v24, main_v25, main_v26, main_v27, main_v28, main_v29, main_v30, main_c_7, main_v31, main_v32, main_c_8, main_v33, main_v34, main_v35, main_v36, main_v37, main_v38, main_v39, main_cst_9, main_v40, main_v41, main_v42, main_v43, main_v44, main_v45, main_v46, main_v47, main_v48, main_v49]

set_option maxRecDepth 8192 in
theorem st1_writes : (st1 : List (HloOp τ sig (Elt F))).Forall fun op => op.writes ⊆ ((wr1).map (Proc.devRef (τ := τ) .tc)).toFinset :=
  ⟨wsub main_c (by decide), wsub main_v15 (by decide), wsub main_v16 (by decide), wsub main_c_4 (by decide), wsub main_v17 (by decide), wsub main_v18 (by decide), wsub main_v19 (by decide), wsub main_v20 (by decide), wsub main_v21 (by decide), wsub main_c_5 (by decide), wsub main_v22 (by decide), wsub main_v23 (by decide), wsub main_c_6 (by decide), wsub main_v24 (by decide), wsub main_v25 (by decide), wsub main_v26 (by decide), wsub main_v27 (by decide), wsub main_v28 (by decide), wsub main_v29 (by decide), wsub main_v30 (by decide), wsub main_c_7 (by decide), wsub main_v31 (by decide), wsub main_v32 (by decide), wsub main_c_8 (by decide), wsub main_v33 (by decide), wsub main_v34 (by decide), wsub main_v35 (by decide), wsub main_v36 (by decide), wsub main_v37 (by decide), wsub main_v38 (by decide), wsub main_v39 (by decide), wsub main_cst_9 (by decide), wsub main_v40 (by decide), wsub main_v41 (by decide), wsub main_v42 (by decide), wsub main_v43 (by decide), wsub main_v44 (by decide), wsub main_v45 (by decide), wsub main_v46 (by decide), wsub main_v47 (by decide), wsub main_v48 (by decide), wsub main_v49 (by decide)⟩

/-- A reference stage 1 does not write keeps its contents through it. -/
theorem keep1 (V : Valuation τ sig (Elt F)) (r : Ref sig .tc) (hr : r ∉ wr1) :
    after st1 V (Proc.devRef .tc r) = V (Proc.devRef .tc r) :=
  after_of_writes_sub st1 V st1_writes hr

/-- The references stage 2 writes. -/
def wr2 : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v50]

set_option maxRecDepth 8192 in
theorem st2_writes : (st2 : List (HloOp τ sig (Elt F))).Forall fun op => op.writes ⊆ ((wr2).map (Proc.devRef (τ := τ) .tc)).toFinset :=
  ⟨wsub main_call0_cst (by decide), wsub main_call0_v0 (by decide), wsub main_call0_v1 (by decide), wsub main_call0_cst_0 (by decide), wsub main_call0_v2 (by decide), wsub main_call0_v3 (by decide), wsub main_call0_cst_1 (by decide), wsub main_call0_call0_v0 (by decide), wsub main_call0_call0_v1 (by decide), wsub main_call0_v4 (by decide), wsub main_call0_v5 (by decide), wsub main_call0_cst_2 (by decide), wsub main_call0_v6 (by decide), wsub main_call0_v7 (by decide), wsub main_v50 (by decide)⟩

/-- A reference stage 2 does not write keeps its contents through it. -/
theorem keep2 (V : Valuation τ sig (Elt F)) (r : Ref sig .tc) (hr : r ∉ wr2) :
    after st2 V (Proc.devRef .tc r) = V (Proc.devRef .tc r) :=
  after_of_writes_sub st2 V st2_writes hr

/-- The references stage 3 writes. -/
def wr3 : List (Ref sig .tc) := [main_v51, main_c_10, main_v52, main_v53, main_c_11, main_v54, main_v55, main_v56, main_v57, main_v58, main_c_12, main_v59, main_v60, main_c_13, main_v61, main_v62, main_v63, main_v64, main_v65, main_v66, main_v67, main_c_14, main_v68, main_v69, main_c_15, main_v70, main_v71, main_v72, main_v73, main_v74, main_v75, main_v76, main_cst_16, main_v77, main_v78, main_v79, main_v80, main_v81, main_v82, main_v83, main_v84, main_v85, main_v86]

set_option maxRecDepth 8192 in
theorem st3_writes : (st3 : List (HloOp τ sig (Elt F))).Forall fun op => op.writes ⊆ ((wr3).map (Proc.devRef (τ := τ) .tc)).toFinset :=
  ⟨wsub main_v51 (by decide), wsub main_c_10 (by decide), wsub main_v52 (by decide), wsub main_v53 (by decide), wsub main_c_11 (by decide), wsub main_v54 (by decide), wsub main_v55 (by decide), wsub main_v56 (by decide), wsub main_v57 (by decide), wsub main_v58 (by decide), wsub main_c_12 (by decide), wsub main_v59 (by decide), wsub main_v60 (by decide), wsub main_c_13 (by decide), wsub main_v61 (by decide), wsub main_v62 (by decide), wsub main_v63 (by decide), wsub main_v64 (by decide), wsub main_v65 (by decide), wsub main_v66 (by decide), wsub main_v67 (by decide), wsub main_c_14 (by decide), wsub main_v68 (by decide), wsub main_v69 (by decide), wsub main_c_15 (by decide), wsub main_v70 (by decide), wsub main_v71 (by decide), wsub main_v72 (by decide), wsub main_v73 (by decide), wsub main_v74 (by decide), wsub main_v75 (by decide), wsub main_v76 (by decide), wsub main_cst_16 (by decide), wsub main_v77 (by decide), wsub main_v78 (by decide), wsub main_v79 (by decide), wsub main_v80 (by decide), wsub main_v81 (by decide), wsub main_v82 (by decide), wsub main_v83 (by decide), wsub main_v84 (by decide), wsub main_v85 (by decide), wsub main_v86 (by decide)⟩

/-- A reference stage 3 does not write keeps its contents through it. -/
theorem keep3 (V : Valuation τ sig (Elt F)) (r : Ref sig .tc) (hr : r ∉ wr3) :
    after st3 V (Proc.devRef .tc r) = V (Proc.devRef .tc r) :=
  after_of_writes_sub st3 V st3_writes hr

/-- The references stage 4 writes. -/
def wr4 : List (Ref sig .tc) := [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v87]

set_option maxRecDepth 8192 in
theorem st4_writes : (st4 : List (HloOp τ sig (Elt F))).Forall fun op => op.writes ⊆ ((wr4).map (Proc.devRef (τ := τ) .tc)).toFinset :=
  ⟨wsub main_call1_cst (by decide), wsub main_call1_v0 (by decide), wsub main_call1_v1 (by decide), wsub main_call1_cst_0 (by decide), wsub main_call1_v2 (by decide), wsub main_call1_v3 (by decide), wsub main_call1_cst_1 (by decide), wsub main_call1_call0_v0 (by decide), wsub main_call1_call0_v1 (by decide), wsub main_call1_v4 (by decide), wsub main_call1_v5 (by decide), wsub main_call1_cst_2 (by decide), wsub main_call1_v6 (by decide), wsub main_call1_v7 (by decide), wsub main_v87 (by decide)⟩

/-- A reference stage 4 does not write keeps its contents through it. -/
theorem keep4 (V : Valuation τ sig (Elt F)) (r : Ref sig .tc) (hr : r ∉ wr4) :
    after st4 V (Proc.devRef .tc r) = V (Proc.devRef .tc r) :=
  after_of_writes_sub st4 V st4_writes hr

/-- The references stage 5 writes. -/
def wr5 : List (Ref sig .tc) := [main_v88, main_c_17, main_v89, main_v90, main_c_18, main_v91, main_v92, main_v93, main_v94, main_v95, main_c_19, main_v96, main_v97, main_c_20, main_v98, main_v99, main_v100, main_v101, main_v102, main_v103, main_v104, main_c_21, main_v105, main_v106, main_c_22, main_v107, main_v108, main_v109, main_v110, main_v111, main_v112, main_v113, main_cst_23, main_v114, main_v115, main_v116, main_v117, main_v118, main_v119, main_v120, main_v121, main_v122, main_v123]

set_option maxRecDepth 8192 in
theorem st5_writes : (st5 : List (HloOp τ sig (Elt F))).Forall fun op => op.writes ⊆ ((wr5).map (Proc.devRef (τ := τ) .tc)).toFinset :=
  ⟨wsub main_v88 (by decide), wsub main_c_17 (by decide), wsub main_v89 (by decide), wsub main_v90 (by decide), wsub main_c_18 (by decide), wsub main_v91 (by decide), wsub main_v92 (by decide), wsub main_v93 (by decide), wsub main_v94 (by decide), wsub main_v95 (by decide), wsub main_c_19 (by decide), wsub main_v96 (by decide), wsub main_v97 (by decide), wsub main_c_20 (by decide), wsub main_v98 (by decide), wsub main_v99 (by decide), wsub main_v100 (by decide), wsub main_v101 (by decide), wsub main_v102 (by decide), wsub main_v103 (by decide), wsub main_v104 (by decide), wsub main_c_21 (by decide), wsub main_v105 (by decide), wsub main_v106 (by decide), wsub main_c_22 (by decide), wsub main_v107 (by decide), wsub main_v108 (by decide), wsub main_v109 (by decide), wsub main_v110 (by decide), wsub main_v111 (by decide), wsub main_v112 (by decide), wsub main_v113 (by decide), wsub main_cst_23 (by decide), wsub main_v114 (by decide), wsub main_v115 (by decide), wsub main_v116 (by decide), wsub main_v117 (by decide), wsub main_v118 (by decide), wsub main_v119 (by decide), wsub main_v120 (by decide), wsub main_v121 (by decide), wsub main_v122 (by decide), wsub main_v123 (by decide)⟩

/-- A reference stage 5 does not write keeps its contents through it. -/
theorem keep5 (V : Valuation τ sig (Elt F)) (r : Ref sig .tc) (hr : r ∉ wr5) :
    after st5 V (Proc.devRef .tc r) = V (Proc.devRef .tc r) :=
  after_of_writes_sub st5 V st5_writes hr

/-- The references stage 6 writes. -/
def wr6 : List (Ref sig .tc) := [main_cst_24, main_v124, main_v125, main_v126, main_cst_25, main_v127, main_cst_26, main_v128, main_v129, main_v130, main_cst_27, main_v131, main_v132, main_v133, main_v134, main_v135]

set_option maxRecDepth 8192 in
theorem st6_writes : (st6 : List (HloOp τ sig (Elt F))).Forall fun op => op.writes ⊆ ((wr6).map (Proc.devRef (τ := τ) .tc)).toFinset :=
  ⟨wsub main_cst_24 (by decide), wsub main_v124 (by decide), wsub main_v125 (by decide), wsub main_v126 (by decide), wsub main_cst_25 (by decide), wsub main_v127 (by decide), wsub main_cst_26 (by decide), wsub main_v128 (by decide), wsub main_v129 (by decide), wsub main_v130 (by decide), wsub main_cst_27 (by decide), wsub main_v131 (by decide), wsub main_v132 (by decide), wsub main_v133 (by decide), wsub main_v134 (by decide), wsub main_v135 (by decide)⟩

/-- A reference stage 6 does not write keeps its contents through it. -/
theorem keep6 (V : Valuation τ sig (Elt F)) (r : Ref sig .tc) (hr : r ∉ wr6) :
    after st6 V (Proc.devRef .tc r) = V (Proc.devRef .tc r) :=
  after_of_writes_sub st6 V st6_writes hr

/-- The references stage 7 writes. -/
def wr7 : List (Ref sig .tc) := [main_v136, main_v137, main_v138, main_v139, main_v140, main_v141, main_v142, main_v143]

set_option maxRecDepth 8192 in
theorem st7_writes : (st7 : List (HloOp τ sig (Elt F))).Forall fun op => op.writes ⊆ ((wr7).map (Proc.devRef (τ := τ) .tc)).toFinset :=
  ⟨wsub main_v136 (by decide), wsub main_v137 (by decide), wsub main_v138 (by decide), wsub main_v139 (by decide), wsub main_v140 (by decide), wsub main_v141 (by decide), wsub main_v142 (by decide), wsub main_v143 (by decide)⟩

/-- A reference stage 7 does not write keeps its contents through it. -/
theorem keep7 (V : Valuation τ sig (Elt F)) (r : Ref sig .tc) (hr : r ∉ wr7) :
    after st7 V (Proc.devRef .tc r) = V (Proc.devRef .tc r) :=
  after_of_writes_sub st7 V st7_writes hr

end Cert.ReferenceIdeal.RunV

end
-- ==== Proof.RefValue.lean ====
/-
  The reference's run, read.

  The 202 host operations of @main are followed stage by stage over a general valuation of the buffers: the degrees
  and the first dense product; a layer's aggregation `Σ_{e : dst e = v} h (src e) · coef e + h v / deg v + b`; the
  exponential linear unit; the next product and layer, twice; the per-graph means; the two heads.  Each stage leaves
  in its output buffer the function of `Cert.Spec` of that stage applied to what the stage found in its input
  buffers, and it writes none of the buffers a later stage reads (the edge rows, the degrees' powers, the arguments).
  Composed, the three results are `Cert.Spec.pooled`, `Cert.Spec.headC` and `Cert.Spec.headR` of the launch
  contents of the arguments, and the arguments are unchanged.
-/
import proofs.«401817_j18751827214892_1_alg».proof.Proof.Gen.ReferenceIdeal
import proofs.«401817_j18751827214892_1_alg».proof.Proof.Spec
import proofs.«401817_j18751827214892_1_alg».proof.Proof.RefRun
import Idealize.ShloMosaic.Lib.StableHlo.Run

noncomputable section

namespace Cert.ReferenceIdeal.RunV

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd

/-! ## What each stage leaves, over a general valuation -/

theorem s0_v1 (V : Valuation τ sig (Elt F)) :
    after st0 V (main_v1 : DevRef τ sig) = Cert.Spec.srcOf (V (main_arg1 : DevRef τ sig)) := by
  unfold st0
  after_results_simp
  rfl

theorem s0_v3 (V : Valuation τ sig (Elt F)) :
    after st0 V (main_v3 : DevRef τ sig) = Cert.Spec.dstOf (V (main_arg1 : DevRef τ sig)) := by
  unfold st0
  after_results_simp
  rfl

theorem s0_v11 (V : Valuation τ sig (Elt F)) :
    after st0 V (main_v11 : DevRef τ sig) = Cert.Spec.degInvSqrt (V (main_arg1 : DevRef τ sig)) := by
  unfold st0
  after_results_simp
  rfl

theorem s0_v13 (V : Valuation τ sig (Elt F)) :
    after st0 V (main_v13 : DevRef τ sig) = Cert.Spec.degInv (V (main_arg1 : DevRef τ sig)) := by
  unfold st0
  after_results_simp
  rfl

theorem s0_v14 (V : Valuation τ sig (Elt F)) :
    after st0 V (main_v14 : DevRef τ sig) = Cert.Spec.dense (V (main_arg0 : DevRef τ sig)) (V (main_arg3 : DevRef τ sig)) := by
  unfold st0
  after_results_simp
  rfl

set_option maxRecDepth 8192 in
/-- The first layer, from the product in `main_v14`, at a valuation that holds the edge rows and the degrees' powers. -/
theorem s1_v49 (V : Valuation τ sig (Elt F)) (ei : (⟨S2x1600000, .i32⟩ : BufTy).Contents (Elt F))
    (h1 : V (main_v1 : DevRef τ sig) = Cert.Spec.srcOf ei) (h3 : V (main_v3 : DevRef τ sig) = Cert.Spec.dstOf ei)
    (h11 : V (main_v11 : DevRef τ sig) = Cert.Spec.degInvSqrt ei) (h13 : V (main_v13 : DevRef τ sig) = Cert.Spec.degInv ei) :
    after st1 V (main_v49 : DevRef τ sig) = Cert.Spec.layerOf ei (V (main_v14 : DevRef τ sig)) (V (main_arg4 : DevRef τ sig)) := by
  unfold st1
  after_results_simp
  rw [h1, h3, h11, h13]
  rfl

set_option maxRecDepth 8192 in
theorem s2_v50 (V : Valuation τ sig (Elt F)) :
    after st2 V (main_v50 : DevRef τ sig) = Cert.Spec.elu (V (main_v49 : DevRef τ sig)) := by
  unfold st2
  after_results_simp
  rfl

set_option maxRecDepth 8192 in
/-- The second product and layer. -/
theorem s3_v86 (V : Valuation τ sig (Elt F)) (ei : (⟨S2x1600000, .i32⟩ : BufTy).Contents (Elt F))
    (h1 : V (main_v1 : DevRef τ sig) = Cert.Spec.srcOf ei) (h3 : V (main_v3 : DevRef τ sig) = Cert.Spec.dstOf ei)
    (h11 : V (main_v11 : DevRef τ sig) = Cert.Spec.degInvSqrt ei) (h13 : V (main_v13 : DevRef τ sig) = Cert.Spec.degInv ei) :
    after st3 V (main_v86 : DevRef τ sig)
      = Cert.Spec.layerOf ei (Cert.Spec.dense (V (main_v50 : DevRef τ sig)) (V (main_arg5 : DevRef τ sig))) (V (main_arg6 : DevRef τ sig)) := by
  unfold st3
  after_results_simp
  rw [h1, h3, h11, h13]
  rfl

set_option maxRecDepth 8192 in
theorem s4_v87 (V : Valuation τ sig (Elt F)) :
    after st4 V (main_v87 : DevRef τ sig) = Cert.Spec.elu (V (main_v86 : DevRef τ sig)) := by
  unfold st4
  after_results_simp
  rfl

set_option maxRecDepth 8192 in
/-- The third product and layer. -/
theorem s5_v123 (V : Valuation τ sig (Elt F)) (ei : (⟨S2x1600000, .i32⟩ : BufTy).Contents (Elt F))
    (h1 : V (main_v1 : DevRef τ sig) = Cert.Spec.srcOf ei) (h3 : V (main_v3 : DevRef τ sig) = Cert.Spec.dstOf ei)
    (h11 : V (main_v11 : DevRef τ sig) = Cert.Spec.degInvSqrt ei) (h13 : V (main_v13 : DevRef τ sig) = Cert.Spec.degInv ei) :
    after st5 V (main_v123 : DevRef τ sig)
      = Cert.Spec.layerOf ei (Cert.Spec.dense (V (main_v87 : DevRef τ sig)) (V (main_arg7 : DevRef τ sig))) (V (main_arg8 : DevRef τ sig)) := by
  unfold st5
  after_results_simp
  rw [h1, h3, h11, h13]
  rfl

theorem s6_v135 (V : Valuation τ sig (Elt F)) :
    after st6 V (main_v135 : DevRef τ sig)
      = Cert.Spec.meanOf (Cert.Spec.poolSum (Cert.Spec.batchCol (V (main_arg2 : DevRef τ sig))) (V (main_v123 : DevRef τ sig)))
          (Cert.Spec.poolCnt (Cert.Spec.batchCol (V (main_arg2 : DevRef τ sig)))) := by
  unfold st6
  after_results_simp
  rfl

theorem s7_v139 (V : Valuation τ sig (Elt F)) :
    after st7 V (main_v139 : DevRef τ sig)
      = Cert.Spec.headC (V (main_v135 : DevRef τ sig)) (V (main_arg9 : DevRef τ sig)) (V (main_arg10 : DevRef τ sig)) := by
  unfold st7
  after_results_simp
  rfl

theorem s7_v143 (V : Valuation τ sig (Elt F)) :
    after st7 V (main_v143 : DevRef τ sig)
      = Cert.Spec.headR (V (main_v135 : DevRef τ sig)) (V (main_arg11 : DevRef τ sig)) (V (main_arg12 : DevRef τ sig)) := by
  unfold st7
  after_results_simp
  rfl

/-! ## What every later stage finds in place -/

/-- A valuation `W` reached from `V` holds the two rows of `V`'s edge table, the powers of its degrees, and
    `V`'s thirteen arguments. -/
structure Base (V W : Valuation τ sig (Elt F)) : Prop where
  v1 : W (main_v1 : DevRef τ sig) = Cert.Spec.srcOf (V (main_arg1 : DevRef τ sig))
  v3 : W (main_v3 : DevRef τ sig) = Cert.Spec.dstOf (V (main_arg1 : DevRef τ sig))
  v11 : W (main_v11 : DevRef τ sig) = Cert.Spec.degInvSqrt (V (main_arg1 : DevRef τ sig))
  v13 : W (main_v13 : DevRef τ sig) = Cert.Spec.degInv (V (main_arg1 : DevRef τ sig))
  a0 : W (main_arg0 : DevRef τ sig) = V (main_arg0 : DevRef τ sig)
  a1 : W (main_arg1 : DevRef τ sig) = V (main_arg1 : DevRef τ sig)
  a2 : W (main_arg2 : DevRef τ sig) = V (main_arg2 : DevRef τ sig)
  a3 : W (main_arg3 : DevRef τ sig) = V (main_arg3 : DevRef τ sig)
  a4 : W (main_arg4 : DevRef τ sig) = V (main_arg4 : DevRef τ sig)
  a5 : W (main_arg5 : DevRef τ sig) = V (main_arg5 : DevRef τ sig)
  a6 : W (main_arg6 : DevRef τ sig) = V (main_arg6 : DevRef τ sig)
  a7 : W (main_arg7 : DevRef τ sig) = V (main_arg7 : DevRef τ sig)
  a8 : W (main_arg8 : DevRef τ sig) = V (main_arg8 : DevRef τ sig)
  a9 : W (main_arg9 : DevRef τ sig) = V (main_arg9 : DevRef τ sig)
  a10 : W (main_arg10 : DevRef τ sig) = V (main_arg10 : DevRef τ sig)
  a11 : W (main_arg11 : DevRef τ sig) = V (main_arg11 : DevRef τ sig)
  a12 : W (main_arg12 : DevRef τ sig) = V (main_arg12 : DevRef τ sig)

/-- The first stage establishes it. -/
theorem base0 (V : Valuation τ sig (Elt F)) : Base V (after st0 V) :=
  ⟨s0_v1 V, s0_v3 V, s0_v11 V, s0_v13 V, keep0 V main_arg0 (by decide), keep0 V main_arg1 (by decide), keep0 V main_arg2 (by decide), keep0 V main_arg3 (by decide), keep0 V main_arg4 (by decide), keep0 V main_arg5 (by decide), keep0 V main_arg6 (by decide), keep0 V main_arg7 (by decide), keep0 V main_arg8 (by decide), keep0 V main_arg9 (by decide), keep0 V main_arg10 (by decide), keep0 V main_arg11 (by decide), keep0 V main_arg12 (by decide)⟩

/-- Stage 1 writes none of these references. -/
theorem base1 {V W : Valuation τ sig (Elt F)} (h : Base V W) : Base V (after st1 W) :=
  ⟨(keep1 W main_v1 (by decide)).trans h.v1,
   (keep1 W main_v3 (by decide)).trans h.v3,
   (keep1 W main_v11 (by decide)).trans h.v11,
   (keep1 W main_v13 (by decide)).trans h.v13,
   (keep1 W main_arg0 (by decide)).trans h.a0,
   (keep1 W main_arg1 (by decide)).trans h.a1,
   (keep1 W main_arg2 (by decide)).trans h.a2,
   (keep1 W main_arg3 (by decide)).trans h.a3,
   (keep1 W main_arg4 (by decide)).trans h.a4,
   (keep1 W main_arg5 (by decide)).trans h.a5,
   (keep1 W main_arg6 (by decide)).trans h.a6,
   (keep1 W main_arg7 (by decide)).trans h.a7,
   (keep1 W main_arg8 (by decide)).trans h.a8,
   (keep1 W main_arg9 (by decide)).trans h.a9,
   (keep1 W main_arg10 (by decide)).trans h.a10,
   (keep1 W main_arg11 (by decide)).trans h.a11,
   (keep1 W main_arg12 (by decide)).trans h.a12⟩

/-- Stage 2 writes none of these references. -/
theorem base2 {V W : Valuation τ sig (Elt F)} (h : Base V W) : Base V (after st2 W) :=
  ⟨(keep2 W main_v1 (by decide)).trans h.v1,
   (keep2 W main_v3 (by decide)).trans h.v3,
   (keep2 W main_v11 (by decide)).trans h.v11,
   (keep2 W main_v13 (by decide)).trans h.v13,
   (keep2 W main_arg0 (by decide)).trans h.a0,
   (keep2 W main_arg1 (by decide)).trans h.a1,
   (keep2 W main_arg2 (by decide)).trans h.a2,
   (keep2 W main_arg3 (by decide)).trans h.a3,
   (keep2 W main_arg4 (by decide)).trans h.a4,
   (keep2 W main_arg5 (by decide)).trans h.a5,
   (keep2 W main_arg6 (by decide)).trans h.a6,
   (keep2 W main_arg7 (by decide)).trans h.a7,
   (keep2 W main_arg8 (by decide)).trans h.a8,
   (keep2 W main_arg9 (by decide)).trans h.a9,
   (keep2 W main_arg10 (by decide)).trans h.a10,
   (keep2 W main_arg11 (by decide)).trans h.a11,
   (keep2 W main_arg12 (by decide)).trans h.a12⟩

/-- Stage 3 writes none of these references. -/
theorem base3 {V W : Valuation τ sig (Elt F)} (h : Base V W) : Base V (after st3 W) :=
  ⟨(keep3 W main_v1 (by decide)).trans h.v1,
   (keep3 W main_v3 (by decide)).trans h.v3,
   (keep3 W main_v11 (by decide)).trans h.v11,
   (keep3 W main_v13 (by decide)).trans h.v13,
   (keep3 W main_arg0 (by decide)).trans h.a0,
   (keep3 W main_arg1 (by decide)).trans h.a1,
   (keep3 W main_arg2 (by decide)).trans h.a2,
   (keep3 W main_arg3 (by decide)).trans h.a3,
   (keep3 W main_arg4 (by decide)).trans h.a4,
   (keep3 W main_arg5 (by decide)).trans h.a5,
   (keep3 W main_arg6 (by decide)).trans h.a6,
   (keep3 W main_arg7 (by decide)).trans h.a7,
   (keep3 W main_arg8 (by decide)).trans h.a8,
   (keep3 W main_arg9 (by decide)).trans h.a9,
   (keep3 W main_arg10 (by decide)).trans h.a10,
   (keep3 W main_arg11 (by decide)).trans h.a11,
   (keep3 W main_arg12 (by decide)).trans h.a12⟩

/-- Stage 4 writes none of these references. -/
theorem base4 {V W : Valuation τ sig (Elt F)} (h : Base V W) : Base V (after st4 W) :=
  ⟨(keep4 W main_v1 (by decide)).trans h.v1,
   (keep4 W main_v3 (by decide)).trans h.v3,
   (keep4 W main_v11 (by decide)).trans h.v11,
   (keep4 W main_v13 (by decide)).trans h.v13,
   (keep4 W main_arg0 (by decide)).trans h.a0,
   (keep4 W main_arg1 (by decide)).trans h.a1,
   (keep4 W main_arg2 (by decide)).trans h.a2,
   (keep4 W main_arg3 (by decide)).trans h.a3,
   (keep4 W main_arg4 (by decide)).trans h.a4,
   (keep4 W main_arg5 (by decide)).trans h.a5,
   (keep4 W main_arg6 (by decide)).trans h.a6,
   (keep4 W main_arg7 (by decide)).trans h.a7,
   (keep4 W main_arg8 (by decide)).trans h.a8,
   (keep4 W main_arg9 (by decide)).trans h.a9,
   (keep4 W main_arg10 (by decide)).trans h.a10,
   (keep4 W main_arg11 (by decide)).trans h.a11,
   (keep4 W main_arg12 (by decide)).trans h.a12⟩

/-- Stage 5 writes none of these references. -/
theorem base5 {V W : Valuation τ sig (Elt F)} (h : Base V W) : Base V (after st5 W) :=
  ⟨(keep5 W main_v1 (by decide)).trans h.v1,
   (keep5 W main_v3 (by decide)).trans h.v3,
   (keep5 W main_v11 (by decide)).trans h.v11,
   (keep5 W main_v13 (by decide)).trans h.v13,
   (keep5 W main_arg0 (by decide)).trans h.a0,
   (keep5 W main_arg1 (by decide)).trans h.a1,
   (keep5 W main_arg2 (by decide)).trans h.a2,
   (keep5 W main_arg3 (by decide)).trans h.a3,
   (keep5 W main_arg4 (by decide)).trans h.a4,
   (keep5 W main_arg5 (by decide)).trans h.a5,
   (keep5 W main_arg6 (by decide)).trans h.a6,
   (keep5 W main_arg7 (by decide)).trans h.a7,
   (keep5 W main_arg8 (by decide)).trans h.a8,
   (keep5 W main_arg9 (by decide)).trans h.a9,
   (keep5 W main_arg10 (by decide)).trans h.a10,
   (keep5 W main_arg11 (by decide)).trans h.a11,
   (keep5 W main_arg12 (by decide)).trans h.a12⟩

/-- Stage 6 writes none of these references. -/
theorem base6 {V W : Valuation τ sig (Elt F)} (h : Base V W) : Base V (after st6 W) :=
  ⟨(keep6 W main_v1 (by decide)).trans h.v1,
   (keep6 W main_v3 (by decide)).trans h.v3,
   (keep6 W main_v11 (by decide)).trans h.v11,
   (keep6 W main_v13 (by decide)).trans h.v13,
   (keep6 W main_arg0 (by decide)).trans h.a0,
   (keep6 W main_arg1 (by decide)).trans h.a1,
   (keep6 W main_arg2 (by decide)).trans h.a2,
   (keep6 W main_arg3 (by decide)).trans h.a3,
   (keep6 W main_arg4 (by decide)).trans h.a4,
   (keep6 W main_arg5 (by decide)).trans h.a5,
   (keep6 W main_arg6 (by decide)).trans h.a6,
   (keep6 W main_arg7 (by decide)).trans h.a7,
   (keep6 W main_arg8 (by decide)).trans h.a8,
   (keep6 W main_arg9 (by decide)).trans h.a9,
   (keep6 W main_arg10 (by decide)).trans h.a10,
   (keep6 W main_arg11 (by decide)).trans h.a11,
   (keep6 W main_arg12 (by decide)).trans h.a12⟩

/-- Stage 7 writes none of these references. -/
theorem base7 {V W : Valuation τ sig (Elt F)} (h : Base V W) : Base V (after st7 W) :=
  ⟨(keep7 W main_v1 (by decide)).trans h.v1,
   (keep7 W main_v3 (by decide)).trans h.v3,
   (keep7 W main_v11 (by decide)).trans h.v11,
   (keep7 W main_v13 (by decide)).trans h.v13,
   (keep7 W main_arg0 (by decide)).trans h.a0,
   (keep7 W main_arg1 (by decide)).trans h.a1,
   (keep7 W main_arg2 (by decide)).trans h.a2,
   (keep7 W main_arg3 (by decide)).trans h.a3,
   (keep7 W main_arg4 (by decide)).trans h.a4,
   (keep7 W main_arg5 (by decide)).trans h.a5,
   (keep7 W main_arg6 (by decide)).trans h.a6,
   (keep7 W main_arg7 (by decide)).trans h.a7,
   (keep7 W main_arg8 (by decide)).trans h.a8,
   (keep7 W main_arg9 (by decide)).trans h.a9,
   (keep7 W main_arg10 (by decide)).trans h.a10,
   (keep7 W main_arg11 (by decide)).trans h.a11,
   (keep7 W main_arg12 (by decide)).trans h.a12⟩

/-! ## All operations -/

/-- The fold over two lines in a row is the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
/-- After all 202 operations, over a general valuation: the three results are the network's, the arguments are as
    they were.  The valuation is followed stage by stage; every stage reads its predecessor's one output, the edge
    rows and the degrees' powers (`Base`), and its own arguments. -/
theorem after_all (V : Valuation τ sig (Elt F)) :
    after (ops0 ++ (ops1 ++ ops2)) V (main_v135 : DevRef τ sig) = (Cert.Spec.pooled (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)))
    ∧ after (ops0 ++ (ops1 ++ ops2)) V (main_v139 : DevRef τ sig) = Cert.Spec.headC (Cert.Spec.pooled (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))) (V (main_arg9 : DevRef τ sig)) (V (main_arg10 : DevRef τ sig))
    ∧ after (ops0 ++ (ops1 ++ ops2)) V (main_v143 : DevRef τ sig) = Cert.Spec.headR (Cert.Spec.pooled (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))) (V (main_arg11 : DevRef τ sig)) (V (main_arg12 : DevRef τ sig))
    ∧ after (ops0 ++ (ops1 ++ ops2)) V (main_arg0 : DevRef τ sig) = V (main_arg0 : DevRef τ sig)
    ∧ after (ops0 ++ (ops1 ++ ops2)) V (main_arg1 : DevRef τ sig) = V (main_arg1 : DevRef τ sig)
    ∧ after (ops0 ++ (ops1 ++ ops2)) V (main_arg2 : DevRef τ sig) = V (main_arg2 : DevRef τ sig)
    ∧ after (ops0 ++ (ops1 ++ ops2)) V (main_arg3 : DevRef τ sig) = V (main_arg3 : DevRef τ sig)
    ∧ after (ops0 ++ (ops1 ++ ops2)) V (main_arg4 : DevRef τ sig) = V (main_arg4 : DevRef τ sig)
    ∧ after (ops0 ++ (ops1 ++ ops2)) V (main_arg5 : DevRef τ sig) = V (main_arg5 : DevRef τ sig)
    ∧ after (ops0 ++ (ops1 ++ ops2)) V (main_arg6 : DevRef τ sig) = V (main_arg6 : DevRef τ sig)
    ∧ after (ops0 ++ (ops1 ++ ops2)) V (main_arg7 : DevRef τ sig) = V (main_arg7 : DevRef τ sig)
    ∧ after (ops0 ++ (ops1 ++ ops2)) V (main_arg8 : DevRef τ sig) = V (main_arg8 : DevRef τ sig)
    ∧ after (ops0 ++ (ops1 ++ ops2)) V (main_arg9 : DevRef τ sig) = V (main_arg9 : DevRef τ sig)
    ∧ after (ops0 ++ (ops1 ++ ops2)) V (main_arg10 : DevRef τ sig) = V (main_arg10 : DevRef τ sig)
    ∧ after (ops0 ++ (ops1 ++ ops2)) V (main_arg11 : DevRef τ sig) = V (main_arg11 : DevRef τ sig)
    ∧ after (ops0 ++ (ops1 ++ ops2)) V (main_arg12 : DevRef τ sig) = V (main_arg12 : DevRef τ sig) := by
  have B0 : Base V (after st0 V) := base0 V
  have B1 : Base V (after st1 (after st0 V)) := base1 B0
  have B2 : Base V (after st2 (after st1 (after st0 V))) := base2 B1
  have B3 : Base V (after st3 (after st2 (after st1 (after st0 V)))) := base3 B2
  have B4 : Base V (after st4 (after st3 (after st2 (after st1 (after st0 V))))) := base4 B3
  have B5 : Base V (after st5 (after st4 (after st3 (after st2 (after st1 (after st0 V)))))) := base5 B4
  have B6 : Base V (after st6 (after st5 (after st4 (after st3 (after st2 (after st1 (after st0 V))))))) := base6 B5
  have B7 : Base V (after st7 (after st6 (after st5 (after st4 (after st3 (after st2 (after st1 (after st0 V)))))))) := base7 B6
  have x14 : (after st0 V) (main_v14 : DevRef τ sig) = Cert.Spec.dense (V (main_arg0 : DevRef τ sig)) (V (main_arg3 : DevRef τ sig)) := s0_v14 V
  have x49 : (after st1 (after st0 V)) (main_v49 : DevRef τ sig) = (Cert.Spec.layerOf (V (main_arg1 : DevRef τ sig)) (Cert.Spec.dense (V (main_arg0 : DevRef τ sig)) (V (main_arg3 : DevRef τ sig))) (V (main_arg4 : DevRef τ sig))) := by
    rw [s1_v49 (after st0 V) (V (main_arg1 : DevRef τ sig)) B0.v1 B0.v3 B0.v11 B0.v13, x14, B0.a4]
  have x50 : (after st2 (after st1 (after st0 V))) (main_v50 : DevRef τ sig) = Cert.Spec.elu (Cert.Spec.layerOf (V (main_arg1 : DevRef τ sig)) (Cert.Spec.dense (V (main_arg0 : DevRef τ sig)) (V (main_arg3 : DevRef τ sig))) (V (main_arg4 : DevRef τ sig))) := by
    rw [s2_v50 (after st1 (after st0 V)), x49]
  have x86 : (after st3 (after st2 (after st1 (after st0 V)))) (main_v86 : DevRef τ sig) = (Cert.Spec.layerOf (V (main_arg1 : DevRef τ sig)) (Cert.Spec.dense (Cert.Spec.elu (Cert.Spec.layerOf (V (main_arg1 : DevRef τ sig)) (Cert.Spec.dense (V (main_arg0 : DevRef τ sig)) (V (main_arg3 : DevRef τ sig))) (V (main_arg4 : DevRef τ sig)))) (V (main_arg5 : DevRef τ sig))) (V (main_arg6 : DevRef τ sig))) := by
    rw [s3_v86 (after st2 (after st1 (after st0 V))) (V (main_arg1 : DevRef τ sig)) B2.v1 B2.v3 B2.v11 B2.v13, x50, B2.a5, B2.a6]
  have x87 : (after st4 (after st3 (after st2 (after st1 (after st0 V))))) (main_v87 : DevRef τ sig) = Cert.Spec.elu (Cert.Spec.layerOf (V (main_arg1 : DevRef τ sig)) (Cert.Spec.dense (Cert.Spec.elu (Cert.Spec.layerOf (V (main_arg1 : DevRef τ sig)) (Cert.Spec.dense (V (main_arg0 : DevRef τ sig)) (V (main_arg3 : DevRef τ sig))) (V (main_arg4 : DevRef τ sig)))) (V (main_arg5 : DevRef τ sig))) (V (main_arg6 : DevRef τ sig))) := by
    rw [s4_v87 (after st3 (after st2 (after st1 (after st0 V)))), x86]
  have x123 : (after st5 (after st4 (after st3 (after st2 (after st1 (after st0 V)))))) (main_v123 : DevRef τ sig) = (Cert.Spec.layerOf (V (main_arg1 : DevRef τ sig)) (Cert.Spec.dense (Cert.Spec.elu (Cert.Spec.layerOf (V (main_arg1 : DevRef τ sig)) (Cert.Spec.dense (Cert.Spec.elu (Cert.Spec.layerOf (V (main_arg1 : DevRef τ sig)) (Cert.Spec.dense (V (main_arg0 : DevRef τ sig)) (V (main_arg3 : DevRef τ sig))) (V (main_arg4 : DevRef τ sig)))) (V (main_arg5 : DevRef τ sig))) (V (main_arg6 : DevRef τ sig)))) (V (main_arg7 : DevRef τ sig))) (V (main_arg8 : DevRef τ sig))) := by
    rw [s5_v123 (after st4 (after st3 (after st2 (after st1 (after st0 V))))) (V (main_arg1 : DevRef τ sig)) B4.v1 B4.v3 B4.v11 B4.v13, x87, B4.a7, B4.a8]
  have x135 : (after st6 (after st5 (after st4 (after st3 (after st2 (after st1 (after st0 V))))))) (main_v135 : DevRef τ sig) = (Cert.Spec.pooled (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))) := by
    rw [s6_v135 (after st5 (after st4 (after st3 (after st2 (after st1 (after st0 V)))))), x123, B5.a2]
    rfl
  have y135 : (after st7 (after st6 (after st5 (after st4 (after st3 (after st2 (after st1 (after st0 V)))))))) (main_v135 : DevRef τ sig) = (Cert.Spec.pooled (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))) :=
    (keep7 (after st6 (after st5 (after st4 (after st3 (after st2 (after st1 (after st0 V))))))) main_v135 (by decide)).trans x135
  have x139 : (after st7 (after st6 (after st5 (after st4 (after st3 (after st2 (after st1 (after st0 V)))))))) (main_v139 : DevRef τ sig) = Cert.Spec.headC (Cert.Spec.pooled (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))) (V (main_arg9 : DevRef τ sig)) (V (main_arg10 : DevRef τ sig)) := by
    rw [s7_v139 (after st6 (after st5 (after st4 (after st3 (after st2 (after st1 (after st0 V))))))), x135, B6.a9, B6.a10]
  have x143 : (after st7 (after st6 (after st5 (after st4 (after st3 (after st2 (after st1 (after st0 V)))))))) (main_v143 : DevRef τ sig) = Cert.Spec.headR (Cert.Spec.pooled (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))) (V (main_arg11 : DevRef τ sig)) (V (main_arg12 : DevRef τ sig)) := by
    rw [s7_v143 (after st6 (after st5 (after st4 (after st3 (after st2 (after st1 (after st0 V))))))), x135, B6.a11, B6.a12]
  rw [ops_split]
  simp only [after_app]
  exact ⟨y135, x139, x143, B7.a0, B7.a1, B7.a2, B7.a3, B7.a4, B7.a5, B7.a6, B7.a7, B7.a8, B7.a9, B7.a10, B7.a11, B7.a12⟩

/-- Every weakly fair execution of the reference's @main terminates, nothing faulting; its three results are the pooled
    features and the two heads of the network of `Cert.Spec`, read at the launch contents of the arguments, and the
    arguments end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v135) = (Cert.Spec.pooled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_v139) = Cert.Spec.headC (Cert.Spec.pooled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10))
      ∧ r.2.mem ((c.tc : Thread nD τ).loc main_v143) = Cert.Spec.headR (Cert.Spec.pooled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => by
      obtain ⟨e135, e139, e143, k0, k1, k2, k3, k4, k5, k6, k7, k8, k9, k10, k11, k12⟩ := after_all (launchContents m c)
      exact ⟨(h c main_v135).trans e135, (h c main_v139).trans e139, (h c main_v143).trans e143, (h c main_arg0).trans k0, (h c main_arg1).trans k1, (h c main_arg2).trans k2, (h c main_arg3).trans k3, (h c main_arg4).trans k4, (h c main_arg5).trans k5, (h c main_arg6).trans k6, (h c main_arg7).trans k7, (h c main_arg8).trans k8, (h c main_arg9).trans k9, (h c main_arg10).trans k10, (h c main_arg11).trans k11, (h c main_arg12).trans k12⟩)
    (run_all m ρ)

end Cert.ReferenceIdeal.RunV

end
-- ==== Proof.lean ====
/-
  The certificate of a three-layer graph convolution with mean pooling (ten kernel regions among host operations)
  against its plain reference.

  Both programs compute, on the extended reals, the network of `Cert.Spec`: per layer the dense product `h = x · W`,
  the edge aggregate `Σ_{e : dst e = v} h (src e) · coef e`, the self term `h v / deg v` and the bias; the exponential
  linear unit between layers; per graph the mean of its nodes' features; two linear heads.  The kernel's regions compute
  the dense products, the per-edge scaling, the layer's last sum and the pooling (as a product with indicator columns),
  its host operations the gathers and scatter-adds; each stage is shown to be the reference's stage as a whole array,
  so the shared gathers and scatter-adds are never opened.  The one ledger entry (a narrowing to bf16 and back, the
  identity on the extended reals) is the rule's own statement.
-/
import proofs.«401817_j18751827214892_1_alg».proof.Defs
import proofs.«401817_j18751827214892_1_alg».proof.Proof.Gen.Kernel
import proofs.«401817_j18751827214892_1_alg».proof.Proof.Gen.Kernel.Frame
import proofs.«401817_j18751827214892_1_alg».proof.Proof.Gen.KernelIdeal
import proofs.«401817_j18751827214892_1_alg».proof.Proof.Gen.KernelIdeal.Frame
import proofs.«401817_j18751827214892_1_alg».proof.Proof.Gen.ReferenceIdeal
import proofs.«401817_j18751827214892_1_alg».proof.Proof.Gen.Pre_finite_inputs
import proofs.«401817_j18751827214892_1_alg».proof.Proof.KernelRun
import proofs.«401817_j18751827214892_1_alg».proof.Proof.KChainT
import proofs.«401817_j18751827214892_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The reference runs and leaves its arguments as launched: its run with the three results dropped. -/
theorem frame_ri : Cert.frame_ReferenceIdeal := fun m ρ _ =>
  (θ_run Cert.ReferenceIdeal.defs _ _).mono (fun _ h c => (h c).2.2.2) (Cert.ReferenceIdeal.RunV.run (F := Ideal) m ρ)

/-- The ledger's one entry: narrowing a 5000×128 block to bf16 and widening it back is the identity on the extended
    reals. -/
theorem preserves : Cert.preserves_Kernel_KernelIdeal :=
  IdealRules.truncf_extf.statement Cert.KernelIdeal.S5000x128 .f32 .bf16

/-- Equal arguments give equal pooled features. -/
theorem pooled_congr {x x' : (⟨Cert.ReferenceIdeal.S50000x128, .f32⟩ : BufTy).Contents (Elt Ideal)}
    {ei ei' : (⟨Cert.ReferenceIdeal.S2x1600000, .i32⟩ : BufTy).Contents (Elt Ideal)}
    {bt bt' : (⟨Cert.ReferenceIdeal.S50000, .i32⟩ : BufTy).Contents (Elt Ideal)}
    {w0 w0' w1 w1' w2 w2' : (⟨Cert.ReferenceIdeal.S128x128, .f32⟩ : BufTy).Contents (Elt Ideal)}
    {b0 b0' b1 b1' b2 b2' : (⟨Cert.ReferenceIdeal.S128, .f32⟩ : BufTy).Contents (Elt Ideal)}
    (h0 : x' = x) (h1 : ei' = ei) (h2 : bt' = bt) (h3 : w0' = w0) (h4 : b0' = b0) (h5 : w1' = w1) (h6 : b1' = b1)
    (h7 : w2' = w2) (h8 : b2' = b2) :
    Cert.Spec.pooled (F := Ideal) x' ei' bt' w0' b0' w1' b1' w2' b2' = Cert.Spec.pooled (F := Ideal) x ei bt w0 b0 w1 b1 w2 b2 := by
  subst h0 h1 h2 h3 h4 h5 h6 h7 h8; rfl

/-- Equal arguments give equal classification heads. -/
theorem headC_congr {p p' : (⟨Cert.ReferenceIdeal.S64x128, .f32⟩ : BufTy).Contents (Elt Ideal)}
    {w w' : (⟨Cert.ReferenceIdeal.S128x10, .f32⟩ : BufTy).Contents (Elt Ideal)}
    {b b' : (⟨Cert.ReferenceIdeal.S10, .f32⟩ : BufTy).Contents (Elt Ideal)} (hp : p' = p) (hw : w' = w) (hb : b' = b) :
    Cert.Spec.headC (F := Ideal) p' w' b' = Cert.Spec.headC (F := Ideal) p w b := by
  subst hp hw hb; rfl

/-- Equal arguments give equal regression heads. -/
theorem headR_congr {p p' : (⟨Cert.ReferenceIdeal.S64x128, .f32⟩ : BufTy).Contents (Elt Ideal)}
    {w w' : (⟨Cert.ReferenceIdeal.S128x1, .f32⟩ : BufTy).Contents (Elt Ideal)}
    {b b' : (⟨Cert.ReferenceIdeal.S1, .f32⟩ : BufTy).Contents (Elt Ideal)} (hp : p' = p) (hw : w' = w) (hb : b' = b) :
    Cert.Spec.headR (F := Ideal) p' w' b' = Cert.Spec.headR (F := Ideal) p w b := by
  subst hp hw hb; rfl

/-- From memories that agree on the thirteen arguments both idealized programs end with the pooled features and the two
    heads of the network of `Cert.Spec` read at those arguments. -/
theorem algebraic : Cert.algebraic_KernelIdeal_ReferenceIdeal := by
  intro m ρ m' ρ' _ hagree
  refine ⟨fun c => (Cert.Spec.pooled (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))),
    fun c => Cert.Spec.headC (F := Ideal) (Cert.Spec.pooled (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Spec.headR (F := Ideal) (Cert.Spec.pooled (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · -- the kernel: its run names the results at the last boundary, whose contents the chain of stages reads
    refine (θ_run Cert.KernelIdeal.defs _ _).mono (fun r h c => ?_) (Cert.KernelIdeal.RunV.run (F := Ideal) m ρ)
    obtain ⟨h0, h1, h2, hargs⟩ := h c
    exact ⟨h0.trans (Cert.KernelIdeal.Chain.W19_v79 m ρ c), h1.trans (Cert.KernelIdeal.Chain.W19_v83 m ρ c),
      h2.trans (Cert.KernelIdeal.Chain.W19_v87 m ρ c), hargs⟩
  · -- the reference: the same functions of its own arguments, which agree with the kernel's
    refine (θ_run Cert.ReferenceIdeal.defs _ _).mono (fun r h c => ?_) (Cert.ReferenceIdeal.RunV.run (F := Ideal) m' ρ')
    obtain ⟨h0, h1, h2, hargs⟩ := h c
    obtain ⟨e0, e1, e2, e3, e4, e5, e6, e7, e8, e9, e10, e11, e12⟩ := hagree c
    have ep := pooled_congr e0 e1 e2 e3 e4 e5 e6 e7 e8
    exact ⟨h0.trans ep, h1.trans (headC_congr ep e9 e10), h2.trans (headR_congr ep e11 e12), hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
